-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x128 .f32) (main_arg6 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x256 : Shape := ⟨2, ![5000, 256]⟩
abbrev S5000x1 : Shape := ⟨2, ![5000, 1]⟩
abbrev S800000x256 : Shape := ⟨2, ![800000, 256]⟩
abbrev S50000x128 : Shape := ⟨2, ![50000, 128]⟩
abbrev S5000x128 : Shape := ⟨2, ![5000, 128]⟩
abbrev S1x256 : Shape := ⟨2, ![1, 256]⟩
abbrev S800000x128 : Shape := ⟨2, ![800000, 128]⟩
abbrev S1x128 : Shape := ⟨2, ![1, 128]⟩

abbrev nBuf : Space → Nat
  | .hbm => 57
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128, .f32⟩
  | .hbm, ⟨56, _⟩ => ⟨S128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S256, .f32⟩
  | .local _ .vmem, ⟨12, _⟩ => ⟨S256x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S1x128, .f32⟩
  | .local _ .vmem, ⟨23, _⟩ => ⟨S1x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_9 : BitVec 32 := 0#32
  let v22 : BitVec 1 := Scalar.cmpi .ne v21 c0_i32_9
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S50000x256 : S_.BroadcastsInDim S50000x256 (![] : Fin 0 → Fin S50000x256.rank)
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  shapeCasts_S1x128_S128 : S1x128.ShapeCasts S128
  scatter_S50000_S800000x1_S800000_n_0_0_1_wf : ScatterDims.WF S50000 S800000x1 S800000 [] [0] [0] 1
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x256, .f32⟩
  | .hbm, ⟨26, _⟩ => ⟨S50000x1, .f32⟩
  | .hbm, ⟨27, _⟩ => ⟨S50000x256, .f32⟩
  | .hbm, ⟨28, _⟩ => ⟨S50000x256, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x256, .f32⟩
  | .hbm, ⟨38, _⟩ => ⟨S_, .f32⟩
  | .hbm, ⟨39, _⟩ => ⟨S50000x256, .f32⟩
  | .hbm, ⟨40, _⟩ => ⟨S800000x1, .i32⟩
  | .hbm, ⟨41, _⟩ => ⟨S50000x256, .f32⟩
  | .hbm, ⟨42, _⟩ => ⟨S50000x1, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S50000x128, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Proj.lean ====
/-
  Region 0 of the kernel's program: the dense projection of one tile of 5000 node rows,
  (X_tile · W) scaled row by row by the out-degree norm column. The tile of X, the whole of W
  and the tile of the norm column are read; the product tile is stored whole.
-/
import proofs.«137392_j61306363183369_1_alg».proof.Proof.Gen.KernelIdeal.Launch
import proofs.«137392_j61306363183369_1_alg».proof.Proof.Gen.KernelIdeal.Skeleton
import proofs.«137392_j61306363183369_1_alg».proof.Proof.Gen.KernelIdeal.Points
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Whole-buffer accesses

Each load of the body, and its one store, goes through the rectangle that starts at row 0, column 0 and has the
extents of the buffer itself: all of the buffer. -/

/-- The offsets of that rectangle in a matrix-shaped buffer: zero on both axes. -/
private theorem origin2 : (![0, 0] : Fin 2 → Nat) = fun _ => 0 := funext fun a => by fin_cases a <;> rfl

/-- The rectangle the product tile is stored through: all 5000 × 256 entries. -/
private abbrev allOfTile : Rect S5000x256 :=
  Rect.unit (s := S5000x256) ![0, 0] S5000x256.size inb_S5000x256_S5000x256_0_0

/-- A single store through it reaches every entry of the tile. -/
private theorem allOfTile_reaches (p : Vec F S5000x256 .f32) (y : S5000x256.Idx) :
    ∃ pc ∈ ([⟨allOfTile, p⟩] : List (View.Piece (Elt F) S5000x256 .f32)), y ∈ pc.1.set :=
  ⟨_, List.mem_singleton_self _, View.mem_set_unit_zero (S := S5000x256) origin2 inb_S5000x256_S5000x256_0_0 y⟩

section
variable (V : (c : Dev nD) → (b : Ref sig .tc) → Buf (Elt F) ((c : Thread nD τ).loc b))

/-- Window `w`'s block at grid point `t`, read off the array the region finds at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output tile, from the three input tiles. -/
def out0 (x : Vec F S5000x256 .f32) (w : Vec F S256x256 .f32) (n : Vec F S5000x1 .f32) : Vec F S5000x256 .f32 :=
  k0_pay1 x w n

/-- The proof data of region 0 on core `c`: arrays as found at entry, every input tile left in place, the
    output tile at the scaled product; nothing kept between points beyond the scoped rest. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after3 (c : Dev nD) (t : Fin cfg0.N) :
    (dat0 V c).after 3 t = out0 (blk0 V c 0 t) (blk0 V c 1 t) (blk0 V c 2 t) := by dsimp only [dat0]

/-! ## The three inputs are left where they are -/

private theorem x_left (c : Dev nD) (t : Fin cfg0.N) : (dat0 V c).after 0 t = blk0 V c 0 t := by dsimp only [dat0]
private theorem w_left (c : Dev nD) (t : Fin cfg0.N) : (dat0 V c).after 1 t = blk0 V c 1 t := by dsimp only [dat0]
private theorem norm_left (c : Dev nD) (t : Fin cfg0.N) : (dat0 V c).after 2 t = blk0 V c 2 t := by dsimp only [dat0]

/-! ## What the body finds in the input buffers

No block of this region overhangs its array, so a fetch fills all of the window's buffer: a buffer just fetched
into holds the block, whatever it held. -/

private theorem x_fetched (c : Dev nD) (t : Fin cfg0.N) (d) : (dat0 V c).fetched 0 t d = blk0 V c 0 t := by
  unfold Dat.fetched Dat.blockOf blk0
  rw [dat0_A] <;> rfl

private theorem w_fetched (c : Dev nD) (t : Fin cfg0.N) (d) : (dat0 V c).fetched 1 t d = blk0 V c 1 t := by
  unfold Dat.fetched Dat.blockOf blk0
  rw [dat0_A] <;> rfl

private theorem norm_fetched (c : Dev nD) (t : Fin cfg0.N) (d) : (dat0 V c).fetched 2 t d = blk0 V c 2 t := by
  unfold Dat.fetched Dat.blockOf blk0
  rw [dat0_A] <;> rfl

/-- The tile of `X` moves with the point and is fetched at each: the body finds this point's 5000 rows. -/
private theorem x_found (c : Dev nD) (t : Fin cfg0.N) (d) : (dat0 V c).before 0 t d = blk0 V c 0 t :=
  ((dat0 V c).before_fetched 0 t (fetch0_0 t) d).trans (x_fetched V c t d)

/-- So does the tile of the norm column. -/
private theorem norm_found (c : Dev nD) (t : Fin cfg0.N) (d) : (dat0 V c).before 2 t d = blk0 V c 2 t :=
  ((dat0 V c).before_fetched 2 t (fetch0_2 t) d).trans (norm_fetched V c t d)

/-- `W` is a single block, fetched at the first point only; the body leaves it as it is, so at every later point
    the buffer still holds it. -/
private theorem w_found (c : Dev nD) (t : Fin cfg0.N) (d) : (dat0 V c).before 1 t d = blk0 V c 1 t :=
  ((dat0 V c).before_in_eq_fetched 1 rfl (fun _ => rfl) (fun _ _ _ => rfl)
      (fun t' => by rw [w_left]; unfold Dat.blockOf blk0; rw [dat0_A] <;> rfl) t d).trans (w_fetched V c t d)

/-! ## One tile of the projection -/

set_option maxHeartbeats 1000000 in
/-- On buffers holding a tile `x` of `X`, the matrix `w` and a tile `n` of the norm column, and an output buffer
    holding anything, the body ends with the inputs as they were and the output buffer at `x · w` scaled row by
    row by `n`. -/
private theorem proj_tile (c : Dev nD) (E : Set ℕ) (i : grid0.Coords)
    (mx : Memref sig .tc .vmem S5000x256 .f32) (hx : mx.IsWhole) (mw : Memref sig .tc .vmem S256x256 .f32) (hw : mw.IsWhole)
    (mn : Memref sig .tc .vmem S5000x1 .f32) (hn : mn.IsWhole) (mo : Memref sig .tc .vmem S5000x256 .f32) (ho : mo.IsWhole)
    (x : Vec F S5000x256 .f32) (w : Vec F S256x256 .f32) (n : Vec F S5000x1 .f32) (K : PUnit → sProp 𝕄) :
    iprop(owns (c : Thread nD τ) mx fullShare x ∗ owns (c : Thread nD τ) mw fullShare w ∗ owns (c : Thread nD τ) mn fullShare n
        ∗ (∃ d, owns (c : Thread nD τ) mo fullShare d)
        ∗ (iprop(owns (c : Thread nD τ) mx fullShare x ∗ owns (c : Thread nD τ) mw fullShare w ∗ owns (c : Thread nD τ) mn fullShare n
            ∗ owns (c : Thread nD τ) mo fullShare (out0 x w n)) -∗ K ⟨⟩))
      ⊢ wp frame (wpE (defs₀ (F := F)) Variants.none c none) E (cc0__proj_kernel i mx hx mw hw mn hn mo ho) K := by
  simp only [cc0__proj_kernel_eq_skeleton]; unfold cc0__proj_kernel_skel
  unfold owns
  iintro ⟨⟨%fx, %ex, Hx⟩, ⟨%fw, %ew, Hw⟩, ⟨%fn, %en, Hn⟩, ⟨%d, %fo, -, Ho⟩, Hk⟩
  subst ex ew en
  sl_exec
  sl_step
  iapply Hk
  isplitl [Hx]
  · iexists fx; isplitr; · ipureintro; rfl
    iexact Hx
  isplitl [Hw]
  · iexists fw; isplitr; · ipureintro; rfl
    iexact Hw
  isplitl [Hn]
  · iexists fn; isplitr; · ipureintro; rfl
    iexact Hn
  iexists _; isplitr
  swap; · iexact Ho
  ipureintro
  -- the one store reaches every entry, so the buffer reads as its payload; each load read all of its buffer
  refine (View.read_writes_eq_canon _ _ _ (allOfTile_reaches _)).trans ?_
  refine (View.canon_unit_zero (S := S5000x256) origin2 _ _).trans ?_
  unfold out0
  rw [View.readAt_eq_ld, View.readAt_eq_ld, View.readAt_eq_ld,
    View.ld_unit_zero (S := S5000x256) origin2, View.ld_unit_zero (S := S256x256) origin2,
    View.ld_unit_zero (S := S5000x1) origin2]

/-! ## The body at a grid point -/

/-- What the pipeline hands the body at point `t`: the region's invariant, what the core owes, and each window's
    current buffer as the point finds it. -/
private def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant and debts, and each buffer at what the proof data says it leaves. -/
private def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At every point the three input buffers hold the point's blocks, so the body computes the point's product tile;
    the invariant and the debts are not touched. -/
private theorem proj_at (c : Dev nD) (t : Fin cfg0.N) :
    handed0 V c t ⊢ wp frame (wpE (defs₀ (F := F)) Variants.none c none) Set.univ (bodyAt0 t) (fun _ => returned0 V c t) := by
  unfold handed0 returned0 bodyAt0
  simp only [x_found, w_found, norm_found]
  rw [show (dat0 V c).Φ t.succ = (dat0 V c).Φ t.castSucc from rfl,
    show (dat0 V c).owesAt () t.succ = (dat0 V c).owesAt () t.castSucc from rfl,
    x_left, w_left, norm_left, dat0_after3]
  iintro ⟨HΦ, Hdue, ⟨%dx, Hx⟩, ⟨%dw, Hw⟩, ⟨%dn, Hn⟩, ⟨%dout, Ho⟩⟩
  iapply (proj_tile c Set.univ _ _ _ _ _ _ _ _ _ (blk0 V c 0 t) (blk0 V c 1 t) (blk0 V c 2 t) _)
  isplitl [Hx]; · iexact Hx
  isplitl [Hw]; · iexact Hw
  isplitl [Hn]; · iexact Hn
  isplitl [Ho]; · iexists _; iexact Ho
  iintro ⟨Hx, Hw, Hn, Ho⟩
  isplitl [HΦ]; · iexact HΦ
  isplitl [Hdue]; · iexact Hdue
  isplitl [Hx]; · iexact Hx
  isplitl [Hw]; · iexact Hw
  isplitl [Hn]; · iexact Hn
  iexact Ho

/-- The body at every grid point meets the pipeline's obligation. -/
theorem body_obligation0 (c : Dev nD) : BodyObligation (dat0 (F := F) V c) (defs₀ (F := F)) Variants.none () Set.univ := fun t => by
  rw [bigSep_W0, bigSep_W0]
  exact proj_at V c t

end

end Cert.KernelIdeal.Hand

end
-- ==== Proof.Comb.lean ====
/-
  Region 1 of the kernel's program: one tile of 5000 node rows of the second layer's input.
  The aggregated tile is scaled row by row by the in-degree norm column, the bias row is added,
  negative entries are clipped to zero, the result is multiplied by the second weight matrix and
  scaled row by row by the out-degree norm column. The product tile is stored whole.
-/
import proofs.«137392_j61306363183369_1_alg».proof.Proof.Gen.KernelIdeal.Launch
import proofs.«137392_j61306363183369_1_alg».proof.Proof.Gen.KernelIdeal.Skeleton
import proofs.«137392_j61306363183369_1_alg».proof.Proof.Gen.KernelIdeal.Points
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array the region finds at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the output tile, from the five input blocks. -/
def out1 (a : Vec F S5000x256 .f32) (ni : Vec F S5000x1 .f32) (b : Vec F S256 .f32) (w : Vec F S256x128 .f32)
    (no : Vec F S5000x1 .f32) : Vec F S5000x128 .f32 :=
  k1_pay1 a ni b w no

/-- The proof data of region 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after5 (c : Dev nD) (t : Fin cfg1.N) :
    (dat1 V c).after 5 t = out1 (blk1 V c 0 t) (blk1 V c 1 t) (blk1 V c 2 t) (blk1 V c 3 t) (blk1 V c 4 t) := by
  dsimp only [dat1]

/-! ## The input tiles are found in place

Each of the five input windows is left by the body as it was found, is never idle and is never cut by the
array's edge. So at every grid point its staging buffer holds the window's block there: at a point that fetches
it because the fetch has just landed, and at a point that does not (the bias row and the weight matrix after the
first point) because the block index has not moved since the point before. -/

private theorem after1_0 (c : Dev nD) (t : Fin cfg1.N) : (dat1 V c).after 0 t = blk1 V c 0 t := by dsimp only [dat1]
private theorem after1_1 (c : Dev nD) (t : Fin cfg1.N) : (dat1 V c).after 1 t = blk1 V c 1 t := by dsimp only [dat1]
private theorem after1_2 (c : Dev nD) (t : Fin cfg1.N) : (dat1 V c).after 2 t = blk1 V c 2 t := by dsimp only [dat1]
private theorem after1_3 (c : Dev nD) (t : Fin cfg1.N) : (dat1 V c).after 3 t = blk1 V c 3 t := by dsimp only [dat1]
private theorem after1_4 (c : Dev nD) (t : Fin cfg1.N) : (dat1 V c).after 4 t = blk1 V c 4 t := by dsimp only [dat1]

/-- The aggregated tile. -/
private theorem found1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [dat1_A]; try rfl) t d).trans
    (by unfold Dat.fetched Dat.blockOf blk1; rw [dat1_A]; try rfl)

/-- The in-degree norm column tile. -/
private theorem found1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [dat1_A]; try rfl) t d).trans
    (by unfold Dat.fetched Dat.blockOf blk1; rw [dat1_A]; try rfl)

/-- The bias row: fetched once, the same block at every point. -/
private theorem found1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [dat1_A]; try rfl) t d).trans
    (by unfold Dat.fetched Dat.blockOf blk1; rw [dat1_A]; try rfl)

/-- The second weight matrix: fetched once, the same block at every point. -/
private theorem found1_3 (c : Dev nD) (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [dat1_A]; try rfl) t d).trans
    (by unfold Dat.fetched Dat.blockOf blk1; rw [dat1_A]; try rfl)

/-- The out-degree norm column tile. -/
private theorem found1_4 (c : Dev nD) (t : Fin cfg1.N) (d) : (dat1 V c).before 4 t d = blk1 V c 4 t :=
  ((dat1 V c).before_in_eq_fetched 4 rfl (fun _ => rfl) (fun _ _ _ => rfl)
      (fun t => by rw [after1_4]; unfold Dat.blockOf blk1; rw [dat1_A]; try rfl) t d).trans
    (by unfold Dat.fetched Dat.blockOf blk1; rw [dat1_A]; try rfl)

end

/-! ## One tile of the layer

The body reads each of its five input buffers whole, reads the output buffer (a value it never uses) and stores
the product tile over the whole output buffer. A read through the rectangle at the origin that spans the buffer
is the buffer's contents, and one store through that rectangle leaves exactly its payload: so the output buffer
ends at `out1` of the five contents, whatever it held. -/

/-- The origin of a rank-one and of a rank-two shape, as the constant offset. -/
private theorem origin1 : (![0] : Fin 1 → ℕ) = fun _ => 0 := funext fun a => by fin_cases a; rfl
private theorem origin2 : (![0, 0] : Fin 2 → ℕ) = fun _ => 0 := funext fun a => by fin_cases a <;> rfl

/-- The one store spans the output tile: every index of the tile lies in its rectangle. -/
private theorem store_spans (p : Vec F S5000x128 .f32) (y : S5000x128.Idx) :
    ∃ pc ∈ ([⟨Rect.unit (s := S5000x128) ![0, 0] S5000x128.size inb_S5000x128_S5000x128_0_0, p⟩] :
        List (View.Piece (Elt F) S5000x128 .f32)), y ∈ pc.1.set :=
  ⟨_, List.mem_singleton_self _, View.mem_set_unit_zero (S := S5000x128) origin2 inb_S5000x128_S5000x128_0_0 y⟩

set_option maxHeartbeats 1000000 in
/-- On whole staging memrefs holding the aggregated tile `a`, the in-degree norms `ni`, the bias `b`, the
    weights `w` and the out-degree norms `no`, with the output memref at anything, the body runs to the
    continuation with the five inputs as they were and the output at `out1 a ni b w no`. -/
private theorem combine_tile (c : Dev nD) (E : Set ℕ) (i : grid1.Coords)
    (mA : Memref sig .tc .vmem S5000x256 .f32) (hmA : mA.IsWhole) (mNi : Memref sig .tc .vmem S5000x1 .f32) (hmNi : mNi.IsWhole)
    (mB : Memref sig .tc .vmem S256 .f32) (hmB : mB.IsWhole) (mW : Memref sig .tc .vmem S256x128 .f32) (hmW : mW.IsWhole)
    (mNo : Memref sig .tc .vmem S5000x1 .f32) (hmNo : mNo.IsWhole) (mO : Memref sig .tc .vmem S5000x128 .f32) (hmO : mO.IsWhole)
    (a : Vec F S5000x256 .f32) (ni : Vec F S5000x1 .f32) (b : Vec F S256 .f32) (w : Vec F S256x128 .f32) (no : Vec F S5000x1 .f32)
    (K : PUnit → sProp 𝕄) :
    iprop(owns (c : Thread nD τ) mA fullShare a ∗ owns (c : Thread nD τ) mNi fullShare ni ∗ owns (c : Thread nD τ) mB fullShare b
        ∗ owns (c : Thread nD τ) mW fullShare w ∗ owns (c : Thread nD τ) mNo fullShare no ∗ (∃ d, owns (c : Thread nD τ) mO fullShare d)
        ∗ (iprop(owns (c : Thread nD τ) mA fullShare a ∗ owns (c : Thread nD τ) mNi fullShare ni ∗ owns (c : Thread nD τ) mB fullShare b
              ∗ owns (c : Thread nD τ) mW fullShare w ∗ owns (c : Thread nD τ) mNo fullShare no
              ∗ owns (c : Thread nD τ) mO fullShare (out1 a ni b w no)) -∗ K ⟨⟩))
      ⊢ wp frame (wpE (defs₀ (F := F)) Variants.none c none) E
          (cc1__combine_kernel i mA hmA mNi hmNi mB hmB mW hmW mNo hmNo mO hmO) K := by
  sl_unfold [cc1__combine_kernel]
  unfold owns
  iintro ⟨⟨%fa, %ha, Ha⟩, ⟨%fni, %hni, Hni⟩, ⟨%fb, %hb, Hb⟩, ⟨%fw, %hw, Hw⟩, ⟨%fno, %hno, Hno⟩, ⟨%d, %fo, -, Ho⟩, Hk⟩
  subst ha hni hb hw hno
  sl_exec
  sl_step
  iapply Hk
  isplitl [Ha]
  · iexists fa; isplitr; · ipureintro; rfl
    iexact Ha
  isplitl [Hni]
  · iexists fni; isplitr; · ipureintro; rfl
    iexact Hni
  isplitl [Hb]
  · iexists fb; isplitr; · ipureintro; rfl
    iexact Hb
  isplitl [Hw]
  · iexists fw; isplitr; · ipureintro; rfl
    iexact Hw
  isplitl [Hno]
  · iexists fno; isplitr; · ipureintro; rfl
    iexact Hno
  iexists _; isplitr
  swap; · iexact Ho
  ipureintro
  -- what the one spanning store leaves is its payload, and each whole read is the buffer's contents
  refine (View.read_writes_eq_canon _ _ _ (store_spans _)).trans ?_
  refine (View.canon_unit_zero (S := S5000x128) origin2 inb_S5000x128_S5000x128_0_0 _).trans ?_
  unfold out1
  exact congr (congr (congr (congr (congrArg k1_pay1
    (View.ld_unit_zero (S := S5000x256) origin2 inb_S5000x256_S5000x256_0_0 (mA.view.read (Elt F) fa)))
    (View.ld_unit_zero (S := S5000x1) origin2 inb_S5000x1_S5000x1_0_0 (mNi.view.read (Elt F) fni)))
    (View.ld_unit_zero (S := S256) origin1 inb_S256_S256_0 (mB.view.read (Elt F) fb)))
    (View.ld_unit_zero (S := S256x128) origin2 inb_S256x128_S256x128_0_0 (mW.view.read (Elt F) fw)))
    (View.ld_unit_zero (S := S5000x1) origin2 inb_S5000x1_S5000x1_0_0 (mNo.view.read (Elt F) fno))

section
variable (V : (c : Dev nD) → (b : Ref sig .tc) → Buf (Elt F) ((c : Thread nD τ).loc b))

/-! ## The body at a grid point -/

/-- What the body is handed at point `t`: the invariant, what the core owes, and each window's current staging
    buffer at what it then holds. -/
private def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each buffer at what the proof data say it leaves. -/
private def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the five input buffers hold their blocks, so the tile's triple applies at those blocks; the
    invariant and the debts are not touched. -/
private theorem body_at (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    after1_0, after1_1, after1_2, after1_3, after1_4, dat1_after5]
  iintro ⟨HΦ, Hd, ⟨%d0, H0⟩, ⟨%d1, H1⟩, ⟨%d2, H2⟩, ⟨%d3, H3⟩, ⟨%d4, H4⟩, ⟨%d5, H5⟩⟩
  iapply (combine_tile c Set.univ _ _ _ _ _ _ _ _ _ _ _ _ _
    (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Hd]; · iexact Hd
  isplitl [H0]; · iexact H0
  isplitl [H1]; · iexact H1
  isplitl [H2]; · iexact H2
  isplitl [H3]; · iexact H3
  isplitl [H4]; · iexact H4
  iexact H5

/-- The body at every grid point meets the pipeline's obligation. -/
theorem body_obligation1 (c : Dev nD) : BodyObligation (dat1 (F := F) V c) (defs₀ (F := F)) Variants.none () Set.univ := fun t => by
  rw [bigSep_W1, bigSep_W1]
  exact body_at V c t

end

end Cert.KernelIdeal.Hand

end
-- ==== Proof.Pool.lean ====
/-
  Region 2 of the kernel's program: the mean over all 50000 node rows, ten tiles of 5000 rows.
  A one-row accumulator is kept between grid points: zeroed at the first point, then at every point
  the column sums of (aggregated tile scaled row by row by the in-degree norm, plus the bias row) are
  added to it; at the last point the accumulator times the reciprocal of the row count is stored into
  the one-row output block, which is written back there and nowhere else.
-/
import proofs.«137392_j61306363183369_1_alg».proof.Proof.Gen.KernelIdeal.Launch
import proofs.«137392_j61306363183369_1_alg».proof.Proof.Gen.KernelIdeal.Skeleton
import proofs.«137392_j61306363183369_1_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The scratch row, and the scoped buffers beside it -/

/-- The one-row scratch buffer in which the running column sums are kept, as a memref. -/
abbrev sumsM : Memref sig .tc .vmem S1x128 .f32 := Memref.whole cc2_scratch0

/-- Every scoped buffer of the core that is neither a staging buffer of this region nor its scratch row (they are the
    other two regions' staging buffers), each whole at some contents: this region never touches them. -/
abbrev beside2 (c : Dev nD) : sProp 𝕄 :=
  Pipeline.scopedRestBut (Ix := Unit) (Name := ℕ) (U := UR sig nD τ) (Lvl := ℕ) (Val := Elt F) spec2 c [cc2_scratch0]

/-- The scoped rest of this region is its scratch row at some contents, and the buffers beside it. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) sumsM fullShare d) ∗ beside2 (F := F) c) := by
  rw [Pipeline.scopedRest_split_of_list spec2 c [cc2_scratch0] (by decide) (by decide)]
  simp only [bigSepL_singleton, sumsM, owns_whole]
  try rfl

section
variable (V : (c : Dev nD) → (b : Ref sig .tc) → Buf (Elt F) ((c : Thread nD τ).loc b))

/-- Window `w`'s block at grid point `t`, read off the array the region finds at entry. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator row after grid point `n`: the zero row plus the first tile's column sums, then one
    tile's column sums more per point. -/
def acc2 (c : Dev nD) : (n : ℕ) → n < cfg2.N → Vec F S1x128 .f32
  | 0, h => k2_pay2 (blk2 V c 0 ⟨0, h⟩) (blk2 V c 1 ⟨0, h⟩) (blk2 V c 2 ⟨0, h⟩) k2_pay1
  | n + 1, h => k2_pay2 (blk2 V c 0 ⟨n + 1, h⟩) (blk2 V c 1 ⟨n + 1, h⟩) (blk2 V c 2 ⟨n + 1, h⟩) (acc2 c n (Nat.lt_of_succ_lt h))

/-- What the one-row output block holds after grid point `t`: the scaled accumulator (stored at the last point only;
    at the other points the block is idle and this term is not read). -/
def out2 (c : Dev nD) (t : Fin cfg2.N) : Vec F S1x128 .f32 := k2_pay3 (acc2 V c t.val t.isLt)

/-- The invariant between grid points: before the first point the scoped rest at any contents; after point `n` the
    accumulator buffer at `acc2 … n`, the other scoped buffers at any contents. -/
def Phi2 (c : Dev nD) : (n : ℕ) → n ≤ cfg2.N → sProp 𝕄
  | 0, _ => Pipeline.ΦA spec2 c
  | n + 1, h => iprop(owns (c : Thread nD τ) sumsM fullShare (acc2 V c n h) ∗ beside2 (F := F) c ∗ ∃ r, prngReg c r)

/-- After any point the invariant holds the scratch row at the sums up to that point. -/
theorem Phi2_pos (c : Dev nD) (n : ℕ) (h : n ≤ cfg2.N) (hz : n ≠ 0) :
    Phi2 V c n h = iprop(owns (c : Thread nD τ) sumsM fullShare (acc2 V c (n - 1) (by omega)) ∗ beside2 (F := F) c ∗ ∃ r, prngReg c r) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 V c t
  Φ n := Phi2 V c n.val (Nat.le_of_lt_succ n.isLt)
  q _ := fullShare
  owed _ := 0

theorem dat2_A (c : Dev nD) (w : Fin cfg2.W) : (dat2 V c).A w = V c (Pipeline.arrRef spec2 w) := by
  dsimp only [dat2]

theorem dat2_after3 (c : Dev nD) (t : Fin cfg2.N) : (dat2 V c).after 3 t = out2 V c t := by dsimp only [dat2]

/-- Before the first point the invariant is the scoped rest at any contents and the generator register. -/
theorem dat2_Phi_first (c : Dev nD) : (dat2 V c).Φ 0 = Pipeline.ΦA spec2 c := rfl

/-- After the last point the invariant gives the scoped rest back (the accumulator's contents forgotten). -/
theorem dat2_Phi_last (c : Dev nD) : (dat2 V c).Φ (Fin.last cfg2.N) ⊢ (Pipeline.ΦA spec2 c : sProp 𝕄) := by
  have hN : (Fin.last cfg2.N).val ≠ 0 := by
    rw [Fin.val_last]; have : cfg2.N = 10 := N_2; omega
  rw [show (dat2 V c).Φ (Fin.last cfg2.N) = Phi2 V c (Fin.last cfg2.N).val (Nat.le_of_lt_succ (Fin.last cfg2.N).isLt) from rfl,
    Phi2_pos V c _ _ hN]
  unfold Pipeline.ΦA; rw [scopedRest2_split]
  iintro ⟨Hs, Hb, Hg⟩
  isplitl [Hs Hb]
  · isplitl [Hs]
    · iexists _; iexact Hs
    · iexact Hb
  · iexact Hg

end

/-! ## The two tests the body makes of the grid point -/

/-- The body's first test, as its scalar chain computes it from the point's coordinate: is this the first point? -/
abbrev atFirst (i : grid2.Coords) : Prop :=
  Scalar.cmpi .ne (Scalar.extui (Scalar.cmpi .eq (BitVec.ofNat 32 (i 0).val) 0#32)) 0#32 = 1#1

/-- The body's second test: is this the last point? -/
abbrev atLast (i : grid2.Coords) : Prop := k2_cond2 i = 1#1

/-- Over the ten points, the first test holds at point 0 only, -/
theorem atFirst_iff : ∀ t : Fin cfg2.N, atFirst (grid2.coords t) ↔ t.val = 0 :=
  (by decide +kernel : ∀ t : Fin grid2.N, atFirst (grid2.coords t) ↔ t.val = 0)

/-- and the second at point 9 only. -/
theorem atLast_iff : ∀ t : Fin cfg2.N, atLast (grid2.coords t) ↔ t.val = 9 :=
  (by decide +kernel : ∀ t : Fin grid2.N, atLast (grid2.coords t) ↔ t.val = 9)

/-- Away from the last point the output block is idle: the body stores nothing into it, -/
theorem out_idle : ∀ t : Fin cfg2.N, ¬atLast (grid2.coords t) → cfg2.idle 3 (grid2.coords t) = true := by decide +kernel

/-- and it is not written back there; -/
theorem out_kept : ∀ t : Fin cfg2.N, ¬atLast (grid2.coords t) → (cfg2.win 3).flush t = false := by decide +kernel

/-- at the last point it is live. -/
theorem out_live : ∀ t : Fin cfg2.N, atLast (grid2.coords t) → cfg2.idle 3 (grid2.coords t) = false := by decide +kernel

/-! ## Loads and stores of a whole buffer -/

theorem zeros2 : (![0, 0] : Fin 2 → Nat) = fun _ => 0 := funext fun a => by fin_cases a <;> rfl
theorem zeros1 : (![0] : Fin 1 → Nat) = fun _ => 0 := funext fun a => by fin_cases a; rfl

/-- The rectangle through which the body loads and stores a one-row buffer: all of it. -/
abbrev rowAll : Rect S1x128 := Rect.unit (s := S1x128) ![0, 0] S1x128.size inb_S1x128_S1x128_0_0

/-- Every index of the row lies in it. -/
theorem rowAll_covers {L : List (View.Piece (Elt F) S1x128 .f32)} (w : Vec F S1x128 .f32) (y : S1x128.Idx) :
    ∃ p ∈ (⟨rowAll, w⟩ :: L), y ∈ p.1.set :=
  ⟨_, List.mem_cons.mpr (Or.inl rfl), View.mem_set_unit_zero zeros2 inb_S1x128_S1x128_0_0 y⟩

section
variable (V : (c : Dev nD) → (b : Ref sig .tc) → Buf (Elt F) ((c : Thread nD τ).loc b))

/-! ## What the body finds in the input windows -/

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]

/-- The aggregated tile's staging buffer holds the tile at every point. -/
theorem before2_0 (c : Dev nD) (t : Fin cfg2.N) (d) : (dat2 V c).before 0 t d = blk2 V c 0 t :=
  ((dat2 V c).before_in_eq_fetched 0 rfl (fun _ => rfl) (fun _ _ _ => rfl)
      (fun t => by rw [after2_0]; unfold Dat.blockOf blk2; rw [dat2_A]; try rfl) t d).trans
    (by unfold Dat.fetched Dat.blockOf blk2; rw [dat2_A]; try rfl)

/-- The norm column's staging buffer holds the tile's rows of it at every point. -/
theorem before2_1 (c : Dev nD) (t : Fin cfg2.N) (d) : (dat2 V c).before 1 t d = blk2 V c 1 t :=
  ((dat2 V c).before_in_eq_fetched 1 rfl (fun _ => rfl) (fun _ _ _ => rfl)
      (fun t => by rw [after2_1]; unfold Dat.blockOf blk2; rw [dat2_A]; try rfl) t d).trans
    (by unfold Dat.fetched Dat.blockOf blk2; rw [dat2_A]; try rfl)

/-- The bias row's staging buffer, fetched once, holds the bias row at every point. -/
theorem before2_2 (c : Dev nD) (t : Fin cfg2.N) (d) : (dat2 V c).before 2 t d = blk2 V c 2 t :=
  ((dat2 V c).before_in_eq_fetched 2 rfl (fun _ => rfl) (fun _ _ _ => rfl)
      (fun t => by rw [after2_2]; unfold Dat.blockOf blk2; rw [dat2_A]; try rfl) t d).trans
    (by unfold Dat.fetched Dat.blockOf blk2; rw [dat2_A]; try rfl)

/-- The running sums, point by point: at the first point from the zero row, -/
theorem acc2_first (c : Dev nD) (t : Fin cfg2.N) (hz : t.val = 0) :
    acc2 V c t.val t.isLt = k2_pay2 (blk2 V c 0 t) (blk2 V c 1 t) (blk2 V c 2 t) k2_pay1 := by
  obtain ⟨n, hn⟩ := t
  cases n with
  | zero => rfl
  | succ n => exact absurd hz (Nat.succ_ne_zero n)

/-- afterwards from the sums up to the point before. -/
theorem acc2_later (c : Dev nD) (t : Fin cfg2.N) (hz : t.val ≠ 0) :
    acc2 V c t.val t.isLt
      = k2_pay2 (blk2 V c 0 t) (blk2 V c 1 t) (blk2 V c 2 t) (acc2 V c (t.val - 1) (Nat.lt_of_le_of_lt (Nat.sub_le _ _) t.isLt)) := by
  obtain ⟨n, hn⟩ := t
  cases n with
  | zero => exact absurd rfl hz
  | succ n => rfl

end

/-! ## The body, run whole in each of its three control cases

The body is run on five whole memrefs: the aggregated tile's, the norm column's and the bias row's staging buffers
(read), the output row's staging buffer and the scratch row. In every case the scratch row ends at the column sums of
(tile scaled row by row by the norm, plus the bias row) added to what it held — the zero row at the first point. -/

section Runs

variable (c : Dev nD) (E : Set ℕ) (i : grid2.Coords)
  (tileM : Memref sig .tc .vmem S5000x128 .f32) (htile : tileM.IsWhole)
  (normM : Memref sig .tc .vmem S5000x1 .f32) (hnorm : normM.IsWhole)
  (biasM : Memref sig .tc .vmem S128 .f32) (hbias : biasM.IsWhole)
  (outM : Memref sig .tc .vmem S1x128 .f32) (hout : outM.IsWhole)
  (sumM : Memref sig .tc .vmem S1x128 .f32) (hsum : sumM.IsWhole)
  (x : Vec F S5000x128 .f32) (s : Vec F S5000x1 .f32) (b : Vec F S128 .f32)

/-- At the first point: the scratch row, whatever it held, is zeroed and then takes the first tile's column sums; the
    output row is left as it was found. -/
theorem run_first (hF : atFirst i) (hL : ¬atLast i) (o : Vec F S1x128 .f32) (K : PUnit → sProp 𝕄) :
    iprop(owns (c : Thread nD τ) tileM fullShare x ∗ owns (c : Thread nD τ) normM fullShare s ∗ owns (c : Thread nD τ) biasM fullShare b
        ∗ owns (c : Thread nD τ) outM fullShare o ∗ (∃ d, owns (c : Thread nD τ) sumM fullShare d)
        ∗ (iprop(owns (c : Thread nD τ) tileM fullShare x ∗ owns (c : Thread nD τ) normM fullShare s ∗ owns (c : Thread nD τ) biasM fullShare b
            ∗ owns (c : Thread nD τ) outM fullShare o ∗ owns (c : Thread nD τ) sumM fullShare (k2_pay2 x s b k2_pay1)) -∗ K ⟨⟩))
      ⊢ wp frame (wpE (defs₀ (F := F)) Variants.none c none) E
          (cc2__finalize_kernel i tileM htile normM hnorm biasM hbias outM hout sumM hsum) K := by
  simp only [cc2__finalize_kernel_eq_skeleton]; unfold cc2__finalize_kernel_skel
  unfold owns
  iintro ⟨⟨%f0, %e0, H0⟩, ⟨%f1, %e1, H1⟩, ⟨%f2, %e2, H2⟩, ⟨%f3, %e3, H3⟩, ⟨%d, %f4, -, H4⟩, Hk⟩
  subst e0 e1 e2 e3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => rowAll_covers _ y)]
  sl_unfold_run_names
  rw [View.canon_cons_unit_zero (S := S1x128) zeros2, View.readCov_unit_zero (S := S1x128) _ zeros2]
  simp only [View.readAt_eq_ld, View.ld_unit_zero (S := S5000x128) zeros2, View.ld_unit_zero (S := S5000x1) zeros2,
    View.ld_unit_zero (S := S128) zeros1, View.ld_unit_zero (S := S1x128) zeros2]

/-- At a point that is neither first nor last: the scratch row at `a` takes this tile's column sums on top; the output row
    is left as it was found. -/
theorem run_middle (hF : ¬atFirst i) (hL : ¬atLast i) (o a : Vec F S1x128 .f32) (K : PUnit → sProp 𝕄) :
    iprop(owns (c : Thread nD τ) tileM fullShare x ∗ owns (c : Thread nD τ) normM fullShare s ∗ owns (c : Thread nD τ) biasM fullShare b
        ∗ owns (c : Thread nD τ) outM fullShare o ∗ owns (c : Thread nD τ) sumM fullShare a
        ∗ (iprop(owns (c : Thread nD τ) tileM fullShare x ∗ owns (c : Thread nD τ) normM fullShare s ∗ owns (c : Thread nD τ) biasM fullShare b
            ∗ owns (c : Thread nD τ) outM fullShare o ∗ owns (c : Thread nD τ) sumM fullShare (k2_pay2 x s b a)) -∗ K ⟨⟩))
      ⊢ wp frame (wpE (defs₀ (F := F)) Variants.none c none) E
          (cc2__finalize_kernel i tileM htile normM hnorm biasM hbias outM hout sumM hsum) K := by
  simp only [cc2__finalize_kernel_eq_skeleton]; unfold cc2__finalize_kernel_skel
  unfold owns
  iintro ⟨⟨%f0, %e0, H0⟩, ⟨%f1, %e1, H1⟩, ⟨%f2, %e2, H2⟩, ⟨%f3, %e3, H3⟩, ⟨%f4, %e4, H4⟩, Hk⟩
  subst e0 e1 e2 e3 e4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => rowAll_covers _ y), View.canon_cons_unit_zero (S := S1x128) zeros2]
  simp only [View.readAt_eq_ld, View.ld_unit_zero (S := S5000x128) zeros2, View.ld_unit_zero (S := S5000x1) zeros2,
    View.ld_unit_zero (S := S128) zeros1, View.ld_unit_zero (S := S1x128) zeros2]

/-- At the last point: the scratch row at `a` takes the last tile's column sums on top, and the output row, whatever it
    held, is stored the new sums times the reciprocal of the row count. -/
theorem run_last (hF : ¬atFirst i) (hL : atLast i) (a : Vec F S1x128 .f32) (K : PUnit → sProp 𝕄) :
    iprop(owns (c : Thread nD τ) tileM fullShare x ∗ owns (c : Thread nD τ) normM fullShare s ∗ owns (c : Thread nD τ) biasM fullShare b
        ∗ (∃ d, owns (c : Thread nD τ) outM fullShare d) ∗ owns (c : Thread nD τ) sumM fullShare a
        ∗ (iprop(owns (c : Thread nD τ) tileM fullShare x ∗ owns (c : Thread nD τ) normM fullShare s ∗ owns (c : Thread nD τ) biasM fullShare b
            ∗ owns (c : Thread nD τ) outM fullShare (k2_pay3 (k2_pay2 x s b a)) ∗ owns (c : Thread nD τ) sumM fullShare (k2_pay2 x s b a)) -∗ K ⟨⟩))
      ⊢ wp frame (wpE (defs₀ (F := F)) Variants.none c none) E
          (cc2__finalize_kernel i tileM htile normM hnorm biasM hbias outM hout sumM hsum) K := by
  simp only [cc2__finalize_kernel_eq_skeleton]; unfold cc2__finalize_kernel_skel
  unfold owns
  iintro ⟨⟨%f0, %e0, H0⟩, ⟨%f1, %e1, H1⟩, ⟨%f2, %e2, H2⟩, ⟨%d, %f3, -, H3⟩, ⟨%f4, %e4, H4⟩, Hk⟩
  subst e0 e1 e2 e4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => rowAll_covers _ y), View.canon_cons_unit_zero (S := S1x128) zeros2]
    sl_unfold_run_names
    rw [View.readCov_unit_zero (S := S1x128) _ zeros2]
    simp only [View.readAt_eq_ld, View.ld_unit_zero (S := S5000x128) zeros2, View.ld_unit_zero (S := S5000x1) zeros2,
      View.ld_unit_zero (S := S128) zeros1, View.ld_unit_zero (S := S1x128) zeros2]
  iexists _; isplitr
  swap; · iexact H4
  ipureintro
  sl_unfold_run_names
  rw [View.read_writes_eq_canon _ _ _ (fun y => rowAll_covers _ y), View.canon_cons_unit_zero (S := S1x128) zeros2]
  simp only [View.readAt_eq_ld, View.ld_unit_zero (S := S5000x128) zeros2, View.ld_unit_zero (S := S5000x1) zeros2,
    View.ld_unit_zero (S := S128) zeros1, View.ld_unit_zero (S := S1x128) zeros2]

end Runs

section
variable (V : (c : Dev nD) → (b : Ref sig .tc) → Buf (Elt F) ((c : Thread nD τ).loc b))

/-! ## The body obligation -/

/-- The invariant at a point's start, by the point's number. -/
theorem Phi2_castSucc (c : Dev nD) (t : Fin cfg2.N) : (dat2 V c).Φ t.castSucc = Phi2 V c t.val (Nat.le_of_lt t.isLt) := by
  dsimp only [dat2]; simp only [Fin.coe_castSucc]

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) sumsM fullShare (acc2 V c n hn) ∗ beside2 (F := F) c ∗ ∃ r, prngReg c r) := rfl

/-- The three input windows are live at every point: the body leaves each its block. -/
theorem leaves2_0 (c : Dev nD) (t : Fin cfg2.N) :
    (dat2 V c).leavesExact 0 t = owns (c : Thread nD τ) (st2_0 t) fullShare (blk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (blk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (blk2 V c 2 t) := by
  unfold Dat.leavesExact; rw [show cfg2.idle 2 (cfg2.grid.coords t) = false from rfl, after2_2]

/-- What the body is called with at point `t`: the invariant, what the core owes, the four windows' current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

/-- The body at any point. The inputs' buffers hold their blocks; the point's number says which of the three control cases
    it is in. At the first point the invariant hands over the scratch row at anything and takes it back at the first
    tile's sums; later it hands it over at the sums up to the point before and takes it back with this tile's added. The
    output row is handed back as found, except at the last point, where it is stored the mean. Nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl,
    leaves2_0, leaves2_1, leaves2_2, Phi2_castSucc, Phi2_succ]
  have hN : t.val < 10 := lt_of_lt_of_eq t.isLt (show cfg2.N = 10 from N_2)
  by_cases hz : t.val = 0
  · have hF : atFirst (grid2.coords t) := (atFirst_iff t).mpr hz
    have hL : ¬atLast (grid2.coords t) := fun h => by have := (atLast_iff t).mp h; omega
    rw [Dat.leavesExact_idle (dat2 V c) 3 t (out_idle t hL) (out_kept t hL), Phi2_zero V c _ _ hz, acc2_first V c t hz]
    unfold Pipeline.ΦA; rw [scopedRest2_split]
    iintro ⟨⟨⟨Hs, Hb⟩, Hg⟩, Ho, ⟨%d0, H0⟩, ⟨%d1, H1⟩, ⟨%d2, H2⟩, ⟨%d3, H3⟩⟩
    iapply (run_first c Set.univ (grid2.coords t) _ _ _ _ _ _ _ _ _ _ (blk2 V c 0 t) (blk2 V c 1 t) (blk2 V c 2 t) hF hL _ _)
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hb Hg]
    · isplitl [Hs]; · iexact Hs
      isplitl [Hb]; · iexact Hb
      iexact Hg
    isplitl [Ho]; · iexact Ho
    isplitl [H0]; · iexact H0
    isplitl [H1]; · iexact H1
    isplitl [H2]; · iexact H2
    iexists _; iexact H3
  · have hF : ¬atFirst (grid2.coords t) := fun h => hz ((atFirst_iff t).mp h)
    by_cases hl : t.val = 9
    · have hL : atLast (grid2.coords t) := (atLast_iff t).mpr hl
      rw [show (dat2 V c).leavesExact 3 t = owns (c : Thread nD τ) (st2_3 t) fullShare (out2 V c t) from by
        unfold Dat.leavesExact; rw [out_live t hL, dat2_after3]]
      unfold out2
      rw [Phi2_pos V c _ _ hz, acc2_later V c t hz]
      iintro ⟨⟨Hs, Hb, Hg⟩, Ho, ⟨%d0, H0⟩, ⟨%d1, H1⟩, ⟨%d2, H2⟩, ⟨%d3, H3⟩⟩
      iapply (run_last c Set.univ (grid2.coords t) _ _ _ _ _ _ _ _ _ _ (blk2 V c 0 t) (blk2 V c 1 t) (blk2 V c 2 t) hF hL _ _)
      isplitl [H0]; · iexact H0
      isplitl [H1]; · iexact H1
      isplitl [H2]; · iexact H2
      isplitl [H3]; · iexists _; iexact H3
      isplitl [Hs]; · iexact Hs
      iintro ⟨H0, H1, H2, H3, Hs⟩
      isplitl [Hs Hb Hg]
      · isplitl [Hs]; · iexact Hs
        isplitl [Hb]; · iexact Hb
        iexact Hg
      isplitl [Ho]; · iexact Ho
      isplitl [H0]; · iexact H0
      isplitl [H1]; · iexact H1
      isplitl [H2]; · iexact H2
      iexact H3
    · have hL : ¬atLast (grid2.coords t) := fun h => hl ((atLast_iff t).mp h)
      rw [Dat.leavesExact_idle (dat2 V c) 3 t (out_idle t hL) (out_kept t hL), Phi2_pos V c _ _ hz, acc2_later V c t hz]
      iintro ⟨⟨Hs, Hb, Hg⟩, Ho, ⟨%d0, H0⟩, ⟨%d1, H1⟩, ⟨%d2, H2⟩, ⟨%d3, H3⟩⟩
      iapply (run_middle c Set.univ (grid2.coords t) _ _ _ _ _ _ _ _ _ _ (blk2 V c 0 t) (blk2 V c 1 t) (blk2 V c 2 t) hF hL _ _ _)
      isplitl [H0]; · iexact H0
      isplitl [H1]; · iexact H1
      isplitl [H2]; · iexact H2
      isplitl [H3]; · iexact H3
      isplitl [Hs]; · iexact Hs
      iintro ⟨H0, H1, H2, H3, Hs⟩
      isplitl [Hs Hb Hg]
      · isplitl [Hs]; · iexact Hs
        isplitl [Hb]; · iexact Hb
        iexact Hg
      isplitl [Ho]; · iexact Ho
      isplitl [H0]; · iexact H0
      isplitl [H1]; · iexact H1
      isplitl [H2]; · iexact H2
      iexists _; iexact H3

/-- The body at every grid point meets the pipeline's obligation. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Chain.lean ====
/-
  The contents of the core's buffers along the program: what region 0 is entered with (the launch memory after
  the first stretch of host operations), what it leaves in its output array, what region 1 is entered with
  (that, after the second stretch), and so on to the result buffer after the closing reshape.
-/
import proofs.«137392_j61306363183369_1_alg».proof.Proof.Proj
import proofs.«137392_j61306363183369_1_alg».proof.Proof.Comb
import proofs.«137392_j61306363183369_1_alg».proof.Proof.Pool
import proofs.«137392_j61306363183369_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]
variable (m : (ℓ : Loc nD τ sig) → Buf (Elt F) ℓ)

/-- What region 0 is entered with, read at the TensorCore's references. -/
abbrev ent0 (c : Dev nD) (b : Ref sig .tc) : Buf (Elt F) ((c : Thread nD τ).loc b) := Gen.V1 m c b
/-- What region 0 leaves in its output array: every tile written back. -/
def o15 (c : Dev nD) : Buf (Elt F) ((c : Thread nD τ).loc main_v15) := (dat0 (ent0 m) c).arrAt 3 cfg0.N
/-- The buffers after region 0. -/
def X2 (c : Dev nD) : Valuation τ sig (Elt F) := Function.update (Gen.V1 m c) main_v15 (o15 m c)
/-- What region 1 is entered with. -/
abbrev ent1 (c : Dev nD) (b : Ref sig .tc) : Buf (Elt F) ((c : Thread nD τ).loc b) := StableHlo.after hostOps1 (X2 m c) b
/-- What region 1 leaves in its output array. -/
def o26 (c : Dev nD) : Buf (Elt F) ((c : Thread nD τ).loc main_v26) := (dat1 (ent1 m) c).arrAt 5 cfg1.N
/-- The buffers after region 1. -/
def X4 (c : Dev nD) : Valuation τ sig (Elt F) := Function.update (StableHlo.after hostOps1 (X2 m c)) main_v26 (o26 m c)
/-- What region 2 is entered with. -/
abbrev ent2 (c : Dev nD) (b : Ref sig .tc) : Buf (Elt F) ((c : Thread nD τ).loc b) := StableHlo.after hostOps2 (X4 m c) b
/-- What region 2 leaves in its one-row output array. -/
def o37 (c : Dev nD) : Buf (Elt F) ((c : Thread nD τ).loc main_v37) := (dat2 (ent2 m) c).arrAt 3 cfg2.N
/-- The buffers after region 2. -/
def X6 (c : Dev nD) : Valuation τ sig (Elt F) := Function.update (StableHlo.after hostOps2 (X4 m c)) main_v37 (o37 m c)
/-- The result buffer at the end: the one-row output read as a vector. -/
def result (c : Dev nD) : Buf (Elt F) ((c.tc : Thread nD τ).loc main_v38) := StableHlo.after hostOps3 (X6 m c) main_v38

end Cert.KernelIdeal.Hand

end
-- ==== Proof.Whole.lean ====
/-
  The run of the whole program. The entry function is seven items in a row: a stretch of host operations (the two
  degree norms), the projection region, a stretch (gather along the edges, scatter-add into the nodes), the
  combination region, a stretch (gather and scatter-add again), the pooling region, and the closing reshape of the
  one-row mean into a vector. Launched once on every core, every weakly fair execution terminates, and at the end the
  result buffer holds the mean read as a vector and each of the seven argument buffers what it was launched with.

  Between two items a core holds every unscoped buffer whole at a known valuation: the launch memory, then what each
  stretch computes from the valuation before it, then that valuation with a region's output array replaced by what the
  region's write-backs leave. Beside the buffers it carries its generator register at some state and its debts, of
  which it has none. A region takes its windows' arrays out of the valuation, hands the register to its invariant, runs
  its pipeline, and puts the arrays back: the input arrays as found (they are never written), the output array at every
  tile written back; every other unscoped buffer goes round the region untouched.
-/
import proofs.«137392_j61306363183369_1_alg».proof.Proof.Chain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-! ## What a core carries beside its buffers -/

/-- No core of this program waits on another: no semaphore is assigned a level, -/
abbrev noPairs : GSem nD τ sig → Finset Unit := fun _ => ∅
/-- and the level function is never consulted. -/
abbrev noLevel : GSem nD τ sig → Unit → ℕ := fun _ _ => 0

/-- Beside its buffers a core carries its generator register at some state, and it owes nothing. -/
abbrev idleCore (c : Dev nD) : sProp 𝕄 :=
  iprop((∃ r, prngReg c r) ∗ ∃ W, owes (c : Thread nD τ) (0 : CellTallies nD τ sig Unit) W)

/-- The same at each of the four host stretches. -/
abbrev idleCores : Fin 4 → Dev nD → sProp 𝕄 := fun _ c => idleCore c

/-- A core that carries this owes nothing. -/
theorem idleCore_owes (c : Dev nD) :
    (idleCore c : sProp 𝕄) ⊢ iprop(∃ W, owes (c : Thread nD τ) (0 : CellTallies nD τ sig Unit) W) := by
  iintro ⟨-, Hdebt⟩
  iexact Hdebt

/-- Buffers held at one valuation are held at any equal one, whatever rides along. -/
theorem held_congr (c : Dev nD) {W W' : Valuation τ sig (Elt F)} (h : W = W') (R : sProp 𝕄) :
    iprop(StableHlo.held (c : Thread nD τ) (Pipeline.ucRefs τ sig) W ∗ R)
      ⊢ iprop(StableHlo.held (c : Thread nD τ) (Pipeline.ucRefs τ sig) W' ∗ R) :=
  by subst h; exact .rfl

/-! ## Debts, tables and the class invariant: what every region of this program does alike -/

section Alike

variable {cfg : Pipeline.Cfg sig Λ₀} {c : Dev nD} (dat : Dat τ (Elt F) Unit ℕ (UR sig nD τ) ℕ cfg c)

/-- A core owing nothing meets the proof data's account of its debts at any point where that account is empty and
    admits every recorded pair. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, Hdebt⟩
  iexists W
  isplitr
  · ipureintro
    exact fun _ _ => Or.inl trivial
  iexact Hdebt

/-- Conversely an empty account is a core owing nothing (which pairs were recorded is forgotten). -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Hdebt⟩
  iexists W
  iexact Hdebt

end Alike

/-- No launch of this program prefetches a table: the tables of a pipeline without any, held at any shares and any
    contents, are the empty resource. -/
theorem tables_none (cfg : Pipeline.Cfg sig Λ₀) (c : Dev nD)
    (q : Fin (cfg.toPCfg (Val := Elt F)).pre.K → PosShare TreeShare) (V : (cfg.toPCfg (Val := Elt F)).pre.Contents (Elt F)) :
    (BI.emp : sProp 𝕄) ⊢ Pipeline.prefHeld (Ix := Unit) (Name := ℕ) (U := UR sig nD τ) (Lvl := ℕ) (cfg.toPCfg (Val := Elt F)).pre c q V := by
  refine Entails.of_eq ?_
  unfold Pipeline.prefHeld
  rw [show (Finset.univ : Finset (Fin (cfg.toPCfg (Val := Elt F)).pre.K)) = ∅ from rfl, BI.bigSep_empty]

/-- The class invariant is made of the generator register and the scoped buffers no window stages; whatever else is
    offered (the tables, of which there are none) is let go. -/
theorem classA_of_parts {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hreg, -, Hscoped⟩
  isplitl [Hscoped]
  · iexact Hscoped
  iexact Hreg

/-- And it gives both back; the kernels have no semaphore of their own to return at zero. -/
theorem parts_of_classA {gr W : Nat} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hscoped, Hreg⟩
  isplitl [Hreg]
  · iexact Hreg
  isplitr
  · iempintro
  iexact Hscoped

/-! ## Entering and leaving a region, for any of the three -/

section Protocol

variable (pd : (p : Fin 3) → (c : Dev nD) → Dat τ (Elt F) Unit ℕ (UR sig nD τ) ℕ (Pipeline.pin (pcfgs (F := F)) Gen.adm p) c)
variable (p : Fin 3) (c : Dev nD)

set_option backward.isDefEq.respectTransparency.types false in
/-- ENTRY. A core holding every unscoped buffer at the valuation `W`, idle otherwise, enters region `p` whose proof
    data reads its arrays off `W`: the arrays at their entry contents, no table, the empty account of debts, the
    generator register for the invariant, and every other unscoped buffer, still at `W`, to go round the region. -/
theorem enter (hw : Pipeline.WinFacts (Pipeline.pin (pcfgs (F := F)) Gen.adm p).spec)
    (harr : ∀ w, ((Pipeline.pin (pcfgs (F := F)) Gen.adm p).spec w).arr.IsWhole)
    (W : Valuation τ sig (Elt F))
    (hA : ∀ w, (pd p c).A w = W (Pipeline.arrRef (Pipeline.pin (pcfgs (F := F)) Gen.adm p).spec w))
    (hq : ∀ w, (pd p c).q w = fullShare) (h0 : (pd p c).owed 0 = 0) (hrec : (pd p c).recorded 0 = Set.univ) :
    (iprop(iprop(StableHlo.held (c : Thread nD τ) (Pipeline.ucRefs τ sig) W ∗ idleCore c)
        ∗ Pipeline.ownSems0 (fun k : PEmpty => k.elim) c ∗ levAts noPairs noLevel) : sProp 𝕄)
      ⊢ |={Set.univ}=> iprop((pd p c).arrays ((pd p c).arrAt · 0)
          ∗ Pipeline.prefHeld (pcfgs (F := F) p).pre c (fun _ => fullShare) (Gen.adm p).1
          ∗ (pd p c).owesAt () 0 ∗ (∃ r, prngReg c r)
          ∗ Pipeline.unscopedRest (Pipeline.pin (pcfgs (F := F)) Gen.adm p).spec c (fun b => W b)) := by
  have hsplit := Pipeline.arrays_of_unscopedBufs (p := p) (pcfgs (F := F)) Gen.adm pd hw harr c
    ((pd p c).share_full hq) (fun b => W b) hA
  rw [Pipeline.unscopedBufs_held c W] at hsplit
  iintro ⟨⟨Hbufs, Hreg, Hdebt⟩, -, -⟩
  ihave Hparts := hsplit $$ Hbufs
  icases Hparts with ⟨Harrays, Hround⟩
  imodintro
  isplitl [Harrays]
  · iexact Harrays
  isplitr
  · iapply (tables_none (cfgs p) c _ _)
    iempintro
  isplitl [Hdebt]
  · iapply (owesAt_of_nothing (pd p c) 0 h0 hrec)
    iexact Hdebt
  isplitl [Hreg]
  · iexact Hreg
  iexact Hround

set_option backward.isDefEq.respectTransparency.types false in
/-- EXIT. The arrays at what the pipeline leaves, the account of debts still empty, the register back from the
    invariant and the buffers that went round at `W` make the core's unscoped buffers at any valuation `W'` that has the
    arrays at what the pipeline leaves and agrees with `W` off them; the core is idle again. -/
theorem leave (hw : Pipeline.WinFacts (Pipeline.pin (pcfgs (F := F)) Gen.adm p).spec)
    (harr : ∀ w, ((Pipeline.pin (pcfgs (F := F)) Gen.adm p).spec w).arr.IsWhole)
    (W W' : Valuation τ sig (Elt F)) (hq : ∀ w, (pd p c).q w = fullShare)
    (hF : ∀ w, (pd p c).arrAt w (Pipeline.pin (pcfgs (F := F)) Gen.adm p).N
      = W' (Pipeline.arrRef (Pipeline.pin (pcfgs (F := F)) Gen.adm p).spec w))
    (hoff : ∀ b : Ref sig .tc, b ∉ Finset.univ.image (Pipeline.arrRef (Pipeline.pin (pcfgs (F := F)) Gen.adm p).spec) → W' b = W b)
    (h0 : (pd p c).owed (Fin.last (Pipeline.pin (pcfgs (F := F)) Gen.adm p).N) = 0) :
    (iprop((pd p c).arrays ((pd p c).arrAt · (Pipeline.pin (pcfgs (F := F)) Gen.adm p).N)
        ∗ (pd p c).owesAt () (Fin.last (Pipeline.pin (pcfgs (F := F)) Gen.adm p).N) ∗ (∃ r, prngReg c r)
        ∗ Pipeline.unscopedRest (Pipeline.pin (pcfgs (F := F)) Gen.adm p).spec c (fun b => W b)) : sProp 𝕄)
      ⊢ |={Set.univ}=> iprop(StableHlo.held (c : Thread nD τ) (Pipeline.ucRefs τ sig) W' ∗ idleCore c) := by
  have hjoin := Pipeline.unscopedBufs_of_arrays (p := p) (pcfgs (F := F)) Gen.adm (Ix := Unit) (Name := ℕ) (U := UR sig nD τ) (Lvl := ℕ)
    hw harr c pd ((pd p c).share_full hq) (fun b => W b) (fun b => W' b)
    ((pd p c).arrAt · (Pipeline.pin (pcfgs (F := F)) Gen.adm p).N) hF hoff
  rw [Pipeline.unscopedBufs_held c W'] at hjoin
  iintro ⟨Harrays, Hdebt, Hreg, Hround⟩
  imodintro
  isplitl [Harrays Hround]
  · iapply hjoin
    isplitl [Harrays] <;> iassumption
  isplitl [Hreg]
  · iexact Hreg
  iapply (nothing_of_owesAt (pd p c) _ h0)
  iexact Hdebt

end Protocol

variable (m : (ℓ : Loc nD τ sig) → Buf (Elt F) ℓ)

/-! ## The valuations between the items -/

/-- Off the reference it replaces, a valuation with one buffer replaced reads as before. -/
theorem update_off (W : Valuation τ sig (Elt F)) {o r : Ref sig .tc}
    (x : (Proc.devRef (τ := τ) .tc o).ty.Contents (Elt F)) (h : r ≠ o) :
    Function.update W (Proc.devRef .tc o) x (Proc.devRef .tc r) = W (Proc.devRef .tc r) :=
  Function.update_of_ne (StableHlo.devRef_ne_of_ne h) x W

/-- Replacing one buffer of equal valuations by equal contents gives equal valuations. -/
theorem update_congr {W W' : Valuation τ sig (Elt F)} (hW : W = W') (o : DevRef τ sig)
    {x x' : o.ty.Contents (Elt F)} (hx : x = x') : Function.update W o x = Function.update W' o x' := by
  subst hW; subst hx; rfl

/-- What the regions leave, as one family indexed by the item they follow: after the projection the buffers hold
    `X2`, after the combination `X4`, after the pooling `X6`. Only the three output arrays are ever read off it. -/
def leftBy : Gen.Outs (F := F) := fun J r c =>
  if J = 2 then X2 m c r else if J = 4 then X4 m c r else X6 m c r

theorem leftBy_proj (c : Dev nD) : leftBy m 2 main_v15 c = o15 m c :=
  (if_pos rfl).trans (Function.update_self _ _ _)

theorem leftBy_comb (c : Dev nD) : leftBy m 4 main_v26 c = o26 m c :=
  (if_neg (by decide)).trans ((if_pos rfl).trans (Function.update_self _ _ _))

theorem leftBy_pool (c : Dev nD) : leftBy m 6 main_v37 c = o37 m c :=
  (if_neg (by decide)).trans ((if_neg (by decide)).trans (Function.update_self _ _ _))

/-- With that family the valuations written over unknown contents are this program's: after the projection, -/
theorem V2_eq (c : Dev nD) : Gen.V2 m (leftBy m) c = X2 m c :=
  update_congr rfl _ (leftBy_proj m c)
/-- after the second stretch, -/
theorem V3_eq (c : Dev nD) : Gen.V3 m (leftBy m) c = StableHlo.after hostOps1 (X2 m c) :=
  congrArg (StableHlo.after hostOps1) (V2_eq m c)
/-- after the combination, -/
theorem V4_eq (c : Dev nD) : Gen.V4 m (leftBy m) c = X4 m c :=
  update_congr (V3_eq m c) _ (leftBy_comb m c)
/-- after the third stretch, -/
theorem V5_eq (c : Dev nD) : Gen.V5 m (leftBy m) c = StableHlo.after hostOps2 (X4 m c) :=
  congrArg (StableHlo.after hostOps2) (V4_eq m c)
/-- after the pooling, -/
theorem V6_eq (c : Dev nD) : Gen.V6 m (leftBy m) c = X6 m c :=
  update_congr (V5_eq m c) _ (leftBy_pool m c)
/-- and after the closing reshape. -/
theorem V7_eq (c : Dev nD) : Gen.V7 m (leftBy m) c = StableHlo.after hostOps3 (X6 m c) :=
  congrArg (StableHlo.after hostOps3) (V6_eq m c)

/-- The last valuation has the result buffer at the mean read as a vector. -/
theorem V7_result (c : Dev nD) : Gen.V7 m (leftBy m) c main_v38 = result m c :=
  congrFun (V7_eq m c) _

/-! ## The three regions' arrays at their exits -/

/-- Of the projection's four windows only the last is written; the first three read buffers other than the product's. -/
theorem proj_inputs : ∀ w : Fin 4, w ≠ 3 → (cfg0.win w).isOut = false ∧ Pipeline.arrRef spec0 w ≠ main_v15 := by decide

/-- Projection: the node features, the first weight matrix and the out-degree norm column are read only, so their
    arrays end as the region found them, which is what the replaced valuation still says of them; the product array
    holds every tile written back. -/
theorem arrays_after_proj (c : Dev nD) (w : Fin 4) :
    (dat0 (ent0 m) c).arrAt w cfg0.N = X2 m c (Pipeline.arrRef spec0 w) := by
  by_cases hw : w = 3
  · subst hw
    exact (Function.update_self (Proc.devRef (τ := τ) .tc main_v15) (o15 m c) (Gen.V1 m c)).symm
  · rw [(dat0 (ent0 m) c).arrAt_in w (proj_inputs w hw).1, dat0_A]
    exact (update_off (Gen.V1 m c) (o := main_v15) (o15 m c) (proj_inputs w hw).2).symm

/-- Every buffer that is no array of the projection is, in particular, not the product's. -/
theorem others_after_proj (c : Dev nD) (b : Ref sig .tc) (hb : b ∉ Finset.univ.image (Pipeline.arrRef spec0)) :
    X2 m c b = Gen.V1 m c b :=
  update_off (Gen.V1 m c) (o := main_v15) (r := b) (o15 m c) fun e => hb (Finset.mem_image.mpr ⟨3, Finset.mem_univ _, e.symm⟩)

/-- Of the combination's six windows only the last is written. -/
theorem comb_inputs : ∀ w : Fin 6, w ≠ 5 → (cfg1.win w).isOut = false ∧ Pipeline.arrRef spec1 w ≠ main_v26 := by decide

/-- Combination: the aggregated features, the two norm columns, the bias row and the second weight matrix are read
    only; the product array holds every tile written back. -/
theorem arrays_after_comb (c : Dev nD) (w : Fin 6) :
    (dat1 (ent1 m) c).arrAt w cfg1.N = X4 m c (Pipeline.arrRef spec1 w) := by
  by_cases hw : w = 5
  · subst hw
    exact (Function.update_self (Proc.devRef (τ := τ) .tc main_v26) (o26 m c) (StableHlo.after hostOps1 (X2 m c))).symm
  · rw [(dat1 (ent1 m) c).arrAt_in w (comb_inputs w hw).1, dat1_A]
    exact (update_off (StableHlo.after hostOps1 (X2 m c)) (o := main_v26) (o26 m c) (comb_inputs w hw).2).symm

theorem others_after_comb (c : Dev nD) (b : Ref sig .tc) (hb : b ∉ Finset.univ.image (Pipeline.arrRef spec1)) :
    X4 m c b = StableHlo.after hostOps1 (X2 m c) b :=
  update_off (StableHlo.after hostOps1 (X2 m c)) (o := main_v26) (r := b) (o26 m c) fun e => hb (Finset.mem_image.mpr ⟨5, Finset.mem_univ _, e.symm⟩)

/-- Of the pooling's four windows only the last is written. -/
theorem pool_inputs : ∀ w : Fin 4, w ≠ 3 → (cfg2.win w).isOut = false ∧ Pipeline.arrRef spec2 w ≠ main_v37 := by decide

/-- Pooling: the aggregated features, the in-degree norm column and the bias row are read only; the one-row mean is
    written back once, at the last point. -/
theorem arrays_after_pool (c : Dev nD) (w : Fin 4) :
    (dat2 (ent2 m) c).arrAt w cfg2.N = X6 m c (Pipeline.arrRef spec2 w) := by
  by_cases hw : w = 3
  · subst hw
    exact (Function.update_self (Proc.devRef (τ := τ) .tc main_v37) (o37 m c) (StableHlo.after hostOps2 (X4 m c))).symm
  · rw [(dat2 (ent2 m) c).arrAt_in w (pool_inputs w hw).1, dat2_A]
    exact (update_off (StableHlo.after hostOps2 (X4 m c)) (o := main_v37) (o37 m c) (pool_inputs w hw).2).symm

theorem others_after_pool (c : Dev nD) (b : Ref sig .tc) (hb : b ∉ Finset.univ.image (Pipeline.arrRef spec2)) :
    X6 m c b = StableHlo.after hostOps2 (X4 m c) b :=
  update_off (StableHlo.after hostOps2 (X4 m c)) (o := main_v37) (r := b) (o37 m c) fun e => hb (Finset.mem_image.mpr ⟨3, Finset.mem_univ _, e.symm⟩)

/-! ## The proof data of the three pipelines, and the regions as segments -/

/-- Every pipeline's proof data at once, each at the contents its region is entered with. -/
def pdats : (p : Fin 3) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c

set_option backward.isDefEq.respectTransparency.types false in
/-- The projection region: entered with the buffers after the first stretch, left with the product array replaced. -/
def projSeg : RegionSeg (pcfgs (F := F)) Gen.adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noPairs noLevel 0 fun _ _ => rfl
  pre c := iprop(StableHlo.held (c : Thread nD τ) (Pipeline.ucRefs τ sig) (Gen.V1 m c) ∗ idleCore c)
  post c := iprop(StableHlo.held (c : Thread nD τ) (Pipeline.ucRefs τ sig) (X2 m c) ∗ idleCore c)
  X c := iprop(∃ r, prngReg c r)
  Y c := iprop(∃ r, prngReg c r)
  Z c := Pipeline.unscopedRest (Ix := Unit) (Name := ℕ) (U := UR sig nD τ) (Lvl := ℕ) spec0 c (ent0 m c)
  hentry c := enter (pdats m) 0 c launch0.win launch0.arr_whole (Gen.V1 m c) (fun _ => rfl) (fun _ => rfl) rfl rfl
  hin c := by
    rw [show (pdats m 0 c).Φ 0 = Pipeline.ΦA spec0 c from rfl]
    exact classA_of_parts spec0 c _
  hout c := by
    rw [show (pdats m 0 c).Φ (Fin.last _) = Pipeline.ΦA spec0 c from rfl]
    exact parts_of_classA spec0 c
  hexit c := leave (pdats m) 0 c launch0.win launch0.arr_whole (Gen.V1 m c) (X2 m c) (fun _ => rfl)
    (arrays_after_proj m c) (others_after_proj m c) rfl

set_option backward.isDefEq.respectTransparency.types false in
/-- The combination region: entered with the buffers after the second stretch, left with its product array replaced. -/
def combSeg : RegionSeg (pcfgs (F := F)) Gen.adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noPairs noLevel 1 fun _ _ => rfl
  pre c := iprop(StableHlo.held (c : Thread nD τ) (Pipeline.ucRefs τ sig) (StableHlo.after hostOps1 (X2 m c)) ∗ idleCore c)
  post c := iprop(StableHlo.held (c : Thread nD τ) (Pipeline.ucRefs τ sig) (X4 m c) ∗ idleCore c)
  X c := iprop(∃ r, prngReg c r)
  Y c := iprop(∃ r, prngReg c r)
  Z c := Pipeline.unscopedRest (Ix := Unit) (Name := ℕ) (U := UR sig nD τ) (Lvl := ℕ) spec1 c (ent1 m c)
  hentry c := enter (pdats m) 1 c launch1.win launch1.arr_whole (StableHlo.after hostOps1 (X2 m c))
    (fun _ => rfl) (fun _ => rfl) rfl rfl
  hin c := by
    rw [show (pdats m 1 c).Φ 0 = Pipeline.ΦA spec1 c from rfl]
    exact classA_of_parts spec1 c _
  hout c := by
    rw [show (pdats m 1 c).Φ (Fin.last _) = Pipeline.ΦA spec1 c from rfl]
    exact parts_of_classA spec1 c
  hexit c := leave (pdats m) 1 c launch1.win launch1.arr_whole (StableHlo.after hostOps1 (X2 m c)) (X4 m c) (fun _ => rfl)
    (arrays_after_comb m c) (others_after_comb m c) rfl

set_option backward.isDefEq.respectTransparency.types false in
/-- The pooling region: entered with the buffers after the third stretch, left with the one-row mean replaced. Its
    invariant carries the accumulator between points; at the two ends it is the class invariant (before the first
    point by definition, after the last with the accumulator's contents forgotten). -/
def poolSeg : RegionSeg (pcfgs (F := F)) Gen.adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ noPairs noLevel 2 fun _ _ => rfl
  pre c := iprop(StableHlo.held (c : Thread nD τ) (Pipeline.ucRefs τ sig) (StableHlo.after hostOps2 (X4 m c)) ∗ idleCore c)
  post c := iprop(StableHlo.held (c : Thread nD τ) (Pipeline.ucRefs τ sig) (X6 m c) ∗ idleCore c)
  X c := iprop(∃ r, prngReg c r)
  Y c := iprop(∃ r, prngReg c r)
  Z c := Pipeline.unscopedRest (Ix := Unit) (Name := ℕ) (U := UR sig nD τ) (Lvl := ℕ) spec2 c (ent2 m c)
  hentry c := enter (pdats m) 2 c launch2.win launch2.arr_whole (StableHlo.after hostOps2 (X4 m c))
    (fun _ => rfl) (fun _ => rfl) rfl rfl
  hin c := by
    rw [show (pdats m 2 c).Φ 0 = Pipeline.ΦA spec2 c from dat2_Phi_first (ent2 m) c]
    exact classA_of_parts spec2 c _
  hout c := (show (pdats m 2 c).Φ (Fin.last _) ⊢ (Pipeline.ΦA spec2 c : sProp 𝕄) from dat2_Phi_last (ent2 m) c).trans
    (parts_of_classA spec2 c)
  hexit c := leave (pdats m) 2 c launch2.win launch2.arr_whole (StableHlo.after hostOps2 (X4 m c)) (X6 m c) (fun _ => rfl)
    (arrays_after_pool m c) (others_after_pool m c) rfl

/-! ## The end of the run read against a final memory -/

/-- What the claim says of core `c` in a final memory: the result buffer holds the mean read as a vector, each argument
    buffer what it was launched with. -/
abbrev AtEnd (c : Dev nD) (s : MemSt nD τ sig (Elt F)) : Prop :=
  s.mem ((c.tc : Thread nD τ).loc main_v38) = result m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- Every unscoped buffer held at the last valuation, against the state interpretation of a final state: the memory
    holds the last valuation there; the result buffer is read by `V7_result`, and no item writes an argument. -/
theorem read_end (c : Dev nD) (s' : Phys nD τ sig (Elt F)) :
    (iprop(StableHlo.held (c : Thread nD τ) (Pipeline.ucRefs τ sig) (Gen.V7 m (leftBy m) c) ∗ SI s') : sProp 𝕄)
      ⊢ |={Set.univ}=> iprop(⌜AtEnd m c s'.mem⌝ ∗ SI s') := by
  unfold StableHlo.held
  iintro ⟨Hbufs, HSI⟩
  ihave Hread := (pointsTo_read_all (Pipeline.ucRefs τ sig) (fun b => ((c : Thread nD τ).1, b)) (Gen.V7 m (leftBy m) c) s') $$ [Hbufs HSI]
  · isplitl [Hbufs] <;> iassumption
  icases Hread with ⟨%hmem, HSI⟩
  imodintro
  isplitr
  · ipureintro
    have at_ref : ∀ r : Ref sig .tc, ¬ (Proc.devRef (τ := τ) .tc r).isScoped →
        s'.mem.mem ((c : Thread nD τ).1, Proc.devRef .tc r) = Gen.V7 m (leftBy m) c (Proc.devRef .tc r) :=
      fun r hr => hmem (Proc.devRef .tc r) (Finset.mem_filter.mpr ⟨StableHlo.devRef_mem_tcRefs r, hr⟩)
    exact ⟨(at_ref main_v38 (by decide)).trans (V7_result m c),
      (at_ref main_arg0 (by decide)).trans (Gen.V7_main_arg0 m (leftBy m) c),
      (at_ref main_arg1 (by decide)).trans (Gen.V7_main_arg1 m (leftBy m) c),
      (at_ref main_arg2 (by decide)).trans (Gen.V7_main_arg2 m (leftBy m) c),
      (at_ref main_arg3 (by decide)).trans (Gen.V7_main_arg3 m (leftBy m) c),
      (at_ref main_arg4 (by decide)).trans (Gen.V7_main_arg4 m (leftBy m) c),
      (at_ref main_arg5 (by decide)).trans (Gen.V7_main_arg5 m (leftBy m) c),
      (at_ref main_arg6 (by decide)).trans (Gen.V7_main_arg6 m (leftBy m) c)⟩
  · iexact HSI

/-! ## The run -/

/-- The seven items as segments on a core: the four host stretches over the valuations above, the three regions. -/
abbrev items : Dev nD → List (Seg (pcfgs (F := F)) Gen.adm (pdats m) () defs₀ Variants.none noPairs noLevel) :=
  Gen.segs m (leftBy m) Variants.none noPairs noLevel idleCores () (pdats m) (projSeg m) (combSeg m) (poolSeg m)

set_option backward.isDefEq.respectTransparency.types false in
/-- THE RUN. From any memory `m` with every counter at zero and any generator registers, every weakly fair execution
    of the entry function on the cores terminates, and every final memory has, on each core, the result buffer at
    `result m c` and the seven argument buffers as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ Variants.none
    noPairs noLevel m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [items, Gen.segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ idleCore c))
    (Tₙ := fun c => StableHlo.held (c : Thread nD τ) (Pipeline.ucRefs τ sig) (Gen.V7 m (leftBy m) c))
    (hch := fun c => ⟨.rfl, .rfl, held_congr c (V2_eq m c).symm _, held_congr c (V3_eq m c) _,
      held_congr c (V4_eq m c).symm _, held_congr c (V5_eq m c) _, held_congr c (V6_eq m c).symm _,
      sep_mono .rfl (idleCore_owes c)⟩)
    (hinit := ?_) (QY := AtEnd m) (hfin := read_end m) (hQ := fun _ h => h)
  · -- the launch element is the pipelines' own, and no ghost resource is dealt to the cores
    rw [ownU_emb₁, BI.bigSep_emp_const]
    iintro Hown
    imodintro
    isplitl [Hown]
    · iexact Hown
    iempintro
  · -- each core by itself: its unscoped buffers are held at the launch memory, its register is at the launch's
    -- state, and it owes nothing
    refine Pipeline.initEach noPairs noLevel fun c => ?_
    rw [show unscopedBufs c (fun b => m ((c : Thread nD τ).loc b))
        = StableHlo.held (c : Thread nD τ) (Pipeline.ucRefs τ sig) (Gen.V0 m c) from Pipeline.unscopedBufs_held c (Gen.V0 m c)]
    iintro ⟨⟨Hbufs, -, Hdebt, -, Hreg, -⟩, -⟩
    imodintro
    isplitl [Hbufs]
    · iexact Hbufs
    isplitl [Hreg]
    · iexists _
      iexact Hreg
    iexists ∅
    iexact Hdebt

end Cert.KernelIdeal.Hand

end
-- ==== Proof.KProj.lean ====
/-
  Region 0 of the kernel's program: the dense projection of one tile of 5000 node rows,
  (X_tile · W) scaled row by row by the out-degree norm column. The tile of X, the whole of W
  and the tile of the norm column are read; the product tile is stored whole.
-/
import proofs.«137392_j61306363183369_1_alg».proof.Proof.Gen.Kernel.Launch
import proofs.«137392_j61306363183369_1_alg».proof.Proof.Gen.Kernel.Skeleton
import proofs.«137392_j61306363183369_1_alg».proof.Proof.Gen.Kernel.Points
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Each load of the body, and its one store, goes through the rectangle that starts at row 0, column 0 and has the
extents of the buffer itself: all of the buffer. -/

/-- The offsets of that rectangle in a matrix-shaped buffer: zero on both axes. -/
private theorem origin2 : (![0, 0] : Fin 2 → Nat) = fun _ => 0 := funext fun a => by fin_cases a <;> rfl

/-- The rectangle the product tile is stored through: all 5000 × 256 entries. -/
private abbrev allOfTile : Rect S5000x256 :=
  Rect.unit (s := S5000x256) ![0, 0] S5000x256.size inb_S5000x256_S5000x256_0_0

/-- A single store through it reaches every entry of the tile. -/
private theorem allOfTile_reaches (p : Vec F S5000x256 .f32) (y : S5000x256.Idx) :
    ∃ pc ∈ ([⟨allOfTile, p⟩] : List (View.Piece (Elt F) S5000x256 .f32)), y ∈ pc.1.set :=
  ⟨_, List.mem_singleton_self _, View.mem_set_unit_zero (S := S5000x256) origin2 inb_S5000x256_S5000x256_0_0 y⟩

section
variable (V : (c : Dev nD) → (b : Ref sig .tc) → Buf (Elt F) ((c : Thread nD τ).loc b))

/-- Window `w`'s block at grid point `t`, read off the array the region finds at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output tile, from the three input tiles. -/
def out0 (x : Vec F S5000x256 .f32) (w : Vec F S256x256 .f32) (n : Vec F S5000x1 .f32) : Vec F S5000x256 .f32 :=
  k0_pay1 x w n

/-- The proof data of region 0 on core `c`: arrays as found at entry, every input tile left in place, the
    output tile at the scaled product; nothing kept between points beyond the scoped rest. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after3 (c : Dev nD) (t : Fin cfg0.N) :
    (dat0 V c).after 3 t = out0 (blk0 V c 0 t) (blk0 V c 1 t) (blk0 V c 2 t) := by dsimp only [dat0]

/-! ## The three inputs are left where they are -/

private theorem x_left (c : Dev nD) (t : Fin cfg0.N) : (dat0 V c).after 0 t = blk0 V c 0 t := by dsimp only [dat0]
private theorem w_left (c : Dev nD) (t : Fin cfg0.N) : (dat0 V c).after 1 t = blk0 V c 1 t := by dsimp only [dat0]
private theorem norm_left (c : Dev nD) (t : Fin cfg0.N) : (dat0 V c).after 2 t = blk0 V c 2 t := by dsimp only [dat0]

/-! ## What the body finds in the input buffers

No block of this region overhangs its array, so a fetch fills all of the window's buffer: a buffer just fetched
into holds the block, whatever it held. -/

private theorem x_fetched (c : Dev nD) (t : Fin cfg0.N) (d) : (dat0 V c).fetched 0 t d = blk0 V c 0 t := by
  unfold Dat.fetched Dat.blockOf blk0
  rw [dat0_A] <;> rfl

private theorem w_fetched (c : Dev nD) (t : Fin cfg0.N) (d) : (dat0 V c).fetched 1 t d = blk0 V c 1 t := by
  unfold Dat.fetched Dat.blockOf blk0
  rw [dat0_A] <;> rfl

private theorem norm_fetched (c : Dev nD) (t : Fin cfg0.N) (d) : (dat0 V c).fetched 2 t d = blk0 V c 2 t := by
  unfold Dat.fetched Dat.blockOf blk0
  rw [dat0_A] <;> rfl

/-- The tile of `X` moves with the point and is fetched at each: the body finds this point's 5000 rows. -/
private theorem x_found (c : Dev nD) (t : Fin cfg0.N) (d) : (dat0 V c).before 0 t d = blk0 V c 0 t :=
  ((dat0 V c).before_fetched 0 t (fetch0_0 t) d).trans (x_fetched V c t d)

/-- So does the tile of the norm column. -/
private theorem norm_found (c : Dev nD) (t : Fin cfg0.N) (d) : (dat0 V c).before 2 t d = blk0 V c 2 t :=
  ((dat0 V c).before_fetched 2 t (fetch0_2 t) d).trans (norm_fetched V c t d)

/-- `W` is a single block, fetched at the first point only; the body leaves it as it is, so at every later point
    the buffer still holds it. -/
private theorem w_found (c : Dev nD) (t : Fin cfg0.N) (d) : (dat0 V c).before 1 t d = blk0 V c 1 t :=
  ((dat0 V c).before_in_eq_fetched 1 rfl (fun _ => rfl) (fun _ _ _ => rfl)
      (fun t' => by rw [w_left]; unfold Dat.blockOf blk0; rw [dat0_A] <;> rfl) t d).trans (w_fetched V c t d)

/-! ## One tile of the projection -/

set_option maxHeartbeats 1000000 in
/-- On buffers holding a tile `x` of `X`, the matrix `w` and a tile `n` of the norm column, and an output buffer
    holding anything, the body ends with the inputs as they were and the output buffer at `x · w` scaled row by
    row by `n`. -/
private theorem proj_tile (c : Dev nD) (E : Set ℕ) (i : grid0.Coords)
    (mx : Memref sig .tc .vmem S5000x256 .f32) (hx : mx.IsWhole) (mw : Memref sig .tc .vmem S256x256 .f32) (hw : mw.IsWhole)
    (mn : Memref sig .tc .vmem S5000x1 .f32) (hn : mn.IsWhole) (mo : Memref sig .tc .vmem S5000x256 .f32) (ho : mo.IsWhole)
    (x : Vec F S5000x256 .f32) (w : Vec F S256x256 .f32) (n : Vec F S5000x1 .f32) (K : PUnit → sProp 𝕄) :
    iprop(owns (c : Thread nD τ) mx fullShare x ∗ owns (c : Thread nD τ) mw fullShare w ∗ owns (c : Thread nD τ) mn fullShare n
        ∗ (∃ d, owns (c : Thread nD τ) mo fullShare d)
        ∗ (iprop(owns (c : Thread nD τ) mx fullShare x ∗ owns (c : Thread nD τ) mw fullShare w ∗ owns (c : Thread nD τ) mn fullShare n
            ∗ owns (c : Thread nD τ) mo fullShare (out0 x w n)) -∗ K ⟨⟩))
      ⊢ wp frame (wpE (defs₀ (F := F)) Variants.none c none) E (cc0__proj_kernel i mx hx mw hw mn hn mo ho) K := by
  simp only [cc0__proj_kernel_eq_skeleton]; unfold cc0__proj_kernel_skel
  unfold owns
  iintro ⟨⟨%fx, %ex, Hx⟩, ⟨%fw, %ew, Hw⟩, ⟨%fn, %en, Hn⟩, ⟨%d, %fo, -, Ho⟩, Hk⟩
  subst ex ew en
  sl_exec
  sl_step
  iapply Hk
  isplitl [Hx]
  · iexists fx; isplitr; · ipureintro; rfl
    iexact Hx
  isplitl [Hw]
  · iexists fw; isplitr; · ipureintro; rfl
    iexact Hw
  isplitl [Hn]
  · iexists fn; isplitr; · ipureintro; rfl
    iexact Hn
  iexists _; isplitr
  swap; · iexact Ho
  ipureintro
  -- the one store reaches every entry, so the buffer reads as its payload; each load read all of its buffer
  refine (View.read_writes_eq_canon _ _ _ (allOfTile_reaches _)).trans ?_
  refine (View.canon_unit_zero (S := S5000x256) origin2 _ _).trans ?_
  unfold out0
  rw [View.readAt_eq_ld, View.readAt_eq_ld, View.readAt_eq_ld,
    View.ld_unit_zero (S := S5000x256) origin2, View.ld_unit_zero (S := S256x256) origin2,
    View.ld_unit_zero (S := S5000x1) origin2]

/-! ## The body at a grid point -/

/-- What the pipeline hands the body at point `t`: the region's invariant, what the core owes, and each window's
    current buffer as the point finds it. -/
private def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant and debts, and each buffer at what the proof data says it leaves. -/
private def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At every point the three input buffers hold the point's blocks, so the body computes the point's product tile;
    the invariant and the debts are not touched. -/
private theorem proj_at (c : Dev nD) (t : Fin cfg0.N) :
    handed0 V c t ⊢ wp frame (wpE (defs₀ (F := F)) Variants.none c none) Set.univ (bodyAt0 t) (fun _ => returned0 V c t) := by
  unfold handed0 returned0 bodyAt0
  simp only [x_found, w_found, norm_found]
  rw [show (dat0 V c).Φ t.succ = (dat0 V c).Φ t.castSucc from rfl,
    show (dat0 V c).owesAt () t.succ = (dat0 V c).owesAt () t.castSucc from rfl,
    x_left, w_left, norm_left, dat0_after3]
  iintro ⟨HΦ, Hdue, ⟨%dx, Hx⟩, ⟨%dw, Hw⟩, ⟨%dn, Hn⟩, ⟨%dout, Ho⟩⟩
  iapply (proj_tile c Set.univ _ _ _ _ _ _ _ _ _ (blk0 V c 0 t) (blk0 V c 1 t) (blk0 V c 2 t) _)
  isplitl [Hx]; · iexact Hx
  isplitl [Hw]; · iexact Hw
  isplitl [Hn]; · iexact Hn
  isplitl [Ho]; · iexists _; iexact Ho
  iintro ⟨Hx, Hw, Hn, Ho⟩
  isplitl [HΦ]; · iexact HΦ
  isplitl [Hdue]; · iexact Hdue
  isplitl [Hx]; · iexact Hx
  isplitl [Hw]; · iexact Hw
  isplitl [Hn]; · iexact Hn
  iexact Ho

/-- The body at every grid point meets the pipeline's obligation. -/
theorem body_obligation0 (c : Dev nD) : BodyObligation (dat0 (F := F) V c) (defs₀ (F := F)) Variants.none () Set.univ := fun t => by
  rw [bigSep_W0, bigSep_W0]
  exact proj_at V c t

end

end Cert.Kernel.Hand

end
-- ==== Proof.KComb.lean ====
/-
  Region 1 of the kernel's program: one tile of 5000 node rows of the second layer's input.
  The aggregated tile is scaled row by row by the in-degree norm column, the bias row is added,
  negative entries are clipped to zero, the result is multiplied by the second weight matrix and
  scaled row by row by the out-degree norm column. The product tile is stored whole.
-/
import proofs.«137392_j61306363183369_1_alg».proof.Proof.Gen.Kernel.Launch
import proofs.«137392_j61306363183369_1_alg».proof.Proof.Gen.Kernel.Skeleton
import proofs.«137392_j61306363183369_1_alg».proof.Proof.Gen.Kernel.Points
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array the region finds at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the output tile, from the five input blocks. -/
def out1 (a : Vec F S5000x256 .f32) (ni : Vec F S5000x1 .f32) (b : Vec F S256 .f32) (w : Vec F S256x128 .f32)
    (no : Vec F S5000x1 .f32) : Vec F S5000x128 .f32 :=
  k1_pay1 a ni b w no

/-- The proof data of region 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after5 (c : Dev nD) (t : Fin cfg1.N) :
    (dat1 V c).after 5 t = out1 (blk1 V c 0 t) (blk1 V c 1 t) (blk1 V c 2 t) (blk1 V c 3 t) (blk1 V c 4 t) := by
  dsimp only [dat1]

/-! ## The input tiles are found in place

Each of the five input windows is left by the body as it was found, is never idle and is never cut by the
array's edge. So at every grid point its staging buffer holds the window's block there: at a point that fetches
it because the fetch has just landed, and at a point that does not (the bias row and the weight matrix after the
first point) because the block index has not moved since the point before. -/

private theorem after1_0 (c : Dev nD) (t : Fin cfg1.N) : (dat1 V c).after 0 t = blk1 V c 0 t := by dsimp only [dat1]
private theorem after1_1 (c : Dev nD) (t : Fin cfg1.N) : (dat1 V c).after 1 t = blk1 V c 1 t := by dsimp only [dat1]
private theorem after1_2 (c : Dev nD) (t : Fin cfg1.N) : (dat1 V c).after 2 t = blk1 V c 2 t := by dsimp only [dat1]
private theorem after1_3 (c : Dev nD) (t : Fin cfg1.N) : (dat1 V c).after 3 t = blk1 V c 3 t := by dsimp only [dat1]
private theorem after1_4 (c : Dev nD) (t : Fin cfg1.N) : (dat1 V c).after 4 t = blk1 V c 4 t := by dsimp only [dat1]

/-- The aggregated tile. -/
private theorem found1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [dat1_A]; try rfl) t d).trans
    (by unfold Dat.fetched Dat.blockOf blk1; rw [dat1_A]; try rfl)

/-- The in-degree norm column tile. -/
private theorem found1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [dat1_A]; try rfl) t d).trans
    (by unfold Dat.fetched Dat.blockOf blk1; rw [dat1_A]; try rfl)

/-- The bias row: fetched once, the same block at every point. -/
private theorem found1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [dat1_A]; try rfl) t d).trans
    (by unfold Dat.fetched Dat.blockOf blk1; rw [dat1_A]; try rfl)

/-- The second weight matrix: fetched once, the same block at every point. -/
private theorem found1_3 (c : Dev nD) (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [dat1_A]; try rfl) t d).trans
    (by unfold Dat.fetched Dat.blockOf blk1; rw [dat1_A]; try rfl)

/-- The out-degree norm column tile. -/
private theorem found1_4 (c : Dev nD) (t : Fin cfg1.N) (d) : (dat1 V c).before 4 t d = blk1 V c 4 t :=
  ((dat1 V c).before_in_eq_fetched 4 rfl (fun _ => rfl) (fun _ _ _ => rfl)
      (fun t => by rw [after1_4]; unfold Dat.blockOf blk1; rw [dat1_A]; try rfl) t d).trans
    (by unfold Dat.fetched Dat.blockOf blk1; rw [dat1_A]; try rfl)

end

/-! ## One tile of the layer

The body reads each of its five input buffers whole, reads the output buffer (a value it never uses) and stores
the product tile over the whole output buffer. A read through the rectangle at the origin that spans the buffer
is the buffer's contents, and one store through that rectangle leaves exactly its payload: so the output buffer
ends at `out1` of the five contents, whatever it held. -/

/-- The origin of a rank-one and of a rank-two shape, as the constant offset. -/
private theorem origin1 : (![0] : Fin 1 → ℕ) = fun _ => 0 := funext fun a => by fin_cases a; rfl
private theorem origin2 : (![0, 0] : Fin 2 → ℕ) = fun _ => 0 := funext fun a => by fin_cases a <;> rfl

/-- The one store spans the output tile: every index of the tile lies in its rectangle. -/
private theorem store_spans (p : Vec F S5000x128 .f32) (y : S5000x128.Idx) :
    ∃ pc ∈ ([⟨Rect.unit (s := S5000x128) ![0, 0] S5000x128.size inb_S5000x128_S5000x128_0_0, p⟩] :
        List (View.Piece (Elt F) S5000x128 .f32)), y ∈ pc.1.set :=
  ⟨_, List.mem_singleton_self _, View.mem_set_unit_zero (S := S5000x128) origin2 inb_S5000x128_S5000x128_0_0 y⟩

set_option maxHeartbeats 1000000 in
/-- On whole staging memrefs holding the aggregated tile `a`, the in-degree norms `ni`, the bias `b`, the
    weights `w` and the out-degree norms `no`, with the output memref at anything, the body runs to the
    continuation with the five inputs as they were and the output at `out1 a ni b w no`. -/
private theorem combine_tile (c : Dev nD) (E : Set ℕ) (i : grid1.Coords)
    (mA : Memref sig .tc .vmem S5000x256 .f32) (hmA : mA.IsWhole) (mNi : Memref sig .tc .vmem S5000x1 .f32) (hmNi : mNi.IsWhole)
    (mB : Memref sig .tc .vmem S256 .f32) (hmB : mB.IsWhole) (mW : Memref sig .tc .vmem S256x128 .f32) (hmW : mW.IsWhole)
    (mNo : Memref sig .tc .vmem S5000x1 .f32) (hmNo : mNo.IsWhole) (mO : Memref sig .tc .vmem S5000x128 .f32) (hmO : mO.IsWhole)
    (a : Vec F S5000x256 .f32) (ni : Vec F S5000x1 .f32) (b : Vec F S256 .f32) (w : Vec F S256x128 .f32) (no : Vec F S5000x1 .f32)
    (K : PUnit → sProp 𝕄) :
    iprop(owns (c : Thread nD τ) mA fullShare a ∗ owns (c : Thread nD τ) mNi fullShare ni ∗ owns (c : Thread nD τ) mB fullShare b
        ∗ owns (c : Thread nD τ) mW fullShare w ∗ owns (c : Thread nD τ) mNo fullShare no ∗ (∃ d, owns (c : Thread nD τ) mO fullShare d)
        ∗ (iprop(owns (c : Thread nD τ) mA fullShare a ∗ owns (c : Thread nD τ) mNi fullShare ni ∗ owns (c : Thread nD τ) mB fullShare b
              ∗ owns (c : Thread nD τ) mW fullShare w ∗ owns (c : Thread nD τ) mNo fullShare no
              ∗ owns (c : Thread nD τ) mO fullShare (out1 a ni b w no)) -∗ K ⟨⟩))
      ⊢ wp frame (wpE (defs₀ (F := F)) Variants.none c none) E
          (cc1__combine_kernel i mA hmA mNi hmNi mB hmB mW hmW mNo hmNo mO hmO) K := by
  sl_unfold [cc1__combine_kernel]
  unfold owns
  iintro ⟨⟨%fa, %ha, Ha⟩, ⟨%fni, %hni, Hni⟩, ⟨%fb, %hb, Hb⟩, ⟨%fw, %hw, Hw⟩, ⟨%fno, %hno, Hno⟩, ⟨%d, %fo, -, Ho⟩, Hk⟩
  subst ha hni hb hw hno
  sl_exec
  sl_step
  iapply Hk
  isplitl [Ha]
  · iexists fa; isplitr; · ipureintro; rfl
    iexact Ha
  isplitl [Hni]
  · iexists fni; isplitr; · ipureintro; rfl
    iexact Hni
  isplitl [Hb]
  · iexists fb; isplitr; · ipureintro; rfl
    iexact Hb
  isplitl [Hw]
  · iexists fw; isplitr; · ipureintro; rfl
    iexact Hw
  isplitl [Hno]
  · iexists fno; isplitr; · ipureintro; rfl
    iexact Hno
  iexists _; isplitr
  swap; · iexact Ho
  ipureintro
  -- what the one spanning store leaves is its payload, and each whole read is the buffer's contents
  refine (View.read_writes_eq_canon _ _ _ (store_spans _)).trans ?_
  refine (View.canon_unit_zero (S := S5000x128) origin2 inb_S5000x128_S5000x128_0_0 _).trans ?_
  unfold out1
  exact congr (congr (congr (congr (congrArg k1_pay1
    (View.ld_unit_zero (S := S5000x256) origin2 inb_S5000x256_S5000x256_0_0 (mA.view.read (Elt F) fa)))
    (View.ld_unit_zero (S := S5000x1) origin2 inb_S5000x1_S5000x1_0_0 (mNi.view.read (Elt F) fni)))
    (View.ld_unit_zero (S := S256) origin1 inb_S256_S256_0 (mB.view.read (Elt F) fb)))
    (View.ld_unit_zero (S := S256x128) origin2 inb_S256x128_S256x128_0_0 (mW.view.read (Elt F) fw)))
    (View.ld_unit_zero (S := S5000x1) origin2 inb_S5000x1_S5000x1_0_0 (mNo.view.read (Elt F) fno))

section
variable (V : (c : Dev nD) → (b : Ref sig .tc) → Buf (Elt F) ((c : Thread nD τ).loc b))

/-! ## The body at a grid point -/

/-- What the body is handed at point `t`: the invariant, what the core owes, and each window's current staging
    buffer at what it then holds. -/
private def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each buffer at what the proof data say it leaves. -/
private def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the five input buffers hold their blocks, so the tile's triple applies at those blocks; the
    invariant and the debts are not touched. -/
private theorem body_at (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    after1_0, after1_1, after1_2, after1_3, after1_4, dat1_after5]
  iintro ⟨HΦ, Hd, ⟨%d0, H0⟩, ⟨%d1, H1⟩, ⟨%d2, H2⟩, ⟨%d3, H3⟩, ⟨%d4, H4⟩, ⟨%d5, H5⟩⟩
  iapply (combine_tile c Set.univ _ _ _ _ _ _ _ _ _ _ _ _ _
    (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Hd]; · iexact Hd
  isplitl [H0]; · iexact H0
  isplitl [H1]; · iexact H1
  isplitl [H2]; · iexact H2
  isplitl [H3]; · iexact H3
  isplitl [H4]; · iexact H4
  iexact H5

/-- The body at every grid point meets the pipeline's obligation. -/
theorem body_obligation1 (c : Dev nD) : BodyObligation (dat1 (F := F) V c) (defs₀ (F := F)) Variants.none () Set.univ := fun t => by
  rw [bigSep_W1, bigSep_W1]
  exact body_at V c t

end

end Cert.Kernel.Hand

end
-- ==== Proof.KPool.lean ====
/-
  Region 2 of the kernel's program: the mean over all 50000 node rows, ten tiles of 5000 rows.
  A one-row accumulator is kept between grid points: zeroed at the first point, then at every point
  the column sums of (aggregated tile scaled row by row by the in-degree norm, plus the bias row) are
  added to it; at the last point the accumulator times the reciprocal of the row count is stored into
  the one-row output block, which is written back there and nowhere else.
-/
import proofs.«137392_j61306363183369_1_alg».proof.Proof.Gen.Kernel.Launch
import proofs.«137392_j61306363183369_1_alg».proof.Proof.Gen.Kernel.Skeleton
import proofs.«137392_j61306363183369_1_alg».proof.Proof.Gen.Kernel.Points
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch row, and the scoped buffers beside it -/

/-- The one-row scratch buffer in which the running column sums are kept, as a memref. -/
abbrev sumsM : Memref sig .tc .vmem S1x128 .f32 := Memref.whole cc2_scratch0

/-- Every scoped buffer of the core that is neither a staging buffer of this region nor its scratch row (they are the
    other two regions' staging buffers), each whole at some contents: this region never touches them. -/
abbrev beside2 (c : Dev nD) : sProp 𝕄 :=
  Pipeline.scopedRestBut (Ix := Unit) (Name := ℕ) (U := UR sig nD τ) (Lvl := ℕ) (Val := Elt F) spec2 c [cc2_scratch0]

/-- The scoped rest of this region is its scratch row at some contents, and the buffers beside it. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) sumsM fullShare d) ∗ beside2 (F := F) c) := by
  rw [Pipeline.scopedRest_split_of_list spec2 c [cc2_scratch0] (by decide) (by decide)]
  simp only [bigSepL_singleton, sumsM, owns_whole]
  try rfl

section
variable (V : (c : Dev nD) → (b : Ref sig .tc) → Buf (Elt F) ((c : Thread nD τ).loc b))

/-- Window `w`'s block at grid point `t`, read off the array the region finds at entry. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator row after grid point `n`: the zero row plus the first tile's column sums, then one
    tile's column sums more per point. -/
def acc2 (c : Dev nD) : (n : ℕ) → n < cfg2.N → Vec F S1x128 .f32
  | 0, h => k2_pay2 (blk2 V c 0 ⟨0, h⟩) (blk2 V c 1 ⟨0, h⟩) (blk2 V c 2 ⟨0, h⟩) k2_pay1
  | n + 1, h => k2_pay2 (blk2 V c 0 ⟨n + 1, h⟩) (blk2 V c 1 ⟨n + 1, h⟩) (blk2 V c 2 ⟨n + 1, h⟩) (acc2 c n (Nat.lt_of_succ_lt h))

/-- What the one-row output block holds after grid point `t`: the scaled accumulator (stored at the last point only;
    at the other points the block is idle and this term is not read). -/
def out2 (c : Dev nD) (t : Fin cfg2.N) : Vec F S1x128 .f32 := k2_pay3 (acc2 V c t.val t.isLt)

/-- The invariant between grid points: before the first point the scoped rest at any contents; after point `n` the
    accumulator buffer at `acc2 … n`, the other scoped buffers at any contents. -/
def Phi2 (c : Dev nD) : (n : ℕ) → n ≤ cfg2.N → sProp 𝕄
  | 0, _ => Pipeline.ΦA spec2 c
  | n + 1, h => iprop(owns (c : Thread nD τ) sumsM fullShare (acc2 V c n h) ∗ beside2 (F := F) c ∗ ∃ r, prngReg c r)

/-- After any point the invariant holds the scratch row at the sums up to that point. -/
theorem Phi2_pos (c : Dev nD) (n : ℕ) (h : n ≤ cfg2.N) (hz : n ≠ 0) :
    Phi2 V c n h = iprop(owns (c : Thread nD τ) sumsM fullShare (acc2 V c (n - 1) (by omega)) ∗ beside2 (F := F) c ∗ ∃ r, prngReg c r) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 V c t
  Φ n := Phi2 V c n.val (Nat.le_of_lt_succ n.isLt)
  q _ := fullShare
  owed _ := 0

theorem dat2_A (c : Dev nD) (w : Fin cfg2.W) : (dat2 V c).A w = V c (Pipeline.arrRef spec2 w) := by
  dsimp only [dat2]

theorem dat2_after3 (c : Dev nD) (t : Fin cfg2.N) : (dat2 V c).after 3 t = out2 V c t := by dsimp only [dat2]

/-- Before the first point the invariant is the scoped rest at any contents and the generator register. -/
theorem dat2_Phi_first (c : Dev nD) : (dat2 V c).Φ 0 = Pipeline.ΦA spec2 c := rfl

/-- After the last point the invariant gives the scoped rest back (the accumulator's contents forgotten). -/
theorem dat2_Phi_last (c : Dev nD) : (dat2 V c).Φ (Fin.last cfg2.N) ⊢ (Pipeline.ΦA spec2 c : sProp 𝕄) := by
  have hN : (Fin.last cfg2.N).val ≠ 0 := by
    rw [Fin.val_last]; have : cfg2.N = 10 := N_2; omega
  rw [show (dat2 V c).Φ (Fin.last cfg2.N) = Phi2 V c (Fin.last cfg2.N).val (Nat.le_of_lt_succ (Fin.last cfg2.N).isLt) from rfl,
    Phi2_pos V c _ _ hN]
  unfold Pipeline.ΦA; rw [scopedRest2_split]
  iintro ⟨Hs, Hb, Hg⟩
  isplitl [Hs Hb]
  · isplitl [Hs]
    · iexists _; iexact Hs
    · iexact Hb
  · iexact Hg

end

/-! ## The two tests the body makes of the grid point -/

/-- The body's first test, as its scalar chain computes it from the point's coordinate: is this the first point? -/
abbrev atFirst (i : grid2.Coords) : Prop :=
  Scalar.cmpi .ne (Scalar.extui (Scalar.cmpi .eq (BitVec.ofNat 32 (i 0).val) 0#32)) 0#32 = 1#1

/-- The body's second test: is this the last point? -/
abbrev atLast (i : grid2.Coords) : Prop := k2_cond2 i = 1#1

/-- Over the ten points, the first test holds at point 0 only, -/
theorem atFirst_iff : ∀ t : Fin cfg2.N, atFirst (grid2.coords t) ↔ t.val = 0 :=
  (by decide +kernel : ∀ t : Fin grid2.N, atFirst (grid2.coords t) ↔ t.val = 0)

/-- and the second at point 9 only. -/
theorem atLast_iff : ∀ t : Fin cfg2.N, atLast (grid2.coords t) ↔ t.val = 9 :=
  (by decide +kernel : ∀ t : Fin grid2.N, atLast (grid2.coords t) ↔ t.val = 9)

/-- Away from the last point the output block is idle: the body stores nothing into it, -/
theorem out_idle : ∀ t : Fin cfg2.N, ¬atLast (grid2.coords t) → cfg2.idle 3 (grid2.coords t) = true := by decide +kernel

/-- and it is not written back there; -/
theorem out_kept : ∀ t : Fin cfg2.N, ¬atLast (grid2.coords t) → (cfg2.win 3).flush t = false := by decide +kernel

/-- at the last point it is live. -/
theorem out_live : ∀ t : Fin cfg2.N, atLast (grid2.coords t) → cfg2.idle 3 (grid2.coords t) = false := by decide +kernel

/-! ## Loads and stores of a whole buffer -/

theorem zeros2 : (![0, 0] : Fin 2 → Nat) = fun _ => 0 := funext fun a => by fin_cases a <;> rfl
theorem zeros1 : (![0] : Fin 1 → Nat) = fun _ => 0 := funext fun a => by fin_cases a; rfl

/-- The rectangle through which the body loads and stores a one-row buffer: all of it. -/
abbrev rowAll : Rect S1x128 := Rect.unit (s := S1x128) ![0, 0] S1x128.size inb_S1x128_S1x128_0_0

/-- Every index of the row lies in it. -/
theorem rowAll_covers {L : List (View.Piece (Elt F) S1x128 .f32)} (w : Vec F S1x128 .f32) (y : S1x128.Idx) :
    ∃ p ∈ (⟨rowAll, w⟩ :: L), y ∈ p.1.set :=
  ⟨_, List.mem_cons.mpr (Or.inl rfl), View.mem_set_unit_zero zeros2 inb_S1x128_S1x128_0_0 y⟩

section
variable (V : (c : Dev nD) → (b : Ref sig .tc) → Buf (Elt F) ((c : Thread nD τ).loc b))

/-! ## What the body finds in the input windows -/

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]

/-- The aggregated tile's staging buffer holds the tile at every point. -/
theorem before2_0 (c : Dev nD) (t : Fin cfg2.N) (d) : (dat2 V c).before 0 t d = blk2 V c 0 t :=
  ((dat2 V c).before_in_eq_fetched 0 rfl (fun _ => rfl) (fun _ _ _ => rfl)
      (fun t => by rw [after2_0]; unfold Dat.blockOf blk2; rw [dat2_A]; try rfl) t d).trans
    (by unfold Dat.fetched Dat.blockOf blk2; rw [dat2_A]; try rfl)

/-- The norm column's staging buffer holds the tile's rows of it at every point. -/
theorem before2_1 (c : Dev nD) (t : Fin cfg2.N) (d) : (dat2 V c).before 1 t d = blk2 V c 1 t :=
  ((dat2 V c).before_in_eq_fetched 1 rfl (fun _ => rfl) (fun _ _ _ => rfl)
      (fun t => by rw [after2_1]; unfold Dat.blockOf blk2; rw [dat2_A]; try rfl) t d).trans
    (by unfold Dat.fetched Dat.blockOf blk2; rw [dat2_A]; try rfl)

/-- The bias row's staging buffer, fetched once, holds the bias row at every point. -/
theorem before2_2 (c : Dev nD) (t : Fin cfg2.N) (d) : (dat2 V c).before 2 t d = blk2 V c 2 t :=
  ((dat2 V c).before_in_eq_fetched 2 rfl (fun _ => rfl) (fun _ _ _ => rfl)
      (fun t => by rw [after2_2]; unfold Dat.blockOf blk2; rw [dat2_A]; try rfl) t d).trans
    (by unfold Dat.fetched Dat.blockOf blk2; rw [dat2_A]; try rfl)

/-- The running sums, point by point: at the first point from the zero row, -/
theorem acc2_first (c : Dev nD) (t : Fin cfg2.N) (hz : t.val = 0) :
    acc2 V c t.val t.isLt = k2_pay2 (blk2 V c 0 t) (blk2 V c 1 t) (blk2 V c 2 t) k2_pay1 := by
  obtain ⟨n, hn⟩ := t
  cases n with
  | zero => rfl
  | succ n => exact absurd hz (Nat.succ_ne_zero n)

/-- afterwards from the sums up to the point before. -/
theorem acc2_later (c : Dev nD) (t : Fin cfg2.N) (hz : t.val ≠ 0) :
    acc2 V c t.val t.isLt
      = k2_pay2 (blk2 V c 0 t) (blk2 V c 1 t) (blk2 V c 2 t) (acc2 V c (t.val - 1) (Nat.lt_of_le_of_lt (Nat.sub_le _ _) t.isLt)) := by
  obtain ⟨n, hn⟩ := t
  cases n with
  | zero => exact absurd rfl hz
  | succ n => rfl

end

/-! ## The body, run whole in each of its three control cases

The body is run on five whole memrefs: the aggregated tile's, the norm column's and the bias row's staging buffers
(read), the output row's staging buffer and the scratch row. In every case the scratch row ends at the column sums of
(tile scaled row by row by the norm, plus the bias row) added to what it held — the zero row at the first point. -/

section Runs

variable (c : Dev nD) (E : Set ℕ) (i : grid2.Coords)
  (tileM : Memref sig .tc .vmem S5000x128 .f32) (htile : tileM.IsWhole)
  (normM : Memref sig .tc .vmem S5000x1 .f32) (hnorm : normM.IsWhole)
  (biasM : Memref sig .tc .vmem S128 .f32) (hbias : biasM.IsWhole)
  (outM : Memref sig .tc .vmem S1x128 .f32) (hout : outM.IsWhole)
  (sumM : Memref sig .tc .vmem S1x128 .f32) (hsum : sumM.IsWhole)
  (x : Vec F S5000x128 .f32) (s : Vec F S5000x1 .f32) (b : Vec F S128 .f32)

/-- At the first point: the scratch row, whatever it held, is zeroed and then takes the first tile's column sums; the
    output row is left as it was found. -/
theorem run_first (hF : atFirst i) (hL : ¬atLast i) (o : Vec F S1x128 .f32) (K : PUnit → sProp 𝕄) :
    iprop(owns (c : Thread nD τ) tileM fullShare x ∗ owns (c : Thread nD τ) normM fullShare s ∗ owns (c : Thread nD τ) biasM fullShare b
        ∗ owns (c : Thread nD τ) outM fullShare o ∗ (∃ d, owns (c : Thread nD τ) sumM fullShare d)
        ∗ (iprop(owns (c : Thread nD τ) tileM fullShare x ∗ owns (c : Thread nD τ) normM fullShare s ∗ owns (c : Thread nD τ) biasM fullShare b
            ∗ owns (c : Thread nD τ) outM fullShare o ∗ owns (c : Thread nD τ) sumM fullShare (k2_pay2 x s b k2_pay1)) -∗ K ⟨⟩))
      ⊢ wp frame (wpE (defs₀ (F := F)) Variants.none c none) E
          (cc2__finalize_kernel i tileM htile normM hnorm biasM hbias outM hout sumM hsum) K := by
  simp only [cc2__finalize_kernel_eq_skeleton]; unfold cc2__finalize_kernel_skel
  unfold owns
  iintro ⟨⟨%f0, %e0, H0⟩, ⟨%f1, %e1, H1⟩, ⟨%f2, %e2, H2⟩, ⟨%f3, %e3, H3⟩, ⟨%d, %f4, -, H4⟩, Hk⟩
  subst e0 e1 e2 e3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => rowAll_covers _ y)]
  sl_unfold_run_names
  rw [View.canon_cons_unit_zero (S := S1x128) zeros2, View.readCov_unit_zero (S := S1x128) _ zeros2]
  simp only [View.readAt_eq_ld, View.ld_unit_zero (S := S5000x128) zeros2, View.ld_unit_zero (S := S5000x1) zeros2,
    View.ld_unit_zero (S := S128) zeros1, View.ld_unit_zero (S := S1x128) zeros2]

/-- At a point that is neither first nor last: the scratch row at `a` takes this tile's column sums on top; the output row
    is left as it was found. -/
theorem run_middle (hF : ¬atFirst i) (hL : ¬atLast i) (o a : Vec F S1x128 .f32) (K : PUnit → sProp 𝕄) :
    iprop(owns (c : Thread nD τ) tileM fullShare x ∗ owns (c : Thread nD τ) normM fullShare s ∗ owns (c : Thread nD τ) biasM fullShare b
        ∗ owns (c : Thread nD τ) outM fullShare o ∗ owns (c : Thread nD τ) sumM fullShare a
        ∗ (iprop(owns (c : Thread nD τ) tileM fullShare x ∗ owns (c : Thread nD τ) normM fullShare s ∗ owns (c : Thread nD τ) biasM fullShare b
            ∗ owns (c : Thread nD τ) outM fullShare o ∗ owns (c : Thread nD τ) sumM fullShare (k2_pay2 x s b a)) -∗ K ⟨⟩))
      ⊢ wp frame (wpE (defs₀ (F := F)) Variants.none c none) E
          (cc2__finalize_kernel i tileM htile normM hnorm biasM hbias outM hout sumM hsum) K := by
  simp only [cc2__finalize_kernel_eq_skeleton]; unfold cc2__finalize_kernel_skel
  unfold owns
  iintro ⟨⟨%f0, %e0, H0⟩, ⟨%f1, %e1, H1⟩, ⟨%f2, %e2, H2⟩, ⟨%f3, %e3, H3⟩, ⟨%f4, %e4, H4⟩, Hk⟩
  subst e0 e1 e2 e3 e4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => rowAll_covers _ y), View.canon_cons_unit_zero (S := S1x128) zeros2]
  simp only [View.readAt_eq_ld, View.ld_unit_zero (S := S5000x128) zeros2, View.ld_unit_zero (S := S5000x1) zeros2,
    View.ld_unit_zero (S := S128) zeros1, View.ld_unit_zero (S := S1x128) zeros2]

/-- At the last point: the scratch row at `a` takes the last tile's column sums on top, and the output row, whatever it
    held, is stored the new sums times the reciprocal of the row count. -/
theorem run_last (hF : ¬atFirst i) (hL : atLast i) (a : Vec F S1x128 .f32) (K : PUnit → sProp 𝕄) :
    iprop(owns (c : Thread nD τ) tileM fullShare x ∗ owns (c : Thread nD τ) normM fullShare s ∗ owns (c : Thread nD τ) biasM fullShare b
        ∗ (∃ d, owns (c : Thread nD τ) outM fullShare d) ∗ owns (c : Thread nD τ) sumM fullShare a
        ∗ (iprop(owns (c : Thread nD τ) tileM fullShare x ∗ owns (c : Thread nD τ) normM fullShare s ∗ owns (c : Thread nD τ) biasM fullShare b
            ∗ owns (c : Thread nD τ) outM fullShare (k2_pay3 (k2_pay2 x s b a)) ∗ owns (c : Thread nD τ) sumM fullShare (k2_pay2 x s b a)) -∗ K ⟨⟩))
      ⊢ wp frame (wpE (defs₀ (F := F)) Variants.none c none) E
          (cc2__finalize_kernel i tileM htile normM hnorm biasM hbias outM hout sumM hsum) K := by
  simp only [cc2__finalize_kernel_eq_skeleton]; unfold cc2__finalize_kernel_skel
  unfold owns
  iintro ⟨⟨%f0, %e0, H0⟩, ⟨%f1, %e1, H1⟩, ⟨%f2, %e2, H2⟩, ⟨%d, %f3, -, H3⟩, ⟨%f4, %e4, H4⟩, Hk⟩
  subst e0 e1 e2 e4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => rowAll_covers _ y), View.canon_cons_unit_zero (S := S1x128) zeros2]
    sl_unfold_run_names
    rw [View.readCov_unit_zero (S := S1x128) _ zeros2]
    simp only [View.readAt_eq_ld, View.ld_unit_zero (S := S5000x128) zeros2, View.ld_unit_zero (S := S5000x1) zeros2,
      View.ld_unit_zero (S := S128) zeros1, View.ld_unit_zero (S := S1x128) zeros2]
  iexists _; isplitr
  swap; · iexact H4
  ipureintro
  sl_unfold_run_names
  rw [View.read_writes_eq_canon _ _ _ (fun y => rowAll_covers _ y), View.canon_cons_unit_zero (S := S1x128) zeros2]
  simp only [View.readAt_eq_ld, View.ld_unit_zero (S := S5000x128) zeros2, View.ld_unit_zero (S := S5000x1) zeros2,
    View.ld_unit_zero (S := S128) zeros1, View.ld_unit_zero (S := S1x128) zeros2]

end Runs

section
variable (V : (c : Dev nD) → (b : Ref sig .tc) → Buf (Elt F) ((c : Thread nD τ).loc b))

/-! ## The body obligation -/

/-- The invariant at a point's start, by the point's number. -/
theorem Phi2_castSucc (c : Dev nD) (t : Fin cfg2.N) : (dat2 V c).Φ t.castSucc = Phi2 V c t.val (Nat.le_of_lt t.isLt) := by
  dsimp only [dat2]; simp only [Fin.coe_castSucc]

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) sumsM fullShare (acc2 V c n hn) ∗ beside2 (F := F) c ∗ ∃ r, prngReg c r) := rfl

/-- The three input windows are live at every point: the body leaves each its block. -/
theorem leaves2_0 (c : Dev nD) (t : Fin cfg2.N) :
    (dat2 V c).leavesExact 0 t = owns (c : Thread nD τ) (st2_0 t) fullShare (blk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (blk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (blk2 V c 2 t) := by
  unfold Dat.leavesExact; rw [show cfg2.idle 2 (cfg2.grid.coords t) = false from rfl, after2_2]

/-- What the body is called with at point `t`: the invariant, what the core owes, the four windows' current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

/-- The body at any point. The inputs' buffers hold their blocks; the point's number says which of the three control cases
    it is in. At the first point the invariant hands over the scratch row at anything and takes it back at the first
    tile's sums; later it hands it over at the sums up to the point before and takes it back with this tile's added. The
    output row is handed back as found, except at the last point, where it is stored the mean. Nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl,
    leaves2_0, leaves2_1, leaves2_2, Phi2_castSucc, Phi2_succ]
  have hN : t.val < 10 := lt_of_lt_of_eq t.isLt (show cfg2.N = 10 from N_2)
  by_cases hz : t.val = 0
  · have hF : atFirst (grid2.coords t) := (atFirst_iff t).mpr hz
    have hL : ¬atLast (grid2.coords t) := fun h => by have := (atLast_iff t).mp h; omega
    rw [Dat.leavesExact_idle (dat2 V c) 3 t (out_idle t hL) (out_kept t hL), Phi2_zero V c _ _ hz, acc2_first V c t hz]
    unfold Pipeline.ΦA; rw [scopedRest2_split]
    iintro ⟨⟨⟨Hs, Hb⟩, Hg⟩, Ho, ⟨%d0, H0⟩, ⟨%d1, H1⟩, ⟨%d2, H2⟩, ⟨%d3, H3⟩⟩
    iapply (run_first c Set.univ (grid2.coords t) _ _ _ _ _ _ _ _ _ _ (blk2 V c 0 t) (blk2 V c 1 t) (blk2 V c 2 t) hF hL _ _)
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hb Hg]
    · isplitl [Hs]; · iexact Hs
      isplitl [Hb]; · iexact Hb
      iexact Hg
    isplitl [Ho]; · iexact Ho
    isplitl [H0]; · iexact H0
    isplitl [H1]; · iexact H1
    isplitl [H2]; · iexact H2
    iexists _; iexact H3
  · have hF : ¬atFirst (grid2.coords t) := fun h => hz ((atFirst_iff t).mp h)
    by_cases hl : t.val = 9
    · have hL : atLast (grid2.coords t) := (atLast_iff t).mpr hl
      rw [show (dat2 V c).leavesExact 3 t = owns (c : Thread nD τ) (st2_3 t) fullShare (out2 V c t) from by
        unfold Dat.leavesExact; rw [out_live t hL, dat2_after3]]
      unfold out2
      rw [Phi2_pos V c _ _ hz, acc2_later V c t hz]
      iintro ⟨⟨Hs, Hb, Hg⟩, Ho, ⟨%d0, H0⟩, ⟨%d1, H1⟩, ⟨%d2, H2⟩, ⟨%d3, H3⟩⟩
      iapply (run_last c Set.univ (grid2.coords t) _ _ _ _ _ _ _ _ _ _ (blk2 V c 0 t) (blk2 V c 1 t) (blk2 V c 2 t) hF hL _ _)
      isplitl [H0]; · iexact H0
      isplitl [H1]; · iexact H1
      isplitl [H2]; · iexact H2
      isplitl [H3]; · iexists _; iexact H3
      isplitl [Hs]; · iexact Hs
      iintro ⟨H0, H1, H2, H3, Hs⟩
      isplitl [Hs Hb Hg]
      · isplitl [Hs]; · iexact Hs
        isplitl [Hb]; · iexact Hb
        iexact Hg
      isplitl [Ho]; · iexact Ho
      isplitl [H0]; · iexact H0
      isplitl [H1]; · iexact H1
      isplitl [H2]; · iexact H2
      iexact H3
    · have hL : ¬atLast (grid2.coords t) := fun h => hl ((atLast_iff t).mp h)
      rw [Dat.leavesExact_idle (dat2 V c) 3 t (out_idle t hL) (out_kept t hL), Phi2_pos V c _ _ hz, acc2_later V c t hz]
      iintro ⟨⟨Hs, Hb, Hg⟩, Ho, ⟨%d0, H0⟩, ⟨%d1, H1⟩, ⟨%d2, H2⟩, ⟨%d3, H3⟩⟩
      iapply (run_middle c Set.univ (grid2.coords t) _ _ _ _ _ _ _ _ _ _ (blk2 V c 0 t) (blk2 V c 1 t) (blk2 V c 2 t) hF hL _ _ _)
      isplitl [H0]; · iexact H0
      isplitl [H1]; · iexact H1
      isplitl [H2]; · iexact H2
      isplitl [H3]; · iexact H3
      isplitl [Hs]; · iexact Hs
      iintro ⟨H0, H1, H2, H3, Hs⟩
      isplitl [Hs Hb Hg]
      · isplitl [Hs]; · iexact Hs
        isplitl [Hb]; · iexact Hb
        iexact Hg
      isplitl [Ho]; · iexact Ho
      isplitl [H0]; · iexact H0
      isplitl [H1]; · iexact H1
      isplitl [H2]; · iexact H2
      iexists _; iexact H3

/-- The body at every grid point meets the pipeline's obligation. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KChain.lean ====
/-
  The contents of the core's buffers along the program: what region 0 is entered with (the launch memory after
  the first stretch of host operations), what it leaves in its output array, what region 1 is entered with
  (that, after the second stretch), and so on to the result buffer after the closing reshape.
-/
import proofs.«137392_j61306363183369_1_alg».proof.Proof.KProj
import proofs.«137392_j61306363183369_1_alg».proof.Proof.KComb
import proofs.«137392_j61306363183369_1_alg».proof.Proof.KPool
import proofs.«137392_j61306363183369_1_alg».proof.Proof.Gen.Kernel.Regions

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- What region 0 is entered with, read at the TensorCore's references. -/
abbrev ent0 (c : Dev nD) (b : Ref sig .tc) : Buf (Elt F) ((c : Thread nD τ).loc b) := Gen.V1 m c b
/-- What region 0 leaves in its output array: every tile written back. -/
def o15 (c : Dev nD) : Buf (Elt F) ((c : Thread nD τ).loc main_v15) := (dat0 (ent0 m) c).arrAt 3 cfg0.N
/-- The buffers after region 0. -/
def X2 (c : Dev nD) : Valuation τ sig (Elt F) := Function.update (Gen.V1 m c) main_v15 (o15 m c)
/-- What region 1 is entered with. -/
abbrev ent1 (c : Dev nD) (b : Ref sig .tc) : Buf (Elt F) ((c : Thread nD τ).loc b) := StableHlo.after hostOps1 (X2 m c) b
/-- What region 1 leaves in its output array. -/
def o26 (c : Dev nD) : Buf (Elt F) ((c : Thread nD τ).loc main_v26) := (dat1 (ent1 m) c).arrAt 5 cfg1.N
/-- The buffers after region 1. -/
def X4 (c : Dev nD) : Valuation τ sig (Elt F) := Function.update (StableHlo.after hostOps1 (X2 m c)) main_v26 (o26 m c)
/-- What region 2 is entered with. -/
abbrev ent2 (c : Dev nD) (b : Ref sig .tc) : Buf (Elt F) ((c : Thread nD τ).loc b) := StableHlo.after hostOps2 (X4 m c) b
/-- What region 2 leaves in its one-row output array. -/
def o37 (c : Dev nD) : Buf (Elt F) ((c : Thread nD τ).loc main_v37) := (dat2 (ent2 m) c).arrAt 3 cfg2.N
/-- The buffers after region 2. -/
def X6 (c : Dev nD) : Valuation τ sig (Elt F) := Function.update (StableHlo.after hostOps2 (X4 m c)) main_v37 (o37 m c)
/-- The result buffer at the end: the one-row output read as a vector. -/
def result (c : Dev nD) : Buf (Elt F) ((c.tc : Thread nD τ).loc main_v38) := StableHlo.after hostOps3 (X6 m c) main_v38

end Cert.Kernel.Hand

end
-- ==== Proof.KWhole.lean ====
/-
  The run of the whole program. The entry function is seven items in a row: a stretch of host operations (the two
  degree norms), the projection region, a stretch (gather along the edges, scatter-add into the nodes), the
  combination region, a stretch (gather and scatter-add again), the pooling region, and the closing reshape of the
  one-row mean into a vector. Launched once on every core, every weakly fair execution terminates, and at the end the
  result buffer holds the mean read as a vector and each of the seven argument buffers what it was launched with.

  Between two items a core holds every unscoped buffer whole at a known valuation: the launch memory, then what each
  stretch computes from the valuation before it, then that valuation with a region's output array replaced by what the
  region's write-backs leave. Beside the buffers it carries its generator register at some state and its debts, of
  which it has none. A region takes its windows' arrays out of the valuation, hands the register to its invariant, runs
  its pipeline, and puts the arrays back: the input arrays as found (they are never written), the output array at every
  tile written back; every other unscoped buffer goes round the region untouched.
-/
import proofs.«137392_j61306363183369_1_alg».proof.Proof.KChain
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## What a core carries beside its buffers -/

/-- No core of this program waits on another: no semaphore is assigned a level, -/
abbrev noPairs : GSem nD τ sig → Finset Unit := fun _ => ∅
/-- and the level function is never consulted. -/
abbrev noLevel : GSem nD τ sig → Unit → ℕ := fun _ _ => 0

/-- Beside its buffers a core carries its generator register at some state, and it owes nothing. -/
abbrev idleCore (c : Dev nD) : sProp 𝕄 :=
  iprop((∃ r, prngReg c r) ∗ ∃ W, owes (c : Thread nD τ) (0 : CellTallies nD τ sig Unit) W)

/-- The same at each of the four host stretches. -/
abbrev idleCores : Fin 4 → Dev nD → sProp 𝕄 := fun _ c => idleCore c

/-- A core that carries this owes nothing. -/
theorem idleCore_owes (c : Dev nD) :
    (idleCore c : sProp 𝕄) ⊢ iprop(∃ W, owes (c : Thread nD τ) (0 : CellTallies nD τ sig Unit) W) := by
  iintro ⟨-, Hdebt⟩
  iexact Hdebt

/-- Buffers held at one valuation are held at any equal one, whatever rides along. -/
theorem held_congr (c : Dev nD) {W W' : Valuation τ sig (Elt F)} (h : W = W') (R : sProp 𝕄) :
    iprop(StableHlo.held (c : Thread nD τ) (Pipeline.ucRefs τ sig) W ∗ R)
      ⊢ iprop(StableHlo.held (c : Thread nD τ) (Pipeline.ucRefs τ sig) W' ∗ R) :=
  by subst h; exact .rfl

/-! ## Debts, tables and the class invariant: what every region of this program does alike -/

section Alike

variable {cfg : Pipeline.Cfg sig Λ₀} {c : Dev nD} (dat : Dat τ (Elt F) Unit ℕ (UR sig nD τ) ℕ cfg c)

/-- A core owing nothing meets the proof data's account of its debts at any point where that account is empty and
    admits every recorded pair. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, Hdebt⟩
  iexists W
  isplitr
  · ipureintro
    exact fun _ _ => Or.inl trivial
  iexact Hdebt

/-- Conversely an empty account is a core owing nothing (which pairs were recorded is forgotten). -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Hdebt⟩
  iexists W
  iexact Hdebt

end Alike

/-- No launch of this program prefetches a table: the tables of a pipeline without any, held at any shares and any
    contents, are the empty resource. -/
theorem tables_none (cfg : Pipeline.Cfg sig Λ₀) (c : Dev nD)
    (q : Fin (cfg.toPCfg (Val := Elt F)).pre.K → PosShare TreeShare) (V : (cfg.toPCfg (Val := Elt F)).pre.Contents (Elt F)) :
    (BI.emp : sProp 𝕄) ⊢ Pipeline.prefHeld (Ix := Unit) (Name := ℕ) (U := UR sig nD τ) (Lvl := ℕ) (cfg.toPCfg (Val := Elt F)).pre c q V := by
  refine Entails.of_eq ?_
  unfold Pipeline.prefHeld
  rw [show (Finset.univ : Finset (Fin (cfg.toPCfg (Val := Elt F)).pre.K)) = ∅ from rfl, BI.bigSep_empty]

/-- The class invariant is made of the generator register and the scoped buffers no window stages; whatever else is
    offered (the tables, of which there are none) is let go. -/
theorem classA_of_parts {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hreg, -, Hscoped⟩
  isplitl [Hscoped]
  · iexact Hscoped
  iexact Hreg

/-- And it gives both back; the kernels have no semaphore of their own to return at zero. -/
theorem parts_of_classA {gr W : Nat} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hscoped, Hreg⟩
  isplitl [Hreg]
  · iexact Hreg
  isplitr
  · iempintro
  iexact Hscoped

/-! ## Entering and leaving a region, for any of the three -/

section Protocol

variable (pd : (p : Fin 3) → (c : Dev nD) → Dat τ (Elt F) Unit ℕ (UR sig nD τ) ℕ (Pipeline.pin (pcfgs (F := F)) Gen.adm p) c)
variable (p : Fin 3) (c : Dev nD)

set_option backward.isDefEq.respectTransparency.types false in
/-- ENTRY. A core holding every unscoped buffer at the valuation `W`, idle otherwise, enters region `p` whose proof
    data reads its arrays off `W`: the arrays at their entry contents, no table, the empty account of debts, the
    generator register for the invariant, and every other unscoped buffer, still at `W`, to go round the region. -/
theorem enter (hw : Pipeline.WinFacts (Pipeline.pin (pcfgs (F := F)) Gen.adm p).spec)
    (harr : ∀ w, ((Pipeline.pin (pcfgs (F := F)) Gen.adm p).spec w).arr.IsWhole)
    (W : Valuation τ sig (Elt F))
    (hA : ∀ w, (pd p c).A w = W (Pipeline.arrRef (Pipeline.pin (pcfgs (F := F)) Gen.adm p).spec w))
    (hq : ∀ w, (pd p c).q w = fullShare) (h0 : (pd p c).owed 0 = 0) (hrec : (pd p c).recorded 0 = Set.univ) :
    (iprop(iprop(StableHlo.held (c : Thread nD τ) (Pipeline.ucRefs τ sig) W ∗ idleCore c)
        ∗ Pipeline.ownSems0 (fun k : PEmpty => k.elim) c ∗ levAts noPairs noLevel) : sProp 𝕄)
      ⊢ |={Set.univ}=> iprop((pd p c).arrays ((pd p c).arrAt · 0)
          ∗ Pipeline.prefHeld (pcfgs (F := F) p).pre c (fun _ => fullShare) (Gen.adm p).1
          ∗ (pd p c).owesAt () 0 ∗ (∃ r, prngReg c r)
          ∗ Pipeline.unscopedRest (Pipeline.pin (pcfgs (F := F)) Gen.adm p).spec c (fun b => W b)) := by
  have hsplit := Pipeline.arrays_of_unscopedBufs (p := p) (pcfgs (F := F)) Gen.adm pd hw harr c
    ((pd p c).share_full hq) (fun b => W b) hA
  rw [Pipeline.unscopedBufs_held c W] at hsplit
  iintro ⟨⟨Hbufs, Hreg, Hdebt⟩, -, -⟩
  ihave Hparts := hsplit $$ Hbufs
  icases Hparts with ⟨Harrays, Hround⟩
  imodintro
  isplitl [Harrays]
  · iexact Harrays
  isplitr
  · iapply (tables_none (cfgs p) c _ _)
    iempintro
  isplitl [Hdebt]
  · iapply (owesAt_of_nothing (pd p c) 0 h0 hrec)
    iexact Hdebt
  isplitl [Hreg]
  · iexact Hreg
  iexact Hround

set_option backward.isDefEq.respectTransparency.types false in
/-- EXIT. The arrays at what the pipeline leaves, the account of debts still empty, the register back from the
    invariant and the buffers that went round at `W` make the core's unscoped buffers at any valuation `W'` that has the
    arrays at what the pipeline leaves and agrees with `W` off them; the core is idle again. -/
theorem leave (hw : Pipeline.WinFacts (Pipeline.pin (pcfgs (F := F)) Gen.adm p).spec)
    (harr : ∀ w, ((Pipeline.pin (pcfgs (F := F)) Gen.adm p).spec w).arr.IsWhole)
    (W W' : Valuation τ sig (Elt F)) (hq : ∀ w, (pd p c).q w = fullShare)
    (hF : ∀ w, (pd p c).arrAt w (Pipeline.pin (pcfgs (F := F)) Gen.adm p).N
      = W' (Pipeline.arrRef (Pipeline.pin (pcfgs (F := F)) Gen.adm p).spec w))
    (hoff : ∀ b : Ref sig .tc, b ∉ Finset.univ.image (Pipeline.arrRef (Pipeline.pin (pcfgs (F := F)) Gen.adm p).spec) → W' b = W b)
    (h0 : (pd p c).owed (Fin.last (Pipeline.pin (pcfgs (F := F)) Gen.adm p).N) = 0) :
    (iprop((pd p c).arrays ((pd p c).arrAt · (Pipeline.pin (pcfgs (F := F)) Gen.adm p).N)
        ∗ (pd p c).owesAt () (Fin.last (Pipeline.pin (pcfgs (F := F)) Gen.adm p).N) ∗ (∃ r, prngReg c r)
        ∗ Pipeline.unscopedRest (Pipeline.pin (pcfgs (F := F)) Gen.adm p).spec c (fun b => W b)) : sProp 𝕄)
      ⊢ |={Set.univ}=> iprop(StableHlo.held (c : Thread nD τ) (Pipeline.ucRefs τ sig) W' ∗ idleCore c) := by
  have hjoin := Pipeline.unscopedBufs_of_arrays (p := p) (pcfgs (F := F)) Gen.adm (Ix := Unit) (Name := ℕ) (U := UR sig nD τ) (Lvl := ℕ)
    hw harr c pd ((pd p c).share_full hq) (fun b => W b) (fun b => W' b)
    ((pd p c).arrAt · (Pipeline.pin (pcfgs (F := F)) Gen.adm p).N) hF hoff
  rw [Pipeline.unscopedBufs_held c W'] at hjoin
  iintro ⟨Harrays, Hdebt, Hreg, Hround⟩
  imodintro
  isplitl [Harrays Hround]
  · iapply hjoin
    isplitl [Harrays] <;> iassumption
  isplitl [Hreg]
  · iexact Hreg
  iapply (nothing_of_owesAt (pd p c) _ h0)
  iexact Hdebt

end Protocol

variable (m : (ℓ : Loc nD τ sig) → Buf (Elt F) ℓ)

/-! ## The valuations between the items -/

/-- Off the reference it replaces, a valuation with one buffer replaced reads as before. -/
theorem update_off (W : Valuation τ sig (Elt F)) {o r : Ref sig .tc}
    (x : (Proc.devRef (τ := τ) .tc o).ty.Contents (Elt F)) (h : r ≠ o) :
    Function.update W (Proc.devRef .tc o) x (Proc.devRef .tc r) = W (Proc.devRef .tc r) :=
  Function.update_of_ne (StableHlo.devRef_ne_of_ne h) x W

/-- Replacing one buffer of equal valuations by equal contents gives equal valuations. -/
theorem update_congr {W W' : Valuation τ sig (Elt F)} (hW : W = W') (o : DevRef τ sig)
    {x x' : o.ty.Contents (Elt F)} (hx : x = x') : Function.update W o x = Function.update W' o x' := by
  subst hW; subst hx; rfl

/-- What the regions leave, as one family indexed by the item they follow: after the projection the buffers hold
    `X2`, after the combination `X4`, after the pooling `X6`. Only the three output arrays are ever read off it. -/
def leftBy : Gen.Outs (F := F) := fun J r c =>
  if J = 2 then X2 m c r else if J = 4 then X4 m c r else X6 m c r

theorem leftBy_proj (c : Dev nD) : leftBy m 2 main_v15 c = o15 m c :=
  (if_pos rfl).trans (Function.update_self _ _ _)

theorem leftBy_comb (c : Dev nD) : leftBy m 4 main_v26 c = o26 m c :=
  (if_neg (by decide)).trans ((if_pos rfl).trans (Function.update_self _ _ _))

theorem leftBy_pool (c : Dev nD) : leftBy m 6 main_v37 c = o37 m c :=
  (if_neg (by decide)).trans ((if_neg (by decide)).trans (Function.update_self _ _ _))

/-- With that family the valuations written over unknown contents are this program's: after the projection, -/
theorem V2_eq (c : Dev nD) : Gen.V2 m (leftBy m) c = X2 m c :=
  update_congr rfl _ (leftBy_proj m c)
/-- after the second stretch, -/
theorem V3_eq (c : Dev nD) : Gen.V3 m (leftBy m) c = StableHlo.after hostOps1 (X2 m c) :=
  congrArg (StableHlo.after hostOps1) (V2_eq m c)
/-- after the combination, -/
theorem V4_eq (c : Dev nD) : Gen.V4 m (leftBy m) c = X4 m c :=
  update_congr (V3_eq m c) _ (leftBy_comb m c)
/-- after the third stretch, -/
theorem V5_eq (c : Dev nD) : Gen.V5 m (leftBy m) c = StableHlo.after hostOps2 (X4 m c) :=
  congrArg (StableHlo.after hostOps2) (V4_eq m c)
/-- after the pooling, -/
theorem V6_eq (c : Dev nD) : Gen.V6 m (leftBy m) c = X6 m c :=
  update_congr (V5_eq m c) _ (leftBy_pool m c)
/-- and after the closing reshape. -/
theorem V7_eq (c : Dev nD) : Gen.V7 m (leftBy m) c = StableHlo.after hostOps3 (X6 m c) :=
  congrArg (StableHlo.after hostOps3) (V6_eq m c)

/-- The last valuation has the result buffer at the mean read as a vector. -/
theorem V7_result (c : Dev nD) : Gen.V7 m (leftBy m) c main_v38 = result m c :=
  congrFun (V7_eq m c) _

/-! ## The three regions' arrays at their exits -/

/-- Of the projection's four windows only the last is written; the first three read buffers other than the product's. -/
theorem proj_inputs : ∀ w : Fin 4, w ≠ 3 → (cfg0.win w).isOut = false ∧ Pipeline.arrRef spec0 w ≠ main_v15 := by decide

/-- Projection: the node features, the first weight matrix and the out-degree norm column are read only, so their
    arrays end as the region found them, which is what the replaced valuation still says of them; the product array
    holds every tile written back. -/
theorem arrays_after_proj (c : Dev nD) (w : Fin 4) :
    (dat0 (ent0 m) c).arrAt w cfg0.N = X2 m c (Pipeline.arrRef spec0 w) := by
  by_cases hw : w = 3
  · subst hw
    exact (Function.update_self (Proc.devRef (τ := τ) .tc main_v15) (o15 m c) (Gen.V1 m c)).symm
  · rw [(dat0 (ent0 m) c).arrAt_in w (proj_inputs w hw).1, dat0_A]
    exact (update_off (Gen.V1 m c) (o := main_v15) (o15 m c) (proj_inputs w hw).2).symm

/-- Every buffer that is no array of the projection is, in particular, not the product's. -/
theorem others_after_proj (c : Dev nD) (b : Ref sig .tc) (hb : b ∉ Finset.univ.image (Pipeline.arrRef spec0)) :
    X2 m c b = Gen.V1 m c b :=
  update_off (Gen.V1 m c) (o := main_v15) (r := b) (o15 m c) fun e => hb (Finset.mem_image.mpr ⟨3, Finset.mem_univ _, e.symm⟩)

/-- Of the combination's six windows only the last is written. -/
theorem comb_inputs : ∀ w : Fin 6, w ≠ 5 → (cfg1.win w).isOut = false ∧ Pipeline.arrRef spec1 w ≠ main_v26 := by decide

/-- Combination: the aggregated features, the two norm columns, the bias row and the second weight matrix are read
    only; the product array holds every tile written back. -/
theorem arrays_after_comb (c : Dev nD) (w : Fin 6) :
    (dat1 (ent1 m) c).arrAt w cfg1.N = X4 m c (Pipeline.arrRef spec1 w) := by
  by_cases hw : w = 5
  · subst hw
    exact (Function.update_self (Proc.devRef (τ := τ) .tc main_v26) (o26 m c) (StableHlo.after hostOps1 (X2 m c))).symm
  · rw [(dat1 (ent1 m) c).arrAt_in w (comb_inputs w hw).1, dat1_A]
    exact (update_off (StableHlo.after hostOps1 (X2 m c)) (o := main_v26) (o26 m c) (comb_inputs w hw).2).symm

theorem others_after_comb (c : Dev nD) (b : Ref sig .tc) (hb : b ∉ Finset.univ.image (Pipeline.arrRef spec1)) :
    X4 m c b = StableHlo.after hostOps1 (X2 m c) b :=
  update_off (StableHlo.after hostOps1 (X2 m c)) (o := main_v26) (r := b) (o26 m c) fun e => hb (Finset.mem_image.mpr ⟨5, Finset.mem_univ _, e.symm⟩)

/-- Of the pooling's four windows only the last is written. -/
theorem pool_inputs : ∀ w : Fin 4, w ≠ 3 → (cfg2.win w).isOut = false ∧ Pipeline.arrRef spec2 w ≠ main_v37 := by decide

/-- Pooling: the aggregated features, the in-degree norm column and the bias row are read only; the one-row mean is
    written back once, at the last point. -/
theorem arrays_after_pool (c : Dev nD) (w : Fin 4) :
    (dat2 (ent2 m) c).arrAt w cfg2.N = X6 m c (Pipeline.arrRef spec2 w) := by
  by_cases hw : w = 3
  · subst hw
    exact (Function.update_self (Proc.devRef (τ := τ) .tc main_v37) (o37 m c) (StableHlo.after hostOps2 (X4 m c))).symm
  · rw [(dat2 (ent2 m) c).arrAt_in w (pool_inputs w hw).1, dat2_A]
    exact (update_off (StableHlo.after hostOps2 (X4 m c)) (o := main_v37) (o37 m c) (pool_inputs w hw).2).symm

theorem others_after_pool (c : Dev nD) (b : Ref sig .tc) (hb : b ∉ Finset.univ.image (Pipeline.arrRef spec2)) :
    X6 m c b = StableHlo.after hostOps2 (X4 m c) b :=
  update_off (StableHlo.after hostOps2 (X4 m c)) (o := main_v37) (r := b) (o37 m c) fun e => hb (Finset.mem_image.mpr ⟨3, Finset.mem_univ _, e.symm⟩)

/-! ## The proof data of the three pipelines, and the regions as segments -/

/-- Every pipeline's proof data at once, each at the contents its region is entered with. -/
def pdats : (p : Fin 3) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c

set_option backward.isDefEq.respectTransparency.types false in
/-- The projection region: entered with the buffers after the first stretch, left with the product array replaced. -/
def projSeg : RegionSeg (pcfgs (F := F)) Gen.adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noPairs noLevel 0 fun _ _ => rfl
  pre c := iprop(StableHlo.held (c : Thread nD τ) (Pipeline.ucRefs τ sig) (Gen.V1 m c) ∗ idleCore c)
  post c := iprop(StableHlo.held (c : Thread nD τ) (Pipeline.ucRefs τ sig) (X2 m c) ∗ idleCore c)
  X c := iprop(∃ r, prngReg c r)
  Y c := iprop(∃ r, prngReg c r)
  Z c := Pipeline.unscopedRest (Ix := Unit) (Name := ℕ) (U := UR sig nD τ) (Lvl := ℕ) spec0 c (ent0 m c)
  hentry c := enter (pdats m) 0 c launch0.win launch0.arr_whole (Gen.V1 m c) (fun _ => rfl) (fun _ => rfl) rfl rfl
  hin c := by
    rw [show (pdats m 0 c).Φ 0 = Pipeline.ΦA spec0 c from rfl]
    exact classA_of_parts spec0 c _
  hout c := by
    rw [show (pdats m 0 c).Φ (Fin.last _) = Pipeline.ΦA spec0 c from rfl]
    exact parts_of_classA spec0 c
  hexit c := leave (pdats m) 0 c launch0.win launch0.arr_whole (Gen.V1 m c) (X2 m c) (fun _ => rfl)
    (arrays_after_proj m c) (others_after_proj m c) rfl

set_option backward.isDefEq.respectTransparency.types false in
/-- The combination region: entered with the buffers after the second stretch, left with its product array replaced. -/
def combSeg : RegionSeg (pcfgs (F := F)) Gen.adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noPairs noLevel 1 fun _ _ => rfl
  pre c := iprop(StableHlo.held (c : Thread nD τ) (Pipeline.ucRefs τ sig) (StableHlo.after hostOps1 (X2 m c)) ∗ idleCore c)
  post c := iprop(StableHlo.held (c : Thread nD τ) (Pipeline.ucRefs τ sig) (X4 m c) ∗ idleCore c)
  X c := iprop(∃ r, prngReg c r)
  Y c := iprop(∃ r, prngReg c r)
  Z c := Pipeline.unscopedRest (Ix := Unit) (Name := ℕ) (U := UR sig nD τ) (Lvl := ℕ) spec1 c (ent1 m c)
  hentry c := enter (pdats m) 1 c launch1.win launch1.arr_whole (StableHlo.after hostOps1 (X2 m c))
    (fun _ => rfl) (fun _ => rfl) rfl rfl
  hin c := by
    rw [show (pdats m 1 c).Φ 0 = Pipeline.ΦA spec1 c from rfl]
    exact classA_of_parts spec1 c _
  hout c := by
    rw [show (pdats m 1 c).Φ (Fin.last _) = Pipeline.ΦA spec1 c from rfl]
    exact parts_of_classA spec1 c
  hexit c := leave (pdats m) 1 c launch1.win launch1.arr_whole (StableHlo.after hostOps1 (X2 m c)) (X4 m c) (fun _ => rfl)
    (arrays_after_comb m c) (others_after_comb m c) rfl

set_option backward.isDefEq.respectTransparency.types false in
/-- The pooling region: entered with the buffers after the third stretch, left with the one-row mean replaced. Its
    invariant carries the accumulator between points; at the two ends it is the class invariant (before the first
    point by definition, after the last with the accumulator's contents forgotten). -/
def poolSeg : RegionSeg (pcfgs (F := F)) Gen.adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ noPairs noLevel 2 fun _ _ => rfl
  pre c := iprop(StableHlo.held (c : Thread nD τ) (Pipeline.ucRefs τ sig) (StableHlo.after hostOps2 (X4 m c)) ∗ idleCore c)
  post c := iprop(StableHlo.held (c : Thread nD τ) (Pipeline.ucRefs τ sig) (X6 m c) ∗ idleCore c)
  X c := iprop(∃ r, prngReg c r)
  Y c := iprop(∃ r, prngReg c r)
  Z c := Pipeline.unscopedRest (Ix := Unit) (Name := ℕ) (U := UR sig nD τ) (Lvl := ℕ) spec2 c (ent2 m c)
  hentry c := enter (pdats m) 2 c launch2.win launch2.arr_whole (StableHlo.after hostOps2 (X4 m c))
    (fun _ => rfl) (fun _ => rfl) rfl rfl
  hin c := by
    rw [show (pdats m 2 c).Φ 0 = Pipeline.ΦA spec2 c from dat2_Phi_first (ent2 m) c]
    exact classA_of_parts spec2 c _
  hout c := (show (pdats m 2 c).Φ (Fin.last _) ⊢ (Pipeline.ΦA spec2 c : sProp 𝕄) from dat2_Phi_last (ent2 m) c).trans
    (parts_of_classA spec2 c)
  hexit c := leave (pdats m) 2 c launch2.win launch2.arr_whole (StableHlo.after hostOps2 (X4 m c)) (X6 m c) (fun _ => rfl)
    (arrays_after_pool m c) (others_after_pool m c) rfl

/-! ## The end of the run read against a final memory -/

/-- What the claim says of core `c` in a final memory: the result buffer holds the mean read as a vector, each argument
    buffer what it was launched with. -/
abbrev AtEnd (c : Dev nD) (s : MemSt nD τ sig (Elt F)) : Prop :=
  s.mem ((c.tc : Thread nD τ).loc main_v38) = result m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- Every unscoped buffer held at the last valuation, against the state interpretation of a final state: the memory
    holds the last valuation there; the result buffer is read by `V7_result`, and no item writes an argument. -/
theorem read_end (c : Dev nD) (s' : Phys nD τ sig (Elt F)) :
    (iprop(StableHlo.held (c : Thread nD τ) (Pipeline.ucRefs τ sig) (Gen.V7 m (leftBy m) c) ∗ SI s') : sProp 𝕄)
      ⊢ |={Set.univ}=> iprop(⌜AtEnd m c s'.mem⌝ ∗ SI s') := by
  unfold StableHlo.held
  iintro ⟨Hbufs, HSI⟩
  ihave Hread := (pointsTo_read_all (Pipeline.ucRefs τ sig) (fun b => ((c : Thread nD τ).1, b)) (Gen.V7 m (leftBy m) c) s') $$ [Hbufs HSI]
  · isplitl [Hbufs] <;> iassumption
  icases Hread with ⟨%hmem, HSI⟩
  imodintro
  isplitr
  · ipureintro
    have at_ref : ∀ r : Ref sig .tc, ¬ (Proc.devRef (τ := τ) .tc r).isScoped →
        s'.mem.mem ((c : Thread nD τ).1, Proc.devRef .tc r) = Gen.V7 m (leftBy m) c (Proc.devRef .tc r) :=
      fun r hr => hmem (Proc.devRef .tc r) (Finset.mem_filter.mpr ⟨StableHlo.devRef_mem_tcRefs r, hr⟩)
    exact ⟨(at_ref main_v38 (by decide)).trans (V7_result m c),
      (at_ref main_arg0 (by decide)).trans (Gen.V7_main_arg0 m (leftBy m) c),
      (at_ref main_arg1 (by decide)).trans (Gen.V7_main_arg1 m (leftBy m) c),
      (at_ref main_arg2 (by decide)).trans (Gen.V7_main_arg2 m (leftBy m) c),
      (at_ref main_arg3 (by decide)).trans (Gen.V7_main_arg3 m (leftBy m) c),
      (at_ref main_arg4 (by decide)).trans (Gen.V7_main_arg4 m (leftBy m) c),
      (at_ref main_arg5 (by decide)).trans (Gen.V7_main_arg5 m (leftBy m) c),
      (at_ref main_arg6 (by decide)).trans (Gen.V7_main_arg6 m (leftBy m) c)⟩
  · iexact HSI

/-! ## The run -/

/-- The seven items as segments on a core: the four host stretches over the valuations above, the three regions. -/
abbrev items : Dev nD → List (Seg (pcfgs (F := F)) Gen.adm (pdats m) () defs₀ Variants.none noPairs noLevel) :=
  Gen.segs m (leftBy m) Variants.none noPairs noLevel idleCores () (pdats m) (projSeg m) (combSeg m) (poolSeg m)

set_option backward.isDefEq.respectTransparency.types false in
/-- THE RUN. From any memory `m` with every counter at zero and any generator registers, every weakly fair execution
    of the entry function on the cores terminates, and every final memory has, on each core, the result buffer at
    `result m c` and the seven argument buffers as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ Variants.none
    noPairs noLevel m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [items, Gen.segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ idleCore c))
    (Tₙ := fun c => StableHlo.held (c : Thread nD τ) (Pipeline.ucRefs τ sig) (Gen.V7 m (leftBy m) c))
    (hch := fun c => ⟨.rfl, .rfl, held_congr c (V2_eq m c).symm _, held_congr c (V3_eq m c) _,
      held_congr c (V4_eq m c).symm _, held_congr c (V5_eq m c) _, held_congr c (V6_eq m c).symm _,
      sep_mono .rfl (idleCore_owes c)⟩)
    (hinit := ?_) (QY := AtEnd m) (hfin := read_end m) (hQ := fun _ h => h)
  · -- the launch element is the pipelines' own, and no ghost resource is dealt to the cores
    rw [ownU_emb₁, BI.bigSep_emp_const]
    iintro Hown
    imodintro
    isplitl [Hown]
    · iexact Hown
    iempintro
  · -- each core by itself: its unscoped buffers are held at the launch memory, its register is at the launch's
    -- state, and it owes nothing
    refine Pipeline.initEach noPairs noLevel fun c => ?_
    rw [show unscopedBufs c (fun b => m ((c : Thread nD τ).loc b))
        = StableHlo.held (c : Thread nD τ) (Pipeline.ucRefs τ sig) (Gen.V0 m c) from Pipeline.unscopedBufs_held c (Gen.V0 m c)]
    iintro ⟨⟨Hbufs, -, Hdebt, -, Hreg, -⟩, -⟩
    imodintro
    isplitl [Hbufs]
    · iexact Hbufs
    isplitl [Hreg]
    · iexists _
      iexact Hreg
    iexists ∅
    iexact Hdebt

end Cert.Kernel.Hand

end
-- ==== Proof.RefShape.lean ====
/-
  The reference's result as a composition of named stages: the degree norm of an index list, the norm as a
  column, an index list with negative entries wrapped around, the scaled projection of a layer, the
  edge aggregation (gather the source rows, add them up at the destination rows), the second layer's
  input (scale, bias, clip at zero, project, scale), and the mean over all node rows of the last layer.
  Each stage is a sub-term of the reference's composed result term, word for word, so the composition is
  that term.
-/
import proofs.«137392_j61306363183369_1_alg».proof.Proof.Gen.ReferenceIdeal.Run

noncomputable section

namespace Cert.ReferenceIdeal.Shape

open Cert.ReferenceIdeal Cert.ReferenceIdeal.Gen Idealize.ShloMosaic Idealize.ShloMosaic.TcCoe Idealize.SL.Sem Idealize.ShloMosaic.StableHlo

variable {F : FTy → Type} [FloatOps F]

/-- The degree norm of an index list: one over the square root of (how often each node occurs, at least one). -/
def nrm (idx : (⟨S800000, .i32⟩ : BufTy).Contents (Elt F)) : (⟨S50000, .f32⟩ : BufTy).Contents (Elt F) :=
  Host.rsqrt (maximumf (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))) (broadcastInDim S50000 ![] bcast_S_S50000 (constant S_ .f32 0x3F800000#32)))

/-- A vector over the nodes as a one-column matrix. -/
def col (v : (⟨S50000, .f32⟩ : BufTy).Contents (Elt F)) : (⟨S50000x1, .f32⟩ : BufTy).Contents (Elt F) :=
  broadcastInDim S50000x1 ![0] bcast_S50000_S50000x1_0 v

/-- An index list as a one-column table, negative entries counted from the end. -/
def wrap (s : (⟨S800000, .i32⟩ : BufTy).Contents (Elt F)) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The first layer's projection, every row scaled by its entry of the norm column. -/
def proj (X : (⟨S50000x256, .f32⟩ : BufTy).Contents (Elt F)) (W : (⟨S256x256, .f32⟩ : BufTy).Contents (Elt F)) (n : (⟨S50000x1, .f32⟩ : BufTy).Contents (Elt F)) : (⟨S50000x256, .f32⟩ : BufTy).Contents (Elt F) :=
  mulf (Host.dotGeneral dot_S50000x256_S256x256_S50000x256_1_0_0_1_n_n none X W) (broadcastInDim S50000x256 ![0, 1] bcast_S50000x1_S50000x256_0_1 n)

/-- Edge aggregation of 256-wide rows: the rows at the (wrapped) sources added up at the destinations. -/
def agg256 (h : (⟨S50000x256, .f32⟩ : BufTy).Contents (Elt F)) (s : (⟨S800000x1, .i32⟩ : BufTy).Contents (Elt F)) (d : (⟨S800000, .i32⟩ : BufTy).Contents (Elt F)) : (⟨S50000x256, .f32⟩ : BufTy).Contents (Elt F) :=
  Host.scatterAdd scatter_S50000x256_S800000x1_S800000x256_1_0_0_1 (broadcastInDim S50000x256 ![] bcast_S_S50000x256 (constant S_ .f32 0x00000000#32)) (broadcastInDim S800000x1 ![0] bcast_S800000_S800000x1_0 d) (Host.gather gather_S50000x256_S800000x1_S800000x256_1_0_n_n_0_1_1256 h s)

/-- The second layer's projection of the clipped, biased, scaled aggregate, every row scaled by the norm column. -/
def comb (a : (⟨S50000x256, .f32⟩ : BufTy).Contents (Elt F)) (ni : (⟨S50000x1, .f32⟩ : BufTy).Contents (Elt F)) (b : (⟨S256, .f32⟩ : BufTy).Contents (Elt F)) (W : (⟨S256x128, .f32⟩ : BufTy).Contents (Elt F))
    (no : (⟨S50000x1, .f32⟩ : BufTy).Contents (Elt F)) : (⟨S50000x128, .f32⟩ : BufTy).Contents (Elt F) :=
  mulf (Host.dotGeneral dot_S50000x256_S256x128_S50000x128_1_0_0_1_n_n none (maximumf (addf (mulf a (broadcastInDim S50000x256 ![0, 1] bcast_S50000x1_S50000x256_0_1 ni)) (broadcastInDim S50000x256 ![0, 1] bcast_S1x256_S50000x256_0_1 (broadcastInDim S1x256 ![1] bcast_S256_S1x256_1 b))) (broadcastInDim S50000x256 ![] bcast_S_S50000x256 (constant S_ .f32 0x00000000#32))) W) (broadcastInDim S50000x128 ![0, 1] bcast_S50000x1_S50000x128_0_1 no)

/-- Edge aggregation of 128-wide rows. -/
def agg128 (h : (⟨S50000x128, .f32⟩ : BufTy).Contents (Elt F)) (s : (⟨S800000x1, .i32⟩ : BufTy).Contents (Elt F)) (d : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 d) (Host.gather gather_S50000x128_S800000x1_S800000x128_1_0_n_n_0_1_1128 h s)

/-- The mean over all node rows of the biased, scaled aggregate: the column sums divided by the row count. -/
def pool (a : (⟨S50000x128, .f32⟩ : BufTy).Contents (Elt F)) (ni : (⟨S50000x1, .f32⟩ : BufTy).Contents (Elt F)) (b : (⟨S128, .f32⟩ : BufTy).Contents (Elt F)) : (⟨S128, .f32⟩ : BufTy).Contents (Elt F) :=
  Host.divf (Host.reduceAdd (addf (mulf a (broadcastInDim S50000x128 ![0, 1] bcast_S50000x1_S50000x128_0_1 ni)) (broadcastInDim S50000x128 ![0, 1] bcast_S1x128_S50000x128_0_1 (broadcastInDim S1x128 ![1] bcast_S128_S1x128_1 b))) (constant S_ .f32 0x00000000#32) reducesTo_S50000x128_S128_d0 h_S_) (broadcastInDim S128 ![] bcast_S_S128 (constant S_ .f32 0x47435000#32))

/-- The reference's result is the composition of the stages. -/
theorem res_eq (m : (ℓ : Loc nD τ sig) → Buf (Elt F) ℓ) (c : Dev nD) :
    Value.res_main_v69 m c
      = pool (agg128 (comb (agg256 (proj (m ((c.tc : Thread nD τ).loc main_arg0)) (m ((c.tc : Thread nD τ).loc main_arg3)) (col (nrm (m ((c.tc : Thread nD τ).loc main_arg1)))))
                (wrap (m ((c.tc : Thread nD τ).loc main_arg1))) (m ((c.tc : Thread nD τ).loc main_arg2)))
              (col (nrm (m ((c.tc : Thread nD τ).loc main_arg2)))) (m ((c.tc : Thread nD τ).loc main_arg4)) (m ((c.tc : Thread nD τ).loc main_arg5))
              (col (nrm (m ((c.tc : Thread nD τ).loc main_arg1)))))
            (wrap (m ((c.tc : Thread nD τ).loc main_arg1))) (m ((c.tc : Thread nD τ).loc main_arg2)))
          (col (nrm (m ((c.tc : Thread nD τ).loc main_arg2)))) (m ((c.tc : Thread nD τ).loc main_arg6)) := by
  unfold Value.res_main_v69 pool agg128 comb agg256 proj col nrm wrap
  rfl

end Cert.ReferenceIdeal.Shape

end
-- ==== Proof.Stages.lean ====
/-
  Bookkeeping along the program, at any float instance: what each stretch of host operations leaves in the
  buffers the next region reads. The degree-norm columns come from the first stretch; a region's output
  array replaces one buffer and leaves the rest; the edge aggregation of a region's output is what the next
  region is entered with; the closing reshape reads the one-row output as a vector.
-/
import proofs.«137392_j61306363183369_1_alg».proof.Proof.Chain
import proofs.«137392_j61306363183369_1_alg».proof.Proof.RefShape
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Shape (nrm col wrap proj agg256 comb agg128 pool)

variable {F : FTy → Type} [FloatOps F] [Named F]
variable (m : (ℓ : Loc nD τ sig) → Buf (Elt F) ℓ)

/-! ## What the first stretch of host operations leaves -/

/-- A buffer the first stretch does not write is as launched. -/
theorem ent0_of (c : Dev nD) (r : Ref sig .tc) (h : r ∉ hostOps0_W) :
    StableHlo.after hostOps0 (V0 m c) (Proc.devRef .tc r) = m ((c.tc : Thread nD τ).loc r) :=
  V1_of m c r h

/-- The out-degree norm column. -/
theorem ent0_v10 (c : Dev nD) :
    StableHlo.after hostOps0 (V0 m c) (Proc.devRef .tc main_v10) = col (nrm (m ((c.tc : Thread nD τ).loc main_arg1))) := by
  unfold col nrm
  after_results
  rfl

/-- The in-degree norm column. -/
theorem ent0_v14 (c : Dev nD) :
    StableHlo.after hostOps0 (V0 m c) (Proc.devRef .tc main_v14) = col (nrm (m ((c.tc : Thread nD τ).loc main_arg2))) := by
  unfold col nrm
  after_results
  rfl

/-! ## The buffers after each region: the region's output array replaced, the rest untouched -/

theorem X2_v15 (c : Dev nD) : X2 m c (Proc.devRef .tc main_v15) = o15 m c := by
  unfold X2; exact Function.update_self _ _ _
theorem X2_of_ne (c : Dev nD) (r : Ref sig .tc) (h : r ≠ main_v15) :
    X2 m c (Proc.devRef .tc r) = StableHlo.after hostOps0 (V0 m c) (Proc.devRef .tc r) := by
  unfold X2; exact Function.update_of_ne (StableHlo.devRef_ne_of_ne h) _ _
theorem X4_v26 (c : Dev nD) : X4 m c (Proc.devRef .tc main_v26) = o26 m c := by
  unfold X4; exact Function.update_self _ _ _
theorem X4_of_ne (c : Dev nD) (r : Ref sig .tc) (h : r ≠ main_v26) :
    X4 m c (Proc.devRef .tc r) = StableHlo.after hostOps1 (X2 m c) (Proc.devRef .tc r) := by
  unfold X4; exact Function.update_of_ne (StableHlo.devRef_ne_of_ne h) _ _
theorem X6_v37 (c : Dev nD) : X6 m c (Proc.devRef .tc main_v37) = o37 m c := by
  unfold X6; exact Function.update_self _ _ _

/-- A buffer neither the first stretch nor region 0 writes is as launched when region 1's stretch starts. -/
theorem X2_arg (c : Dev nD) (r : Ref sig .tc) (h : r ≠ main_v15) (h0 : r ∉ hostOps0_W) :
    X2 m c (Proc.devRef .tc r) = m ((c.tc : Thread nD τ).loc r) :=
  (X2_of_ne m c r h).trans (ent0_of m c r h0)

/-- A buffer the second stretch does not write passes through it. -/
theorem ent1_of (c : Dev nD) (r : Ref sig .tc) (h : r ∉ hostOps1_W) :
    StableHlo.after hostOps1 (X2 m c) (Proc.devRef .tc r) = X2 m c (Proc.devRef .tc r) :=
  StableHlo.after_of_writes_sub hostOps1 _ hostOps1_writes h
/-- A buffer the third stretch does not write passes through it. -/
theorem ent2_of (c : Dev nD) (r : Ref sig .tc) (h : r ∉ hostOps2_W) :
    StableHlo.after hostOps2 (X4 m c) (Proc.devRef .tc r) = X4 m c (Proc.devRef .tc r) :=
  StableHlo.after_of_writes_sub hostOps2 _ hostOps2_writes h

/-! ## The edge aggregations between the regions -/

/-- Region 1 is entered with the edge aggregation of what region 0 left. -/
theorem ent1_v25 (c : Dev nD) :
    StableHlo.after hostOps1 (X2 m c) (Proc.devRef .tc main_v25)
      = agg256 (o15 m c) (wrap (m ((c.tc : Thread nD τ).loc main_arg1))) (m ((c.tc : Thread nD τ).loc main_arg2)) := by
  unfold agg256 wrap
  after_results
  rw [X2_v15, X2_arg m c main_arg1 (by decide) (by decide), X2_arg m c main_arg2 (by decide) (by decide)]
  rfl

/-- Region 2 is entered with the edge aggregation of what region 1 left. -/
theorem ent2_v36 (c : Dev nD) :
    StableHlo.after hostOps2 (X4 m c) (Proc.devRef .tc main_v36)
      = agg128 (o26 m c) (wrap (m ((c.tc : Thread nD τ).loc main_arg1))) (m ((c.tc : Thread nD τ).loc main_arg2)) := by
  unfold agg128 wrap
  after_results
  rw [X4_v26, X4_of_ne m c main_arg1 (by decide), X4_of_ne m c main_arg2 (by decide),
    ent1_of m c main_arg1 (by decide), ent1_of m c main_arg2 (by decide),
    X2_arg m c main_arg1 (by decide) (by decide), X2_arg m c main_arg2 (by decide) (by decide)]
  rfl

/-- The closing reshape reads region 2's one-row output as a vector. -/
theorem result_reshape (c : Dev nD) :
    result m c = shapeCast S128 (o37 m c) shapeCasts_S1x128_S128 := by
  unfold result
  after_results
  rw [X6_v37]
  rfl

end Cert.KernelIdeal.Hand

end
-- ==== Proof.ProjValue.lean ====
/-
  Region 0, read as a value: after its ten points the output array holds, at node row r and column j,
  (Σ_k X[r,k] · W[k,j]) · n[r,0] — the reference's scaled projection of the arrays the region was entered
  with. Row r = 5000·t + p lies in the tile of point t = r / 5000, at row p of that tile; the tile's product
  into a zero accumulator is the plain sum over the 256 inner indices, and the casts of the operands are the
  identity on ideal values.
-/
import proofs.«137392_j61306363183369_1_alg».proof.Proof.Proj
import proofs.«137392_j61306363183369_1_alg».proof.Proof.RefShape
import proofs.«137392_j61306363183369_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The tile's arithmetic at an index -/

/-- A one-column array spread over the columns reads, at row p and any column, the entry of row p. -/
theorem projCol_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the tile's product is read at the output's row … -/
theorem proj_lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … and at the summation index on its second axis; -/
theorem proj_lhs_contr (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- the right operand at the summation index on its first axis … -/
theorem proj_rhs_contr (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- … and at the output's column. -/
theorem proj_rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A tile's product into a zero accumulator, at row p and column q: the plain sum over the 256 inner indices. -/
theorem proj_matmul_apply (x : FVec Ideal S5000x256 .bf16) (w : FVec Ideal S256x256 .bf16) (p : Fin 5000) (q : Fin 256) :
    matmul dot_S5000x256_S256x256_S5000x256_1_0_0_1_n_n none x w (constant (F := Ideal) S5000x256 .f32 0x00000000#32) (ix2 p q)
      = ∑ k : Fin 256, x (ix2 p k) * w (ix2 k q) := by
  refine (Ideal.matmul_constant_zero_apply dot_S5000x256_S256x256_S5000x256_1_0_0_1_n_n none x w (ix2 p q)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact proj_lhs_row _ _
    | ⟨1, _⟩ => exact (proj_lhs_contr _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (proj_rhs_contr _ _).trans hk
    | ⟨1, _⟩ => exact proj_rhs_col _ _)
  rw [el, er]

/-- What the body stores, at row p and column q of the tile: the row of x against the column of w, times the row's norm. -/
theorem out0_apply (x : Vec Ideal S5000x256 .f32) (w : Vec Ideal S256x256 .f32) (n : Vec Ideal S5000x1 .f32) (p : Fin 5000) (q : Fin 256) :
    out0 x w n (ix2 p q) = (∑ k : Fin 256, x (ix2 p k) * w (ix2 k q)) * n (ix2 p (0 : Fin 1)) := by
  unfold out0 k0_pay1
  show matmul dot_S5000x256_S256x256_S5000x256_1_0_0_1_n_n none (truncf .bf16 x _) (truncf .bf16 w _) (constant (F := Ideal) S5000x256 .f32 0x00000000#32) (ix2 p q)
      * broadcastTo S5000x256 (shapeCast S5000x1 n _) _ (ix2 p q) = _
  refine congrArg₂ (· * ·) ((proj_matmul_apply _ _ p q).trans rfl) ?_
  exact (projCol_broadcast_apply _ _ p q).trans (congrFun (shapeCast_self n _) _)

/-! ## The reference's scaled projection at an index -/

/-- At node row r and column q the reference's stage is the row of X against the column of W, times the row's norm. -/
theorem ref_proj_apply (X : (⟨Cert.ReferenceIdeal.S50000x256, .f32⟩ : BufTy).Contents (Elt Ideal))
    (W : (⟨Cert.ReferenceIdeal.S256x256, .f32⟩ : BufTy).Contents (Elt Ideal))
    (n : (⟨Cert.ReferenceIdeal.S50000x1, .f32⟩ : BufTy).Contents (Elt Ideal)) (r : Fin 50000) (q : Fin 256) :
    Cert.ReferenceIdeal.Shape.proj X W n (ix2 r q) = (∑ k : Fin 256, X (ix2 r k) * W (ix2 k q)) * n (ix2 r (0 : Fin 1)) := by
  unfold Cert.ReferenceIdeal.Shape.proj
  show Cert.ReferenceIdeal.Read.val_main_v13 (F := Ideal) X W (ix2 r q)
      * broadcastInDim Cert.ReferenceIdeal.S50000x256 ![0, 1] _ n (ix2 r q) = _
  refine congrArg₂ (· * ·) ((Cert.ReferenceIdeal.Read.val_main_v13_apply X W (ix2 r q)).trans (Finset.sum_congr rfl fun k _ => ?_)) ?_
  · exact congrArg₂ (· * ·)
      (congrArg X (funext fun a => by match a with | ⟨0, _⟩ => rfl | ⟨1, _⟩ => rfl))
      (congrArg W (funext fun a => by match a with | ⟨0, _⟩ => rfl | ⟨1, _⟩ => rfl))
  · refine broadcastInDim_apply _ _ n (ix2 r q) (ix2 r (0 : Fin 1)) fun a => ?_
    match a with
    | ⟨0, _⟩ => show r.val = if (50000 : Nat) = 1 then 0 else r.val; rw [if_neg (by decide)]
    | ⟨1, _⟩ => show 0 = if (1 : Nat) = 1 then 0 else q.val; rw [if_pos rfl]

/-! ## The windows' blocks, read where the output's tile says -/

/-- The block indices of the four windows at point t: the tile's number on the row axis for the three tiled
    windows, zero everywhere else. -/
theorem proj_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The three arrays the region reads, each at its literal shape: X, W and the norm column. -/
abbrev proj_X (c : Dev nD) : Vec Ideal S50000x256 .f32 := V c main_arg0
abbrev proj_W (c : Dev nD) : Vec Ideal S256x256 .f32 := V c main_arg3
abbrev proj_n (c : Dev nD) : Vec Ideal S50000x1 .f32 := V c main_v10

/-- Their blocks at point t, each at its literal shape. -/
abbrev proj_Xtile (c : Dev nD) (t : Fin cfg0.N) : Vec Ideal S5000x256 .f32 := blk0 V c 0 t
abbrev proj_Wtile (c : Dev nD) (t : Fin cfg0.N) : Vec Ideal S256x256 .f32 := blk0 V c 1 t
abbrev proj_ntile (c : Dev nD) (t : Fin cfg0.N) : Vec Ideal S5000x1 .f32 := blk0 V c 2 t

/-- Row p of the tile of X at point t is node row 5000·t + p. -/
theorem blk0_x_apply (c : Dev nD) (t : Fin cfg0.N) (p : Fin 5000) (k : Fin 256) (r : Fin 50000) (hr : r.val = 5000 * t.val + p.val) :
    proj_Xtile V c t (ix2 p k) = proj_X V c (ix2 r k) := by
  obtain ⟨h0, h1, -⟩ := proj_index_facts t
  show (blk0 V c 0 t : Vec Ideal S5000x256 .f32) (ix2 p k) = (V c main_arg0 : S50000x256.Idx → Elt Ideal .f32) (ix2 r k)
  unfold blk0
  rw [View.read_apply]
  show V c main_arg0 _ = V c main_arg0 _
  congr 1
  funext a
  apply Fin.ext
  match a with
  | ⟨0, _⟩ => show win0_0.index t 0 * 5000 + 1 * p.val = r.val; rw [h0, hr]; omega
  | ⟨1, _⟩ => show win0_0.index t 1 * 256 + 1 * k.val = k.val; rw [h1]; omega

/-- The window of W holds the whole of W at every point. -/
theorem blk0_w_apply (c : Dev nD) (t : Fin cfg0.N) (k q : Fin 256) :
    proj_Wtile V c t (ix2 k q) = proj_W V c (ix2 k q) := by
  obtain ⟨-, -, h0, h1, -⟩ := proj_index_facts t
  show (blk0 V c 1 t : Vec Ideal S256x256 .f32) (ix2 k q) = (V c main_arg3 : S256x256.Idx → Elt Ideal .f32) (ix2 k q)
  unfold blk0
  rw [View.read_apply]
  show V c main_arg3 _ = V c main_arg3 _
  congr 1
  funext a
  apply Fin.ext
  match a with
  | ⟨0, _⟩ => show win0_1.index t 0 * 256 + 1 * k.val = k.val; rw [h0]; omega
  | ⟨1, _⟩ => show win0_1.index t 1 * 256 + 1 * q.val = q.val; rw [h1]; omega

/-- Row p of the tile of the norm column at point t is node row 5000·t + p. -/
theorem blk0_n_apply (c : Dev nD) (t : Fin cfg0.N) (p : Fin 5000) (r : Fin 50000) (hr : r.val = 5000 * t.val + p.val) :
    proj_ntile V c t (ix2 p (0 : Fin 1)) = proj_n V c (ix2 r (0 : Fin 1)) := by
  obtain ⟨-, -, -, -, h0, h1, -⟩ := proj_index_facts t
  show (blk0 V c 2 t : Vec Ideal S5000x1 .f32) (ix2 p (0 : Fin 1)) = (V c main_v10 : S50000x1.Idx → Elt Ideal .f32) (ix2 r (0 : Fin 1))
  unfold blk0
  rw [View.read_apply]
  show V c main_v10 _ = V c main_v10 _
  congr 1
  funext a
  apply Fin.ext
  match a with
  | ⟨0, _⟩ => show win0_2.index t 0 * 5000 + 1 * p.val = r.val; rw [h0, hr]; omega
  | ⟨1, _⟩ => show win0_2.index t 1 * 1 + 1 * (0 : Fin 1).val = (0 : Fin 1).val; rw [h1]; rfl

/-! ## From the tiles to the array -/

/-- What point t writes back is its tile of the reference's scaled projection. -/
theorem proj_flushed (c : Dev nD) (t : Fin cfg0.N) :
    (dat0 (F := Ideal) V c).flushed 3 t
      = ((cfg0.win 3).blk t).view.read (Elt Ideal) (Cert.ReferenceIdeal.Shape.proj (V c main_arg0) (V c main_arg3) (V c main_v10)) := by
  have hN : cfg0.N = 10 := N_0
  have ht : t.val < 10 := by have := t.isLt; omega
  obtain ⟨-, -, -, -, -, -, h0, h1⟩ := proj_index_facts t
  funext (y : S5000x256.Idx)
  obtain ⟨p, q, rfl⟩ : ∃ (p : Fin 5000) (q : Fin 256), y = ix2 p q := ⟨y 0, y 1, eq_ix2 y⟩
  have hp : p.val < 5000 := p.isLt
  let r : Fin 50000 := ⟨5000 * t.val + p.val, by omega⟩
  have hr : r.val = 5000 * t.val + p.val := rfl
  -- the kernel's side: the stored tile at (p, q)
  have hL : (dat0 (F := Ideal) V c).flushed 3 t (ix2 p q)
      = (∑ k : Fin 256, proj_X V c (ix2 r k) * proj_W V c (ix2 k q)) * proj_n V c (ix2 r (0 : Fin 1)) := by
    show (dat0 (F := Ideal) V c).after 3 t _ = _
    rw [dat0_after3]
    refine (congrArg (out0 (blk0 V c 0 t) (blk0 V c 1 t) (blk0 V c 2 t))
      (funext fun a => by match a with | ⟨0, _⟩ => rfl | ⟨1, _⟩ => rfl : _ = ix2 p q)).trans ?_
    refine (out0_apply (proj_Xtile V c t) (proj_Wtile V c t) (proj_ntile V c t) p q).trans ?_
    refine congrArg₂ (· * ·) (Finset.sum_congr rfl fun k _ => ?_) (blk0_n_apply V c t p r hr)
    exact congrArg₂ (· * ·) (blk0_x_apply V c t p k r hr) (blk0_w_apply V c t k q)
  -- the reference's side: the tile's element (p, q) is the array's element (5000·t + p, q)
  have hR : ((cfg0.win 3).blk t).view.read (Elt Ideal) (Cert.ReferenceIdeal.Shape.proj (V c main_arg0) (V c main_arg3) (V c main_v10)) (ix2 p q)
      = Cert.ReferenceIdeal.Shape.proj (V c main_arg0) (V c main_arg3) (V c main_v10) (ix2 r q) := by
    rw [View.read_apply]
    show Cert.ReferenceIdeal.Shape.proj (V c main_arg0) (V c main_arg3) (V c main_v10) _ = _
    congr 1
    funext a
    apply Fin.ext
    match a with
    | ⟨0, _⟩ => show win0_3.index t 0 * 5000 + 1 * p.val = r.val; rw [h0, hr]; omega
    | ⟨1, _⟩ => show win0_3.index t 1 * 256 + 1 * q.val = q.val; rw [h1]; omega
  exact hL.trans ((ref_proj_apply (V c main_arg0) (V c main_arg3) (V c main_v10) r q).symm.trans hR.symm)

/-- Node row r is covered by the tile of point r / 5000. -/
theorem proj_cover (i : S50000x256.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 256 := (i 1).isLt
  have htlt : (i 0).val / 5000 < cfg0.N := by rw [hN]; omega
  obtain ⟨-, -, -, -, -, -, h0, h1⟩ := proj_index_facts ⟨(i 0).val / 5000, htlt⟩
  refine ⟨⟨(i 0).val / 5000, htlt⟩, flush0_3 _, ?_⟩
  show i ∈ ((View.whole main_v15).slice (win0_3.rect ⟨(i 0).val / 5000, htlt⟩)).set
  rw [View.set_slice_whole, Rect.mem_set_unit]
  intro a
  match a with
  | ⟨0, _⟩ =>
    show win0_3.index ⟨(i 0).val / 5000, htlt⟩ 0 * 5000 ≤ (i 0).val ∧ (i 0).val < win0_3.index ⟨(i 0).val / 5000, htlt⟩ 0 * 5000 + 5000
    rw [h0]
    show (i 0).val / 5000 * 5000 ≤ (i 0).val ∧ (i 0).val < (i 0).val / 5000 * 5000 + 5000
    omega
  | ⟨1, _⟩ =>
    show win0_3.index ⟨(i 0).val / 5000, htlt⟩ 1 * 256 ≤ (i 1).val ∧ (i 1).val < win0_3.index ⟨(i 0).val / 5000, htlt⟩ 1 * 256 + 256
    rw [h1]
    omega

/-- After its ten points region 0 leaves the reference's scaled projection of the arrays it was entered with. -/
theorem proj_final (c : Dev nD) :
    (dat0 (F := Ideal) V c).arrAt 3 cfg0.N = Cert.ReferenceIdeal.Shape.proj (V c main_arg0) (V c main_arg3) (V c main_v10) :=
  (dat0 (F := Ideal) V c).arrAt_eq_of_cover 3 _ (fun t _ => proj_flushed V c t) proj_cover

end

end Cert.KernelIdeal.Hand

end
-- ==== Proof.CombValue.lean ====
/-
  Region 1 against the reference's second-layer stage, at the exact values.

  Node row r = 5000 t + p is row p of tile t. At that row and at column j the body's tile holds
      (Σ_k max(a[r,k] · nᵢ[r] + b[k], 0) · W[k,j]) · nₒ[r],
  a the aggregate, nᵢ and nₒ the in- and out-degree norm columns, b the bias row, W the second weight matrix: the
  sum over the 256 hidden columns is row p of the clipped tile times column j of W, a change of format changes
  no extended real, and a column spread over many columns reads its own row. The reference's stage over the whole
  arrays has the same entry at (r, j): its clip against a spread zero constant is the clip against the same zero.
  Every tile is the matching rows of its array, the bias row and the weight matrix are read whole, and the ten tiles
  cover the 50000 rows (row r lies in tile r / 5000). So the array the region leaves is the stage of the arrays it
  was entered with.
-/
import proofs.«137392_j61306363183369_1_alg».proof.Proof.Comb
import proofs.«137392_j61306363183369_1_alg».proof.Proof.RefShape
import proofs.«137392_j61306363183369_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## Spreading a column or a row -/

/-- A column spread over b columns reads, at (p, c), the column's entry of row p. -/
theorem column_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column spread over b columns along named axes reads, at (r, c), the column's entry of row r. -/
theorem column_spread_along_apply {α : Type} {a b : ℕ} (v : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ => rfl

/-- A vector made a one-row matrix and then spread over a rows, both along named axes, reads, at (r, c), the vector's entry c. -/
theorem row_spread_along_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (c : Fin b) :
    broadcastInDim ⟨2, ![a, b]⟩ (![0, 1] : Fin 2 → Fin 2) h2 (broadcastInDim ⟨2, ![1, b]⟩ (![1] : Fin 1 → Fin 2) h1 v) (ix2 r c) = v (ix1 c) := by
  refine (broadcastInDim_apply _ h2 _ (ix2 r c) (ix2 (0 : Fin 1) c) fun ax => ?_).trans
    (broadcastInDim_apply _ h1 v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-! ## The two products at an index -/

/-- The tile product's left operand is read at the output's row … -/
theorem tile_dot_lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- … and at the summed hidden column; -/
theorem tile_dot_lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- the right operand at the summed hidden column as its row … -/
theorem tile_dot_rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and at the output's column. -/
theorem tile_dot_rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The tile product into a zero accumulator, at (p, q): row p of the left tile times column q of the right matrix. -/
theorem tile_product_apply (l : FVec Ideal S5000x256 .bf16) (r : FVec Ideal S256x128 .bf16) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) := by
  refine (Ideal.matmul_constant_zero_apply dot_S5000x256_S256x128_S5000x128_1_0_0_1_n_n none l r (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact tile_dot_lhs_row _ _
      | ⟨1, _⟩ => exact (tile_dot_lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (tile_dot_rhs_row _ _).trans hk
      | ⟨1, _⟩ => exact tile_dot_rhs_col _ _)
  rw [el, er]

/-- The whole-array product at (r, j): row r of the left array times column j of the right matrix. -/
theorem whole_product_apply (H : FVec Ideal Cert.ReferenceIdeal.S50000x256 .f32) (W : FVec Ideal Cert.ReferenceIdeal.S256x128 .f32) (r : Fin 50000) (j : Fin 128) :
    Host.dotGeneral Cert.ReferenceIdeal.dot_S50000x256_S256x128_S50000x128_1_0_0_1_n_n none H W (ix2 r j)
      = ∑ k : Fin 256, H (ix2 r k) * W (ix2 k j) := by
  refine (Ideal.dotGeneral_apply Cert.ReferenceIdeal.dot_S50000x256_S256x128_S50000x128_1_0_0_1_n_n none .single H W (ix2 r j)).trans ?_
  rw [← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r j) ((contrEquiv1 Cert.ReferenceIdeal.dot_S50000x256_S256x128_S50000x128_1_0_0_1_n_n 256 rfl rfl).symm k) = ix2 r k :=
    funext fun a => Fin.ext (by
      match a with
      | ⟨0, _⟩ => exact Cert.ReferenceIdeal.Read.lhs_main_v47_0 _ _
      | ⟨1, _⟩ => exact (Cert.ReferenceIdeal.Read.lhs_main_v47_1 _ _).trans hk)
  have er : Cert.ReferenceIdeal.dot_S50000x256_S256x128_S50000x128_1_0_0_1_n_n.rhsIdx (ix2 r j) ((contrEquiv1 Cert.ReferenceIdeal.dot_S50000x256_S256x128_S50000x128_1_0_0_1_n_n 256 rfl rfl).symm k) = ix2 k j :=
    funext fun a => Fin.ext (by
      match a with
      | ⟨0, _⟩ => exact (Cert.ReferenceIdeal.Read.rhs_main_v47_0 _ _).trans hk
      | ⟨1, _⟩ => exact Cert.ReferenceIdeal.Read.rhs_main_v47_1 _ _)
  rw [el, er]

/-! ## A tile's entry and the stage's entry -/

/-- The clipped, biased, scaled tile at (p, k). -/
theorem clipped_apply (x : FVec Ideal S5000x256 .f32) (n : FVec Ideal S5000x1 .f32) (b : FVec Ideal S256 .f32)
    (hx : S5000x256.ShapeCasts S5000x256) (hn : S5000x1.ShapeCasts S5000x1) (hns : S5000x1.Broadcasts S5000x256)
    (hb : S256.ShapeCasts S1x256) (hbs : S1x256.Broadcasts S5000x256) (p : Fin 5000) (k : Fin 256) :
    maximumf (addf (mulf (shapeCast S5000x256 x hx) (broadcastTo S5000x256 (shapeCast S5000x1 n hn) hns))
        (broadcastTo S5000x256 (shapeCast S1x256 b hb) hbs)) (broadcast S5000x256 (Scalar.ofBits (F := Ideal) .f32 0x00000000#32)) (ix2 p k)
      = max (x (ix2 p k) * n (ix2 p (0 : Fin 1)) + b (ix1 k)) 0 := by
  refine (maximumf_apply _ _ _).trans ?_
  refine congrArg₂ max ?_ Ideal.ofBits_zero_f32
  refine (addf_apply _ _ _).trans ?_
  refine congrArg₂ (· + ·) ?_ ((broadcastTo_1b_ab_apply _ hbs p k).trans (shapeCast_a_1a_apply b hb 0 k))
  refine (mulf_apply _ _ _).trans ?_
  refine congrArg₂ (· * ·) (congrFun (shapeCast_self x hx) _) ?_
  refine (column_spread_apply _ hns p k).trans ?_
  exact congrFun (shapeCast_self n hn) _

/-- The body's tile at (p, q). -/
theorem tile_apply (x : FVec Ideal S5000x256 .f32) (n : FVec Ideal S5000x1 .f32) (b : FVec Ideal S256 .f32)
    (w : FVec Ideal S256x128 .f32) (o : FVec Ideal S5000x1 .f32) (p : Fin 5000) (q : Fin 128) :
    out1 (F := Ideal) x n b w o (ix2 p q)
      = (∑ k : Fin 256, max (x (ix2 p k) * n (ix2 p (0 : Fin 1)) + b (ix1 k)) 0 * w (ix2 k q)) * o (ix2 p (0 : Fin 1)) := by
  unfold out1 k1_pay1
  refine (mulf_apply _ _ _).trans ?_
  refine congrArg₂ (· * ·) ?_ ((column_spread_apply _ _ p q).trans (congrFun (shapeCast_self o _) _))
  refine (tile_product_apply _ _ p q).trans ?_
  refine Finset.sum_congr rfl fun k _ => ?_
  refine congrArg₂ (· * ·) ?_ (truncf_apply w _ (ix2 k q))
  exact clipped_apply x n b _ _ _ _ _ p k

/-- The stage at (r, j). -/
theorem stage_apply (a : FVec Ideal S50000x256 .f32) (ni : FVec Ideal S50000x1 .f32) (b : FVec Ideal S256 .f32)
    (W : FVec Ideal S256x128 .f32) (no : FVec Ideal S50000x1 .f32) (r : Fin 50000) (j : Fin 128) :
    Cert.ReferenceIdeal.Shape.comb (F := Ideal) a ni b W no (ix2 r j)
      = (∑ k : Fin 256, max (a (ix2 r k) * ni (ix2 r (0 : Fin 1)) + b (ix1 k)) 0 * W (ix2 k j)) * no (ix2 r (0 : Fin 1)) := by
  unfold Cert.ReferenceIdeal.Shape.comb
  refine (mulf_apply _ _ (ix2 r j)).trans ?_
  refine congrArg₂ (· * ·) ?_ (column_spread_along_apply no _ r j)
  refine (whole_product_apply _ W r j).trans ?_
  refine Finset.sum_congr rfl fun k _ => ?_
  refine congrArg (· * W (ix2 k j)) ?_
  refine (maximumf_apply _ _ _).trans ?_
  refine congrArg₂ max ?_ Ideal.ofBits_zero_f32
  refine (addf_apply _ _ _).trans ?_
  refine congrArg₂ (· + ·) ?_ (row_spread_along_apply b _ _ r k)
  refine (mulf_apply _ _ _).trans ?_
  exact congrArg (a (ix2 r k) * ·) (column_spread_along_apply ni _ r k)

/-! ## From the tiles to the array -/

/-- A tile's entry is the stage's entry, once each block is known to be its rows of the array. -/
theorem tile_eq_stage (A : FVec Ideal S50000x256 .f32) (NI : FVec Ideal S50000x1 .f32) (B : FVec Ideal S256 .f32)
    (W : FVec Ideal S256x128 .f32) (NO : FVec Ideal S50000x1 .f32)
    (x : FVec Ideal S5000x256 .f32) (n : FVec Ideal S5000x1 .f32) (b : FVec Ideal S256 .f32)
    (w : FVec Ideal S256x128 .f32) (o : FVec Ideal S5000x1 .f32) (row : Fin 5000 → Fin 50000)
    (hx : ∀ (p : Fin 5000) (k : Fin 256), x (ix2 p k) = A (ix2 (row p) k))
    (hn : ∀ p : Fin 5000, n (ix2 p (0 : Fin 1)) = NI (ix2 (row p) (0 : Fin 1)))
    (hb : ∀ k : Fin 256, b (ix1 k) = B (ix1 k))
    (hw : ∀ (k : Fin 256) (q : Fin 128), w (ix2 k q) = W (ix2 k q))
    (ho : ∀ p : Fin 5000, o (ix2 p (0 : Fin 1)) = NO (ix2 (row p) (0 : Fin 1)))
    (p : Fin 5000) (q : Fin 128) :
    out1 (F := Ideal) x n b w o (ix2 p q) = Cert.ReferenceIdeal.Shape.comb (F := Ideal) A NI B W NO (ix2 (row p) q) := by
  rw [tile_apply, stage_apply, hn, ho]
  refine congrArg (· * NO (ix2 (row p) (0 : Fin 1))) (Finset.sum_congr rfl fun k _ => ?_)
  rw [hx, hb, hw]

/-- The block index of every window of the region at grid point t: tiled windows are at (t, 0), whole ones at the origin. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of tile t is node row 5000 t + p. -/
def nodeRow (t : Fin cfg1.N) (p : Fin 5000) : Fin 50000 :=
  ⟨5000 * t.val + p.val, by have h := t.isLt; have hN : cfg1.N = 10 := N_1; have := p.isLt; omega⟩

section
variable (V : (c : Dev nD) → (b : Ref sig .tc) → Buf (Elt Ideal) ((c : Thread nD τ).loc b))

/-- The aggregate's tile is rows 5000 t … of the aggregate. -/
theorem agg_tile_apply (c : Dev nD) (t : Fin cfg1.N) (p : Fin 5000) (k : Fin 256) :
    (blk1 V c 0 t : FVec Ideal S5000x256 .f32) (ix2 p k) = (V c main_v25 : FVec Ideal S50000x256 .f32) (ix2 (nodeRow t p) k) := by
  obtain ⟨e0, e1, -⟩ := tile_index t
  unfold blk1
  rw [View.read_apply]
  show V c main_v25 _ = V c main_v25 _
  refine congrArg (V c main_v25) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 256 + 1 * k.val = k.val; rw [e1]; omega

/-- The in-degree norm column's tile is rows 5000 t … of the column. -/
theorem nin_tile_apply (c : Dev nD) (t : Fin cfg1.N) (p : Fin 5000) :
    (blk1 V c 1 t : FVec Ideal S5000x1 .f32) (ix2 p (0 : Fin 1)) = (V c main_v14 : FVec Ideal S50000x1 .f32) (ix2 (nodeRow t p) (0 : Fin 1)) := by
  obtain ⟨a0, a1, b0, b1, c0, d0, d1, e0, e1, f0, f1⟩ := tile_index t
  unfold blk1
  rw [View.read_apply]
  show V c main_v14 _ = V c main_v14 _
  refine congrArg (V c main_v14) (funext fun a => Fin.ext ?_)
  match a with
  | ⟨0, _⟩ => show win1_1.index t (0 : Fin 2) * 5000 + 1 * p.val = 5000 * t.val + p.val; omega
  | ⟨1, _⟩ => show win1_1.index t (1 : Fin 2) * 1 + 1 * 0 = 0; omega

/-- The bias row's block is the whole row. -/
theorem bias_block_apply (c : Dev nD) (t : Fin cfg1.N) (k : Fin 256) :
    (blk1 V c 2 t : FVec Ideal S256 .f32) (ix1 k) = (V c main_arg4 : FVec Ideal S256 .f32) (ix1 k) := by
  obtain ⟨a0, a1, b0, b1, c0, d0, d1, e0, e1, f0, f1⟩ := tile_index t
  unfold blk1
  rw [View.read_apply]
  show V c main_arg4 _ = V c main_arg4 _
  refine congrArg (V c main_arg4) (funext fun a => Fin.ext ?_)
  match a with
  | ⟨0, _⟩ => show win1_2.index t (0 : Fin 1) * 256 + 1 * k.val = k.val; omega

/-- The weight matrix's block is the whole matrix. -/
theorem weight_block_apply (c : Dev nD) (t : Fin cfg1.N) (k : Fin 256) (q : Fin 128) :
    (blk1 V c 3 t : FVec Ideal S256x128 .f32) (ix2 k q) = (V c main_arg5 : FVec Ideal S256x128 .f32) (ix2 k q) := by
  obtain ⟨a0, a1, b0, b1, c0, d0, d1, e0, e1, f0, f1⟩ := tile_index t
  unfold blk1
  rw [View.read_apply]
  show V c main_arg5 _ = V c main_arg5 _
  refine congrArg (V c main_arg5) (funext fun a => Fin.ext ?_)
  match a with
  | ⟨0, _⟩ => show win1_3.index t (0 : Fin 2) * 256 + 1 * k.val = k.val; omega
  | ⟨1, _⟩ => show win1_3.index t (1 : Fin 2) * 128 + 1 * q.val = q.val; omega

/-- The out-degree norm column's tile is rows 5000 t … of the column. -/
theorem nout_tile_apply (c : Dev nD) (t : Fin cfg1.N) (p : Fin 5000) :
    (blk1 V c 4 t : FVec Ideal S5000x1 .f32) (ix2 p (0 : Fin 1)) = (V c main_v10 : FVec Ideal S50000x1 .f32) (ix2 (nodeRow t p) (0 : Fin 1)) := by
  obtain ⟨a0, a1, b0, b1, c0, d0, d1, e0, e1, f0, f1⟩ := tile_index t
  unfold blk1
  rw [View.read_apply]
  show V c main_v10 _ = V c main_v10 _
  refine congrArg (V c main_v10) (funext fun a => Fin.ext ?_)
  match a with
  | ⟨0, _⟩ => show win1_4.index t (0 : Fin 2) * 5000 + 1 * p.val = 5000 * t.val + p.val; omega
  | ⟨1, _⟩ => show win1_4.index t (1 : Fin 2) * 1 + 1 * 0 = 0; omega

/-- What grid point t writes back is tile t of the stage of the arrays the region was entered with. -/
theorem flushed_tile (c : Dev nD) (t : Fin cfg1.N) :
    (dat1 (F := Ideal) V c).flushed 5 t
      = ((cfg1.win 5).blk t).view.read (Elt Ideal) (Cert.ReferenceIdeal.Shape.comb (F := Ideal) (V c main_v25) (V c main_v14) (V c main_arg4) (V c main_arg5) (V c main_v10)) := by
  show (cfg1.win 5).cut (cfg1.grid.coords t) ((dat1 (F := Ideal) V c).after 5 t) = _
  rw [dat1_after5]
  funext y
  rw [View.read_apply]
  have hp : (y 0).val < 5000 := (y 0).isLt
  have hq : (y 1).val < 128 := (y 1).isLt
  obtain ⟨a0, a1, b0, b1, c0, d0, d1, e0, e1, f0, f1⟩ := tile_index t
  have eL : ((cfg1.win 5).xinj (cfg1.grid.coords t) y : S5000x128.Idx) = ix2 (⟨(y 0).val, hp⟩ : Fin 5000) (⟨(y 1).val, hq⟩ : Fin 128) :=
    funext fun a => Fin.ext (by
      match a with
      | ⟨0, _⟩ => rfl
      | ⟨1, _⟩ => rfl)
  have eR : (((cfg1.win 5).blk t).view.emb y : S50000x128.Idx) = ix2 (nodeRow t ⟨(y 0).val, hp⟩) (⟨(y 1).val, hq⟩ : Fin 128) :=
    funext fun a => Fin.ext (by
      match a with
      | ⟨0, _⟩ => show win1_5.index t (0 : Fin 2) * 5000 + 1 * (y 0).val = 5000 * t.val + (y 0).val; omega
      | ⟨1, _⟩ => show win1_5.index t (1 : Fin 2) * 128 + 1 * (y 1).val = (y 1).val; omega)
  show out1 (F := Ideal) (blk1 V c 0 t) (blk1 V c 1 t) (blk1 V c 2 t) (blk1 V c 3 t) (blk1 V c 4 t) ((cfg1.win 5).xinj (cfg1.grid.coords t) y)
    = Cert.ReferenceIdeal.Shape.comb (F := Ideal) (V c main_v25) (V c main_v14) (V c main_arg4) (V c main_arg5) (V c main_v10) (((cfg1.win 5).blk t).view.emb y)
  rw [eL, eR]
  exact tile_eq_stage (V c main_v25) (V c main_v14) (V c main_arg4) (V c main_arg5) (V c main_v10)
    (blk1 V c 0 t) (blk1 V c 1 t) (blk1 V c 2 t) (blk1 V c 3 t) (blk1 V c 4 t) (nodeRow t)
    (agg_tile_apply V c t) (nin_tile_apply V c t) (bias_block_apply V c t) (weight_block_apply V c t) (nout_tile_apply V c t)
    ⟨(y 0).val, hp⟩ ⟨(y 1).val, hq⟩

/-- A node row and column lie in tile t iff the row is one of its 5000 rows. -/
theorem mem_tile (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Node row r lies in tile r / 5000, which is written back. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨a0, a1, b0, b1, c0, d0, d1, e0, e1, f0, f1⟩ := tile_index t
  refine ⟨t, flush1_5 t, ?_⟩
  rw [mem_tile]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array the region leaves is the stage of the arrays it was entered with. -/
theorem comb_final (c : Dev nD) :
    (dat1 (F := Ideal) V c).arrAt 5 cfg1.N = Cert.ReferenceIdeal.Shape.comb (F := Ideal) (V c main_v25) (V c main_v14) (V c main_arg4) (V c main_arg5) (V c main_v10) :=
  (dat1 (F := Ideal) V c).arrAt_eq_of_cover 5 _ (fun t _ => flushed_tile V c t) covered

end

end Cert.KernelIdeal.Hand

end
-- ==== Proof.PoolValue.lean ====
/-
  The mean over all node rows. Region 2 walks the 50000 node rows in ten tiles of 5000 rows. Node row r adds to
  column j the aggregate's entry a[r, j] scaled by the row's in-degree norm ni[r, 0], plus the bias b[j]. A one-row
  accumulator starts at the zero row and takes one tile's column sums at every grid point, so after the last
  point it holds, in column j, zero plus the ten tiles' sums: the sum over all 50000 rows, taken tile by tile
  (addition on the extended reals is commutative and associative, and nothing here needs a term to be finite).
  The output row is the accumulator times the reciprocal of the row count; it is stored and written back at the
  last point only, and the output window's one block is the whole one-row array. The reference adds the same 50000
  terms to zero and divides by the row count, and a quotient by a nonzero real is the product with its reciprocal
  on every extended real. So the array region 2 leaves is the reference's mean, as a one-row matrix.
-/
import proofs.«137392_j61306363183369_1_alg».proof.Proof.Pool
import proofs.«137392_j61306363183369_1_alg».proof.Proof.RefShape
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

namespace Mean

/-! ## Node rows, tiles, and a sum over the rows taken tile by tile -/

/-- What node row `r` adds to column `j`: the aggregate's entry scaled by the row's norm, plus the column's bias. -/
def rowTerm (a : FVec Ideal S50000x128 .f32) (ni : FVec Ideal S50000x1 .f32) (b : FVec Ideal S128 .f32)
    (r : Fin 50000) (j : Fin 128) : EReal :=
  a (ix2 r j) * ni (ix2 r (0 : Fin 1)) + b (ix1 j)

/-- Row `p` of tile `t` is node row `5000·t + p`. -/
def tileRow (t : Fin 10) (p : Fin 5000) : Fin 50000 :=
  ⟨5000 * t.val + p.val, by have := t.isLt; have := p.isLt; omega⟩

/-- The node rows are the rows of the ten tiles, each met once: row `r` is row `r % 5000` of tile `r / 5000`. -/
def tilesEquivRows : Fin 10 × Fin 5000 ≃ Fin 50000 where
  toFun x := tileRow x.1 x.2
  invFun r := (⟨r.val / 5000, by have := r.isLt; omega⟩, ⟨r.val % 5000, by omega⟩)
  left_inv x := by
    obtain ⟨t, p⟩ := x
    have := t.isLt
    have := p.isLt
    refine Prod.ext (Fin.ext ?_) (Fin.ext ?_)
    · show (5000 * t.val + p.val) / 5000 = t.val
      omega
    · show (5000 * t.val + p.val) % 5000 = p.val
      omega
  right_inv r := Fin.ext (by
    show 5000 * (r.val / 5000) + r.val % 5000 = r.val
    omega)

/-- A sum over all node rows is the sum over the tiles of the sums over each tile's rows. -/
theorem sum_rows_by_tiles {M : Type*} [AddCommMonoid M] (g : Fin 50000 → M) :
    ∑ r : Fin 50000, g r = ∑ t : Fin 10, ∑ p : Fin 5000, g (tileRow t p) :=
  (Equiv.sum_comp tilesEquivRows g).symm.trans (Fintype.sum_prod_type' fun t p => g (tileRow t p))

/-- Tile `t`'s column sum at column `j`. -/
def tileSum (a : FVec Ideal S50000x128 .f32) (ni : FVec Ideal S50000x1 .f32) (b : FVec Ideal S128 .f32)
    (t : Fin 10) (j : Fin 128) : EReal :=
  ∑ p : Fin 5000, rowTerm a ni b (tileRow t p) j

/-! ## The reference's mean at a column -/

/-- The reference's divisor, the word of `50000.0`, denotes the real `50000`. -/
theorem rowCount_word : Ideal.ofBits .f32 0x47435000#32 = ((50000 : ℝ) : EReal) := by
  simp [Ideal.ofBits, Ideal.ieee, -EReal.coe_mul] <;> norm_num

/-- The divisor splat over the columns reads the row count at every column. -/
theorem rowCount_apply (h : S_.BroadcastsInDim S128 (![] : Fin 0 → Fin S128.rank)) (j : Fin 128) :
    broadcastInDim S128 ![] h (constant (F := Ideal) S_ .f32 0x47435000#32) (ix1 j) = ((50000 : ℝ) : EReal) :=
  (broadcastInDim_apply _ h _ (ix1 j) ix0 fun ax => ax.elim0).trans rowCount_word

/-- The host's quotient at an index divides the two entries there. -/
theorem hostQuotient_apply {s : Shape} {φ : FTy} (x y : FVec Ideal s φ) (i : s.Idx) :
    Host.divf x y i = Ideal.div (x i) (y i) := rfl

/-- The host's sum down the 50000 rows, at column `j`: the initial value plus the column's entries. -/
theorem columnSum_apply (y : FVec Ideal S50000x128 .f32) (z : FVec Ideal S_ .f32)
    (h : S50000x128.ReducesTo [0] S128) (hu : 0 < S_.numel) (j : Fin 128) :
    Host.reduceAdd (F := Ideal) y z h hu (ix1 j) = z (Shape.Idx.first hu) + ∑ r : Fin 50000, y (ix2 r j) := by
  show Ideal.hostReduceAdd h y (z (Shape.Idx.first hu)) (ix1 j) = _
  refine (Ideal.hostReduceAdd_single h (by decide) y _ (ix1 j)).trans ?_
  refine congrArg (fun w : EReal => z (Shape.Idx.first hu) + w)
    (Finset.sum_congr rfl fun r _ => congrArg y (funext fun ax => Fin.ext ?_))
  match ax with
  | ⟨0, _⟩ => rfl
  | ⟨1, _⟩ => rfl

/-- One entry of the array the reference sums: at row `r` and column `j` it is that row's term. The norm column is
    spread along the columns and the bias row along the rows. -/
theorem refRow_apply (a : FVec Ideal S50000x128 .f32) (ni : FVec Ideal S50000x1 .f32) (b : FVec Ideal S128 .f32)
    (h1 : S50000x1.BroadcastsInDim S50000x128 (![0, 1] : Fin 2 → Fin S50000x128.rank))
    (h2 : S1x128.BroadcastsInDim S50000x128 (![0, 1] : Fin 2 → Fin S50000x128.rank))
    (h3 : S128.BroadcastsInDim S1x128 (![1] : Fin 1 → Fin S1x128.rank)) (r : Fin 50000) (j : Fin 128) :
    addf (mulf a (broadcastInDim S50000x128 ![0, 1] h1 ni))
        (broadcastInDim S50000x128 ![0, 1] h2 (broadcastInDim S1x128 ![1] h3 b)) (ix2 r j)
      = rowTerm a ni b r j := by
  unfold rowTerm
  rw [addf_apply, mulf_apply]
  refine congrArg₂ (fun v w : EReal => v + w) (congrArg (fun w : EReal => a (ix2 r j) * w) ?_) ?_
  · refine broadcastInDim_apply _ h1 ni (ix2 r j) (ix2 r (0 : Fin 1)) fun ax => ?_
    match ax with
    | ⟨0, _⟩ =>
      show r.val = if (50000 : ℕ) = 1 then 0 else r.val
      rw [if_neg (by decide)]
    | ⟨1, _⟩ =>
      show (0 : ℕ) = if (1 : ℕ) = 1 then 0 else j.val
      rw [if_pos rfl]
  · refine (broadcastInDim_apply _ h2 _ (ix2 r j) (ix2 (0 : Fin 1) j) fun ax => ?_).trans
      (broadcastInDim_apply _ h3 b (ix2 (0 : Fin 1) j) (ix1 j) fun ax => ?_)
    · match ax with
      | ⟨0, _⟩ =>
        show (0 : ℕ) = if (1 : ℕ) = 1 then 0 else r.val
        rw [if_pos rfl]
      | ⟨1, _⟩ =>
        show j.val = if (128 : ℕ) = 1 then 0 else j.val
        rw [if_neg (by decide)]
    · match ax with
      | ⟨0, _⟩ =>
        show j.val = if (128 : ℕ) = 1 then 0 else j.val
        rw [if_neg (by decide)]

/-- The reference's mean at column `j`: zero plus all the rows' terms, times the reciprocal of the row count (the
    quotient by the real 50000 is that product on every extended real). -/
theorem refMean_apply (a : FVec Ideal S50000x128 .f32) (ni : FVec Ideal S50000x1 .f32) (b : FVec Ideal S128 .f32)
    (j : Fin 128) :
    Cert.ReferenceIdeal.Shape.pool (F := Ideal) a ni b (ix1 j)
      = (0 + ∑ r : Fin 50000, rowTerm a ni b r j) * ((1 / 50000 : ℝ) : EReal) := by
  unfold Cert.ReferenceIdeal.Shape.pool
  refine (hostQuotient_apply _ _ (ix1 j)).trans ?_
  refine (congrArg₂ Ideal.div (columnSum_apply _ _ _ _ j) (rowCount_apply _ j)).trans ?_
  rw [Ideal.div_coe (by norm_num : (50000 : ℝ) ≠ 0), constant_apply, Ideal.ofBits_zero_f32]
  exact congrArg (fun w : EReal => (0 + w) * ((1 / 50000 : ℝ) : EReal))
    (Finset.sum_congr rfl fun r _ => refRow_apply a ni b _ _ _ r j)

/-! ## The body's three values at an entry -/

/-- The row the first point stores into the accumulator is zero everywhere. -/
theorem zeroRow_apply (u : Fin 1) (j : Fin 128) : (k2_pay1 (F := Ideal)) (ix2 u j) = 0 := by
  show Ideal.ofBits .f32 0x00000000#32 = 0
  exact Ideal.ofBits_zero_f32

/-- The kernel's named constant is the reciprocal of the row count. -/
theorem recipRowCount :
    Named.named (F := Ideal) κ "inv_50000" (φ := .f32) 0x37A7C5AC#32 = ((1 / 50000 : ℝ) : EReal) :=
  IdealRules.named_const.ideal_named_scalar _ _ _ _ rfl

/-- The row stored into the output block is the accumulator row times the reciprocal of the row count. -/
theorem scaleRow_apply (x : FVec Ideal S1x128 .f32) (u : Fin 1) (j : Fin 128) :
    k2_pay3 x (ix2 u j) = x (ix2 u j) * ((1 / 50000 : ℝ) : EReal) := by
  show x (ix2 u j) * Named.named (F := Ideal) κ "inv_50000" (φ := .f32) 0x37A7C5AC#32 = _
  rw [recipRowCount]

/-- A column of norms spread along the 128 columns reads, at `(p, j)`, row `p`'s norm. -/
theorem normColumn_apply (n : FVec Ideal S5000x1 .f32) (h : S5000x1.Broadcasts S5000x128) (p : Fin 5000) (j : Fin 128) :
    broadcastTo S5000x128 n h (ix2 p j) = n (ix2 p (0 : Fin 1)) := by
  refine broadcastTo_apply n h (ix2 p j) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else j.val
    rw [if_pos rfl]

/-- The tile's sum down its 5000 rows, at column `j`. -/
theorem tileColumnSum_apply (src : FVec Ideal S5000x128 .f32) (h : S5000x128.Reduces [0] S128) (j : Fin 128) :
    multiReduction .add [0] S128 src 0x00000000#32 h (.inl rfl) rfl (ix1 j) = ∑ p : Fin 5000, src (ix2 p j) := by
  refine (Ideal.multiReduction_add_single src 0x00000000#32 h (.inl rfl) rfl (ix1 j)).trans ?_
  refine Finset.sum_congr rfl fun p _ => congrArg src (funext fun ax => Fin.ext ?_)
  match ax with
  | ⟨0, _⟩ => rfl
  | ⟨1, _⟩ => rfl

/-- What a grid point leaves in the accumulator, at column `j`: what it found there plus the tile's column sum of
    (aggregate entry times the row's norm, plus the bias). -/
theorem tileStep_apply (x : FVec Ideal S5000x128 .f32) (n : FVec Ideal S5000x1 .f32) (b : FVec Ideal S128 .f32)
    (s : FVec Ideal S1x128 .f32) (u : Fin 1) (j : Fin 128) :
    k2_pay2 x n b s (ix2 u j)
      = s (ix2 u j) + ∑ p : Fin 5000, (x (ix2 p j) * n (ix2 p (0 : Fin 1)) + b (ix1 j)) := by
  unfold k2_pay2
  simp only [shapeCast_self]
  rw [addf_apply]
  refine congrArg (fun w : EReal => s (ix2 u j) + w) ?_
  refine (shapeCast_a_1a_apply _ _ u j).trans ?_
  refine (tileColumnSum_apply _ _ j).trans (Finset.sum_congr rfl fun (p : Fin 5000) _ => ?_)
  rw [addf_apply, mulf_apply]
  refine congrArg₂ (fun v w : EReal => v + w) (congrArg (fun w : EReal => x (ix2 p j) * w) ?_) ?_
  · exact normColumn_apply n _ p j
  · exact (broadcastTo_1b_ab_apply _ _ p j).trans (shapeCast_a_1a_apply b _ (0 : Fin 1) j)

/-! ## The three input blocks at a grid point, read off the arrays -/

/-- Where each window's block lies at grid point `t`: the aggregate's and the norm column's at row block `t`, the bias
    and the output row at their one block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

section
variable {F : FTy → Type} [FloatOps F] [Named F]
variable (V : (c : Dev nD) → (b : Ref sig .tc) → Buf (Elt F) ((c : Thread nD τ).loc b))

/-- The aggregate's tile at point `t` holds node rows `5000·t` onward: its entry `(p, j)` is the array's at row
    `5000·t + p`. -/
theorem aggTile_apply (c : Dev nD) (t : Fin cfg2.N) (p : Fin 5000) (j : Fin 128) (r : Fin 50000)
    (hr : r.val = 5000 * t.val + p.val) :
    (blk2 V c 0 t : Vec F S5000x128 .f32) (ix2 p j) = (V c main_v36 : Vec F S50000x128 .f32) (ix2 r j) := by
  obtain ⟨h0, h1, -⟩ := block_index t
  unfold blk2
  rw [View.read_apply]
  show V c main_v36 _ = V c main_v36 _
  refine congrArg (V c main_v36) (funext fun ax => Fin.ext ?_)
  match ax with
  | ⟨0, _⟩ =>
    show win2_0.index t (0 : Fin 2) * 5000 + 1 * p.val = r.val
    omega
  | ⟨1, _⟩ =>
    show win2_0.index t (1 : Fin 2) * 128 + 1 * j.val = j.val
    omega

/-- The norm column's tile at point `t`: its entry `p` is the column's at row `5000·t + p`. -/
theorem normTile_apply (c : Dev nD) (t : Fin cfg2.N) (p : Fin 5000) (r : Fin 50000)
    (hr : r.val = 5000 * t.val + p.val) :
    (blk2 V c 1 t : Vec F S5000x1 .f32) (ix2 p (0 : Fin 1))
      = (V c main_v14 : Vec F S50000x1 .f32) (ix2 r (0 : Fin 1)) := by
  obtain ⟨-, -, h0, h1, -⟩ := block_index t
  unfold blk2
  rw [View.read_apply]
  show V c main_v14 _ = V c main_v14 _
  refine congrArg (V c main_v14) (funext fun ax => Fin.ext ?_)
  match ax with
  | ⟨0, _⟩ =>
    show win2_1.index t (0 : Fin 2) * 5000 + 1 * p.val = r.val
    omega
  | ⟨1, _⟩ =>
    show win2_1.index t (1 : Fin 2) * 1 + 1 * 0 = 0
    omega

/-- The bias block at every point is the whole bias vector. -/
theorem biasBlock_apply (c : Dev nD) (t : Fin cfg2.N) (j : Fin 128) :
    (blk2 V c 2 t : Vec F S128 .f32) (ix1 j) = (V c main_arg6 : Vec F S128 .f32) (ix1 j) := by
  obtain ⟨-, -, -, -, h0, -⟩ := block_index t
  unfold blk2
  rw [View.read_apply]
  show V c main_arg6 _ = V c main_arg6 _
  refine congrArg (V c main_arg6) (funext fun ax => Fin.ext ?_)
  match ax with
  | ⟨0, _⟩ =>
    show win2_2.index t (0 : Fin 1) * 128 + 1 * j.val = j.val
    omega

end

/-! ## The accumulator along the grid, and the row written back -/

section
variable (V : (c : Dev nD) → (b : Ref sig .tc) → Buf (Elt Ideal) ((c : Thread nD τ).loc b))

/-- At grid point `t` the body adds tile `t`'s column sums to the accumulator row. -/
theorem point_apply (c : Dev nD) (t : Fin cfg2.N) (t' : Fin 10) (ht : t'.val = t.val) (s : FVec Ideal S1x128 .f32)
    (u : Fin 1) (j : Fin 128) :
    k2_pay2 (blk2 V c 0 t) (blk2 V c 1 t) (blk2 V c 2 t) s (ix2 u j)
      = s (ix2 u j) + tileSum (V c main_v36) (V c main_v14) (V c main_arg6) t' j := by
  refine (tileStep_apply (blk2 V c 0 t) (blk2 V c 1 t) (blk2 V c 2 t) s u j).trans ?_
  unfold tileSum rowTerm
  refine congrArg (fun w : EReal => s (ix2 u j) + w) (Finset.sum_congr rfl fun (p : Fin 5000) _ => ?_)
  have hr : (tileRow t' p).val = 5000 * t.val + p.val := by
    show 5000 * t'.val + p.val = 5000 * t.val + p.val
    omega
  refine congrArg₂ (fun v w : EReal => v + w) (congrArg₂ (fun v w : EReal => v * w) ?_ ?_) ?_
  · exact aggTile_apply V c t p j (tileRow t' p) hr
  · exact normTile_apply V c t p (tileRow t' p) hr
  · exact biasBlock_apply V c t j

/-- After grid point `n` the accumulator holds, at column `j`, zero plus the column sums of tiles `0` to `n`. -/
theorem acc_apply (c : Dev nD) (u : Fin 1) (j : Fin 128) : ∀ (n : ℕ) (h : n < cfg2.N) (h' : n + 1 ≤ 10),
    acc2 V c n h (ix2 u j)
      = 0 + ∑ t : Fin (n + 1), tileSum (V c main_v36) (V c main_v14) (V c main_arg6) (Fin.castLE h' t) j
  | 0, h, h' => by
    rw [acc2]
    refine (point_apply V c ⟨0, h⟩ (Fin.castLE h' 0) rfl _ u j).trans ?_
    rw [zeroRow_apply]
    exact congrArg (fun w : EReal => 0 + w) (Fin.sum_univ_one fun t : Fin (0 + 1) =>
      tileSum (V c main_v36) (V c main_v14) (V c main_arg6) (Fin.castLE h' t) j).symm
  | n + 1, h, h' => by
    rw [acc2]
    refine (point_apply V c ⟨n + 1, h⟩ (Fin.castLE h' (Fin.last (n + 1))) rfl _ u j).trans ?_
    rw [acc_apply c u j n (Nat.lt_of_succ_lt h) (Nat.le_of_succ_le h'), add_assoc]
    exact congrArg (fun w : EReal => 0 + w) (Fin.sum_univ_castSucc fun t : Fin (n + 1 + 1) =>
      tileSum (V c main_v36) (V c main_v14) (V c main_arg6) (Fin.castLE h' t) j).symm

/-- After the last grid point the accumulator holds, at column `j`, zero plus the terms of all 50000 node rows. -/
theorem acc_last (c : Dev nD) (t : Fin cfg2.N) (h9 : t.val = 9) (u : Fin 1) (j : Fin 128) :
    acc2 V c t.val t.isLt (ix2 u j)
      = 0 + ∑ r : Fin 50000, rowTerm (V c main_v36) (V c main_v14) (V c main_arg6) r j := by
  obtain ⟨n, hn⟩ := t
  obtain rfl : n = 9 := h9
  refine (acc_apply V c u j 9 hn (by omega)).trans (congrArg (fun w : EReal => 0 + w) ?_)
  exact (sum_rows_by_tiles fun r => rowTerm (V c main_v36) (V c main_v14) (V c main_arg6) r j).symm

/-- The reference's mean over all node rows, laid out as the one-row matrix region 2 writes. -/
abbrev meanRow (c : Dev nD) : Buf (Elt Ideal) ((c : Thread nD τ).loc main_v37) :=
  shapeCast S1x128 (Cert.ReferenceIdeal.Shape.pool (F := Ideal) (V c main_v36) (V c main_v14) (V c main_arg6))
    shapeCasts_S128_S1x128

/-- What the last point stores into the output block is the reference's mean row. -/
theorem out_last (c : Dev nD) (t : Fin cfg2.N) (h9 : t.val = 9) : out2 V c t = meanRow V c := by
  funext i
  obtain ⟨u, j, rfl⟩ : ∃ (u : Fin 1) (j : Fin 128), i = ix2 u j := ⟨i 0, i 1, eq_ix2 i⟩
  unfold out2
  refine (scaleRow_apply _ u j).trans ?_
  rw [acc_last V c t h9 u j]
  exact ((shapeCast_a_1a_apply _ shapeCasts_S128_S1x128 u j).trans
    (refMean_apply (V c main_v36) (V c main_v14) (V c main_arg6) j)).symm

/-- The one write-back, at the last point, writes the mean row: the output window's block lies at block index
    (0, 0) and is the whole one-row array. -/
theorem flushed_mean (c : Dev nD) (t : Fin cfg2.N) (hf : (cfg2.win 3).flush t = true) :
    (dat2 V c).flushed 3 t = ((cfg2.win 3).blk t).view.read (Elt Ideal) (meanRow V c) := by
  have hN : cfg2.N = 10 := N_2
  have h9 : t.val = 9 := by
    have := (flush2_3 t).mp hf
    have := t.isLt
    omega
  obtain ⟨-, -, -, -, -, h0, h1⟩ := block_index t
  show (cfg2.win 3).cut (grid2.coords t) ((dat2 V c).after 3 t) = _
  rw [dat2_after3, out_last V c t h9]
  have hz : (fun a => win2_3.index t a * main_v37.ty.shape.size a) = fun _ => 0 := funext fun a => by
    match a with
    | ⟨0, _⟩ =>
      show win2_3.index t (0 : Fin 2) * 1 = 0
      omega
    | ⟨1, _⟩ =>
      show win2_3.index t (1 : Fin 2) * 128 = 0
      omega
  exact (Memref.read_access_unit_zero (Elt Ideal) main_v37 hz (fun a => by rw [congrFun hz a]; simp) (meanRow V c)).symm

/-- Every entry of the one-row array lies in the output window's block, at whatever point. -/
theorem row_in_block (c : Dev nD) (t : Fin cfg2.N)
    (i : ((cfg2.win 3).arr.view.loc (c.tc : Thread nD τ)).2.ty.Idx) : i ∈ ((cfg2.win 3).blk t).view.set := by
  obtain ⟨-, -, -, -, -, h0, h1⟩ := block_index t
  show i ∈ ((View.whole main_v37).slice (win2_3.rect t)).set
  rw [View.set_slice_whole, Rect.mem_set_unit]
  intro a
  match a with
  | ⟨0, _⟩ =>
    have hi : (i 0 : ℕ) < 1 := (i 0).isLt
    show win2_3.index t (0 : Fin 2) * 1 ≤ (i 0 : ℕ) ∧ (i 0 : ℕ) < win2_3.index t (0 : Fin 2) * 1 + 1
    omega
  | ⟨1, _⟩ =>
    have hi : (i 1 : ℕ) < 128 := (i 1).isLt
    show win2_3.index t (1 : Fin 2) * 128 ≤ (i 1 : ℕ) ∧ (i 1 : ℕ) < win2_3.index t (1 : Fin 2) * 128 + 128
    omega

end

end Mean

/-- At the extended reals, the one-row array region 2 leaves is the reference's mean over all node rows, as a
    one-row matrix: the last point's block covers the array and holds the mean row. -/
theorem pool_final (V : (c : Dev nD) → (b : Ref sig .tc) → Buf (Elt Ideal) ((c : Thread nD τ).loc b)) (c : Dev nD) :
    (dat2 (F := Ideal) V c).arrAt 3 cfg2.N
      = shapeCast S1x128 (Cert.ReferenceIdeal.Shape.pool (F := Ideal) (V c main_v36) (V c main_v14) (V c main_arg6))
          shapeCasts_S128_S1x128 :=
  (dat2 V c).arrAt_eq_of_cover 3 (Mean.meanRow V c) (Mean.flushed_mean V c) fun i =>
    ⟨t2_9, (flush2_3 t2_9).mpr rfl, Mean.row_in_block c t2_9 i⟩

end Cert.KernelIdeal.Hand

end
-- ==== Proof.Bridge.lean ====
/-
  The kernel's result is the reference's. Each region's output array is the reference's stage of the arrays
  the region was entered with; those are argument arrays, degree-norm columns, or the edge aggregation of the
  region before. So the result buffer holds the composition of the reference's stages over the arguments,
  which is the reference's own result term; the closing reshape undoes the one-row layout.
-/
import proofs.«137392_j61306363183369_1_alg».proof.Proof.Stages
import proofs.«137392_j61306363183369_1_alg».proof.Proof.ProjValue
import proofs.«137392_j61306363183369_1_alg».proof.Proof.CombValue
import proofs.«137392_j61306363183369_1_alg».proof.Proof.PoolValue

set_option maxRecDepth 16384

noncomputable section

/-! ## At the ideal instance: the composition -/

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Shape (nrm col wrap proj agg256 comb agg128 pool)

variable (m : (ℓ : Loc nD τ sig) → Buf (Elt Ideal) ℓ)

/-- What region 0 leaves: the first layer's scaled projection of the arguments. -/
theorem o15_eq (c : Dev nD) :
    o15 m c = proj (m ((c.tc : Thread nD τ).loc main_arg0)) (m ((c.tc : Thread nD τ).loc main_arg3)) (col (nrm (m ((c.tc : Thread nD τ).loc main_arg1)))) := by
  unfold o15
  rw [proj_final (ent0 m) c]
  show proj (StableHlo.after hostOps0 (V0 m c) (Proc.devRef .tc main_arg0)) (StableHlo.after hostOps0 (V0 m c) (Proc.devRef .tc main_arg3))
      (StableHlo.after hostOps0 (V0 m c) (Proc.devRef .tc main_v10)) = _
  rw [ent0_of m c main_arg0 (by decide), ent0_of m c main_arg3 (by decide), ent0_v10]

/-- What region 1 leaves: the second layer's stage of the aggregated first layer. -/
theorem o26_eq (c : Dev nD) :
    o26 m c = comb (agg256 (o15 m c) (wrap (m ((c.tc : Thread nD τ).loc main_arg1))) (m ((c.tc : Thread nD τ).loc main_arg2))) (col (nrm (m ((c.tc : Thread nD τ).loc main_arg2))))
        (m ((c.tc : Thread nD τ).loc main_arg4)) (m ((c.tc : Thread nD τ).loc main_arg5)) (col (nrm (m ((c.tc : Thread nD τ).loc main_arg1)))) := by
  unfold o26
  rw [comb_final (ent1 m) c]
  show comb (StableHlo.after hostOps1 (X2 m c) (Proc.devRef .tc main_v25)) (StableHlo.after hostOps1 (X2 m c) (Proc.devRef .tc main_v14))
      (StableHlo.after hostOps1 (X2 m c) (Proc.devRef .tc main_arg4)) (StableHlo.after hostOps1 (X2 m c) (Proc.devRef .tc main_arg5))
      (StableHlo.after hostOps1 (X2 m c) (Proc.devRef .tc main_v10)) = _
  rw [ent1_v25, ent1_of m c main_v14 (by decide), ent1_of m c main_arg4 (by decide), ent1_of m c main_arg5 (by decide),
    ent1_of m c main_v10 (by decide), X2_of_ne m c main_v14 (by decide), X2_of_ne m c main_v10 (by decide),
    X2_arg m c main_arg4 (by decide) (by decide), X2_arg m c main_arg5 (by decide) (by decide), ent0_v14, ent0_v10]

/-- What region 2 leaves: the mean of the aggregated second layer, as one row. -/
theorem o37_eq (c : Dev nD) :
    o37 m c = shapeCast S1x128 (pool (agg128 (o26 m c) (wrap (m ((c.tc : Thread nD τ).loc main_arg1))) (m ((c.tc : Thread nD τ).loc main_arg2))) (col (nrm (m ((c.tc : Thread nD τ).loc main_arg2)))) (m ((c.tc : Thread nD τ).loc main_arg6)))
        shapeCasts_S128_S1x128 := by
  unfold o37
  rw [pool_final (ent2 m) c]
  show shapeCast S1x128 (pool (StableHlo.after hostOps2 (X4 m c) (Proc.devRef .tc main_v36)) (StableHlo.after hostOps2 (X4 m c) (Proc.devRef .tc main_v14))
      (StableHlo.after hostOps2 (X4 m c) (Proc.devRef .tc main_arg6))) shapeCasts_S128_S1x128 = _
  rw [ent2_v36, ent2_of m c main_v14 (by decide), ent2_of m c main_arg6 (by decide),
    X4_of_ne m c main_v14 (by decide), X4_of_ne m c main_arg6 (by decide),
    ent1_of m c main_v14 (by decide), ent1_of m c main_arg6 (by decide),
    X2_of_ne m c main_v14 (by decide), X2_arg m c main_arg6 (by decide) (by decide), ent0_v14]

/-- The kernel's result buffer holds the reference's result term of the same arguments. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = (m ((c.tc : Thread nD τ).loc main_arg0)))
    (h1 : m' ((c.tc : Thread Cert.ReferenceIdeal.nD Cert.ReferenceIdeal.τ).loc Cert.ReferenceIdeal.main_arg1) = (m ((c.tc : Thread nD τ).loc main_arg1)))
    (h2 : m' ((c.tc : Thread Cert.ReferenceIdeal.nD Cert.ReferenceIdeal.τ).loc Cert.ReferenceIdeal.main_arg2) = (m ((c.tc : Thread nD τ).loc main_arg2)))
    (h3 : m' ((c.tc : Thread Cert.ReferenceIdeal.nD Cert.ReferenceIdeal.τ).loc Cert.ReferenceIdeal.main_arg3) = (m ((c.tc : Thread nD τ).loc main_arg3)))
    (h4 : m' ((c.tc : Thread Cert.ReferenceIdeal.nD Cert.ReferenceIdeal.τ).loc Cert.ReferenceIdeal.main_arg4) = (m ((c.tc : Thread nD τ).loc main_arg4)))
    (h5 : m' ((c.tc : Thread Cert.ReferenceIdeal.nD Cert.ReferenceIdeal.τ).loc Cert.ReferenceIdeal.main_arg5) = (m ((c.tc : Thread nD τ).loc main_arg5)))
    (h6 : m' ((c.tc : Thread Cert.ReferenceIdeal.nD Cert.ReferenceIdeal.τ).loc Cert.ReferenceIdeal.main_arg6) = (m ((c.tc : Thread nD τ).loc main_arg6))) :
    Cert.ReferenceIdeal.Value.res_main_v69 m' c = result m c := by
  rw [Cert.ReferenceIdeal.Shape.res_eq, h0, h1, h2, h3, h4, h5, h6, result_reshape, o37_eq, o26_eq, o15_eq]
  exact (shapeCast_shapeCast _ _ _).symm

end Cert.KernelIdeal.Hand

end
-- ==== Proof.lean ====
/-
  The certificate of a two-layer graph convolution with mean pooling: three pipelined dense stages on the
  TensorCore (a scaled projection; scale, bias, clip and a second scaled projection; scale, bias and the mean
  over all node rows kept in a one-row accumulator) with the edge gather and scatter-add between them on
  the host, against the same network written with whole-array operations.
  The three frames: the two kernel programs run to the end leaving their arguments as launched (the run of
  the seven items of @main, each region's body meeting its pipeline's obligation), the reference by its run.
  The idealization names one constant, the reciprocal of the node count. At the ideal instance the two
  programs end with the same result: tile by tile the kernel's regions compute the reference's stages, the
  mean's sum over ten tiles of 5000 rows is the sum over 50000 rows, and the product with 1/50000 is the
  quotient by 50000 on every extended real.
-/
import proofs.«137392_j61306363183369_1_alg».proof.Defs
import proofs.«137392_j61306363183369_1_alg».proof.Proof.Gen.Kernel
import proofs.«137392_j61306363183369_1_alg».proof.Proof.Gen.KernelIdeal
import proofs.«137392_j61306363183369_1_alg».proof.Proof.Gen.ReferenceIdeal
import proofs.«137392_j61306363183369_1_alg».proof.Proof.Gen.Pre_finite_inputs
import proofs.«137392_j61306363183369_1_alg».proof.Proof.Gen.ReferenceIdeal.Run
import proofs.«137392_j61306363183369_1_alg».proof.Proof.Whole
import proofs.«137392_j61306363183369_1_alg».proof.Proof.KWhole
import proofs.«137392_j61306363183369_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run (F := Bits) m ρ)

/-- The idealized kernel runs and leaves its arguments as launched. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run (F := Ideal) m ρ)

/-- The reference runs and leaves its arguments as launched. -/
theorem frame_r : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The one named constant: the table gives the reciprocal of the node count its exact value. -/
theorem preserves : Cert.preserves_Kernel_KernelIdeal :=
  IdealRules.named_const.statement Cert.KernelIdeal.κ "inv_50000" .f32 0x37A7C5AC#32 ((1 / 50000 : ℝ) : EReal) rfl

/-- From memories agreeing on the arguments both idealized programs end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result (F := Ideal) m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Hand.result_eq m m' c (hagree c).1 (hagree c).2.1 (hagree c).2.2.1 (hagree c).2.2.2.1
    (hagree c).2.2.2.2.1 (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
